-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x3x128 : Shape := ⟨3, ![20000, 3, 128]⟩
abbrev S2x160000 : Shape := ⟨2, ![2, 160000]⟩
abbrev S160000x20 : Shape := ⟨2, ![160000, 20]⟩
abbrev S160000x3 : Shape := ⟨2, ![160000, 3]⟩
abbrev S160000 : Shape := ⟨1, ![160000]⟩
abbrev S128x384 : Shape := ⟨2, ![128, 384]⟩
abbrev S384 : Shape := ⟨1, ![384]⟩
abbrev S384x384 : Shape := ⟨2, ![384, 384]⟩
abbrev S20x128 : Shape := ⟨2, ![20, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x3x128 : S_.BroadcastsInDim S20000x3x128 (![] : Fin 0 → Fin S20000x3x128.rank)
  reducesTo_S20000x3x128_S_d0_1_2 : S20000x3x128.ReducesTo [0, 1, 2] S_
  bcast_S_S160000x20 : S_.BroadcastsInDim S160000x20 (![] : Fin 0 → Fin S160000x20.rank)
  reducesTo_S160000x20_S_d0_1 : S160000x20.ReducesTo [0, 1] S_
  bcast_S_S160000x3 : S_.BroadcastsInDim S160000x3 (![] : Fin 0 → Fin S160000x3.rank)
  reducesTo_S160000x3_S_d0_1 : S160000x3.ReducesTo [0, 1] S_
  bcast_S_S160000 : S_.BroadcastsInDim S160000 (![] : Fin 0 → Fin S160000.rank)
  reducesTo_S160000_S_d0 : S160000.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S384x384 : S_.BroadcastsInDim S384x384 (![] : Fin 0 → Fin S384x384.rank)
  reducesTo_S384x384_S_d0_1 : S384x384.ReducesTo [0, 1] S_
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_
  bcast_S_S2x160000 : S_.BroadcastsInDim S2x160000 (![] : Fin 0 → Fin S2x160000.rank)
  reducesTo_S2x160000_S_d0_1 : S2x160000.ReducesTo [0, 1] S_

variable [Facts]

def fn_part4 {F : FTy → Type} [FloatOps F] (main_v63 : IVec S_ 1) (main_v65 : IVec S2x160000 1) (main_v67 : IVec S2x160000 1) : IVec S_ 1 :=
  let main_v68 : IVec S2x160000 1 := andi main_v65 main_v67
  let main_c_26 : IVec S_ 1 := constantI S_ 1 1#1
  let main_v69 : IVec S_ 1 := (fun x v => Host.reduce IntOp.andi x v reducesTo_S2x160000_S_d0_1 h_S_) main_v68 main_c_26
  let main_v70 : IVec S_ 1 := andi main_v63 main_v69
  main_v70

def fn_part3 {F : FTy → Type} [FloatOps F] (main_arg2 : IVec S2x160000 32) (main_arg12 : FVec F S128x384 .f32) (main_arg13 : FVec F S384 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x384 .f32 := Host.absf main_arg12
  let main_cst_20 : FVec F S_ .f32 := constant S_ .f32 0x7F800000#32
  let main_v55 : FVec F S128x384 .f32 := broadcastInDim S128x384 ![] bcast_S_S128x384 main_cst_20
  let main_v56 : IVec S128x384 1 := cmpf .olt main_v54 main_v55
  let main_c_21 : IVec S_ 1 := constantI S_ 1 1#1
  let main_v57 : IVec S_ 1 := (fun x v => Host.reduce IntOp.andi x v reducesTo_S128x384_S_d0_1 h_S_) main_v56 main_c_21
  let main_v58 : IVec S_ 1 := andi main_v53 main_v57
  let main_v59 : FVec F S384 .f32 := Host.absf main_arg13
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_c_24 : IVec S_ 32 := constantI S_ 32 0#32
  let main_v64 : IVec S2x160000 32 := broadcastInDim S2x160000 ![] bcast_S_S2x160000 main_c_24
  let main_v65 : IVec S2x160000 1 := cmpi .sge main_arg2 main_v64
  let main_c_25 : IVec S_ 32 := constantI S_ 32 20000#32
  let main_v66 : IVec S2x160000 32 := broadcastInDim S2x160000 ![] bcast_S_S2x160000 main_c_25
  let main_v67 : IVec S2x160000 1 := cmpi .slt main_arg2 main_v66
  fn_part4 (F := F) main_v63 main_v65 main_v67

def fn_part2 {F : FTy → Type} [FloatOps F] (main_arg2 : IVec S2x160000 32) (main_arg8 : FVec F S384x384 .f32) (main_arg9 : FVec F S384 .f32) (main_arg10 : FVec F S20x128 .f32) (main_arg11 : FVec F S128 .f32) (main_arg12 : FVec F S128x384 .f32) (main_arg13 : FVec F S384 .f32) (main_v33 : IVec S_ 1) : IVec S_ 1 :=
  let main_v34 : FVec F S384x384 .f32 := Host.absf main_arg8
  let main_cst_12 : FVec F S_ .f32 := constant S_ .f32 0x7F800000#32
  let main_v35 : FVec F S384x384 .f32 := broadcastInDim S384x384 ![] bcast_S_S384x384 main_cst_12
  let main_v36 : IVec S384x384 1 := cmpf .olt main_v34 main_v35
  let main_c_13 : IVec S_ 1 := constantI S_ 1 1#1
  let main_v37 : IVec S_ 1 := (fun x v => Host.reduce IntOp.andi x v reducesTo_S384x384_S_d0_1 h_S_) main_v36 main_c_13
  let main_v38 : IVec S_ 1 := andi main_v33 main_v37
  let main_v39 : FVec F S384 .f32 := Host.absf main_arg9
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S20x128 .f32 := Host.absf main_arg10
  let main_cst_16 : FVec F S_ .f32 := constant S_ .f32 0x7F800000#32
  let main_v45 : FVec F S20x128 .f32 := broadcastInDim S20x128 ![] bcast_S_S20x128 main_cst_16
  let main_v46 : IVec S20x128 1 := cmpf .olt main_v44 main_v45
  let main_c_17 : IVec S_ 1 := constantI S_ 1 1#1
  let main_v47 : IVec S_ 1 := (fun x v => Host.reduce IntOp.andi x v reducesTo_S20x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_v48 main_v49 main_v50

def fn_part1 {F : FTy → Type} [FloatOps F] (main_arg2 : IVec S2x160000 32) (main_arg5 : FVec F S160000 .f32) (main_arg6 : FVec F S128x384 .f32) (main_arg7 : FVec F S384 .f32) (main_arg8 : FVec F S384x384 .f32) (main_arg9 : FVec F S384 .f32) (main_arg10 : FVec F S20x128 .f32) (main_arg11 : FVec F S128 .f32) (main_arg12 : FVec F S128x384 .f32) (main_arg13 : FVec F S384 .f32) (main_v13 : IVec S_ 1) (main_v16 : IVec S160000x3 1) : IVec S_ 1 :=
  let main_c_5 : IVec S_ 1 := constantI S_ 1 1#1
  let main_v17 : IVec S_ 1 := (fun x v => Host.reduce IntOp.andi x v reducesTo_S160000x3_S_d0_1 h_S_) main_v16 main_c_5
  let main_v18 : IVec S_ 1 := andi main_v13 main_v17
  let main_v19 : FVec F S160000 .f32 := Host.absf main_arg5
  let main_cst_6 : FVec F S_ .f32 := constant S_ .f32 0x7F800000#32
  let main_v20 : FVec F S160000 .f32 := broadcastInDim S160000 ![] bcast_S_S160000 main_cst_6
  let main_v21 : IVec S160000 1 := cmpf .olt main_v19 main_v20
  let main_c_7 : IVec S_ 1 := constantI S_ 1 1#1
  let main_v22 : IVec S_ 1 := (fun x v => Host.reduce IntOp.andi x v reducesTo_S160000_S_d0 h_S_) main_v21 main_c_7
  let main_v23 : IVec S_ 1 := andi main_v18 main_v22
  let main_v24 : FVec F S128x384 .f32 := Host.absf main_arg6
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg2 main_arg8 main_arg9 main_arg10 main_arg11 main_arg12 main_arg13 main_v33

def fn {F : FTy → Type} [FloatOps F] (main_arg0 : FVec F S20000x128 .f32) (main_arg1 : FVec F S20000x3x128 .f32) (main_arg2 : IVec S2x160000 32) (main_arg3 : FVec F S160000x20 .f32) (main_arg4 : FVec F S160000x3 .f32) (main_arg5 : FVec F S160000 .f32) (main_arg6 : FVec F S128x384 .f32) (main_arg7 : FVec F S384 .f32) (main_arg8 : FVec F S384x384 .f32) (main_arg9 : FVec F S384 .f32) (main_arg10 : FVec F S20x128 .f32) (main_arg11 : FVec F S128 .f32) (main_arg12 : FVec F S128x384 .f32) (main_arg13 : FVec F S384 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x3x128 .f32 := Host.absf main_arg1
  let main_cst_0 : FVec F S_ .f32 := constant S_ .f32 0x7F800000#32
  let main_v5 : FVec F S20000x3x128 .f32 := broadcastInDim S20000x3x128 ![] bcast_S_S20000x3x128 main_cst_0
  let main_v6 : IVec S20000x3x128 1 := cmpf .olt main_v4 main_v5
  let main_c_1 : IVec S_ 1 := constantI S_ 1 1#1
  let main_v7 : IVec S_ 1 := (fun x v => Host.reduce IntOp.andi x v reducesTo_S20000x3x128_S_d0_1_2 h_S_) main_v6 main_c_1
  let main_v8 : IVec S_ 1 := andi main_v3 main_v7
  let main_v9 : FVec F S160000x20 .f32 := Host.absf main_arg3
  let main_cst_2 : FVec F S_ .f32 := constant S_ .f32 0x7F800000#32
  let main_v10 : FVec F S160000x20 .f32 := broadcastInDim S160000x20 ![] bcast_S_S160000x20 main_cst_2
  let main_v11 : IVec S160000x20 1 := cmpf .olt main_v9 main_v10
  let main_c_3 : IVec S_ 1 := constantI S_ 1 1#1
  let main_v12 : IVec S_ 1 := (fun x v => Host.reduce IntOp.andi x v reducesTo_S160000x20_S_d0_1 h_S_) main_v11 main_c_3
  let main_v13 : IVec S_ 1 := andi main_v8 main_v12
  let main_v14 : FVec F S160000x3 .f32 := Host.absf main_arg4
  let main_cst_4 : FVec F S_ .f32 := constant S_ .f32 0x7F800000#32
  let main_v15 : FVec F S160000x3 .f32 := broadcastInDim S160000x3 ![] bcast_S_S160000x3 main_cst_4
  let main_v16 : IVec S160000x3 1 := cmpf .olt main_v14 main_v15
  fn_part1 (F := F) main_arg2 main_arg5 main_arg6 main_arg7 main_arg8 main_arg9 main_arg10 main_arg11 main_arg12 main_arg13 main_v13 main_v16
-- ==== Kernel.lean ====
abbrev S20000x128 : Shape := ⟨2, ![20000, 128]⟩
abbrev S20000x3x128 : Shape := ⟨3, ![20000, 3, 128]⟩
abbrev S2x160000 : Shape := ⟨2, ![2, 160000]⟩
abbrev S160000x20 : Shape := ⟨2, ![160000, 20]⟩
abbrev S160000x3 : Shape := ⟨2, ![160000, 3]⟩
abbrev S160000 : Shape := ⟨1, ![160000]⟩
abbrev S128x384 : Shape := ⟨2, ![128, 384]⟩
abbrev S384 : Shape := ⟨1, ![384]⟩
abbrev S384x384 : Shape := ⟨2, ![384, 384]⟩
abbrev S20x128 : Shape := ⟨2, ![20, 128]⟩
abbrev S128 : Shape := ⟨1, ![128]⟩
abbrev S1x160000 : Shape := ⟨2, ![1, 160000]⟩
abbrev S160000x1 : Shape := ⟨2, ![160000, 1]⟩
abbrev S20000x384 : Shape := ⟨2, ![20000, 384]⟩
abbrev S1x384 : Shape := ⟨2, ![1, 384]⟩
abbrev S20000x768 : Shape := ⟨2, ![20000, 768]⟩
abbrev S2000x128 : Shape := ⟨2, ![2000, 128]⟩
abbrev S2000x384 : Shape := ⟨2, ![2000, 384]⟩
abbrev S2000x768 : Shape := ⟨2, ![2000, 768]⟩
abbrev S1x128 : Shape := ⟨2, ![1, 128]⟩
abbrev S160000x512 : Shape := ⟨2, ![160000, 512]⟩
abbrev S640x1 : Shape := ⟨2, ![640, 1]⟩
abbrev S640x20 : Shape := ⟨2, ![640, 20]⟩
abbrev S640x3 : Shape := ⟨2, ![640, 3]⟩
abbrev S640x512 : Shape := ⟨2, ![640, 512]⟩
abbrev S640x768 : Shape := ⟨2, ![640, 768]⟩
abbrev S640x400 : Shape := ⟨2, ![640, 400]⟩
abbrev S400x768 : Shape := ⟨2, ![400, 768]⟩
abbrev S640x128 : Shape := ⟨2, ![640, 128]⟩
abbrev S640x384 : Shape := ⟨2, ![640, 384]⟩
abbrev S20000x512 : Shape := ⟨2, ![20000, 512]⟩
abbrev S1x1280 : Shape := ⟨2, ![1, 1280]⟩
abbrev S1280x256 : Shape := ⟨2, ![1280, 256]⟩
abbrev S20000x256 : Shape := ⟨2, ![20000, 256]⟩
abbrev S1000x1 : Shape := ⟨2, ![1000, 1]⟩
abbrev S1000x1280 : Shape := ⟨2, ![1000, 1280]⟩
abbrev S1000x256 : Shape := ⟨2, ![1000, 256]⟩
abbrev S_ : Shape := ⟨0, ![]⟩
abbrev S20000 : Shape := ⟨1, ![20000]⟩
abbrev S20000x1 : Shape := ⟨2, ![20000, 1]⟩
abbrev S20000x1x1 : Shape := ⟨3, ![20000, 1, 1]⟩

abbrev nBuf : Space → Nat
  | .hbm => 58
  | .vmem => 31
  | .smem => 0
  | _ => 0

abbrev bufTy : (tb : Table) → Fin (tcTables nBuf tb) → BufTy
  | .hbm, ⟨0, _⟩ => ⟨S20000x128, .f32⟩
  | .hbm, ⟨1, _⟩ => ⟨S20000x3x128, .f32⟩
  | .hbm, ⟨2, _⟩ => ⟨S2x160000, .i32⟩
  | .hbm, ⟨3, _⟩ => ⟨S160000x20, .f32⟩
  | .hbm, ⟨4, _⟩ => ⟨S160000x3, .f32⟩
  | .hbm, ⟨5, _⟩ => ⟨S160000, .f32⟩
  | .hbm, ⟨6, _⟩ => ⟨S128x384, .f32⟩
  | .hbm, ⟨7, _⟩ => ⟨S384, .f32⟩
  | .hbm, ⟨8, _⟩ => ⟨S384x384, .f32⟩
  | .hbm, ⟨9, _⟩ => ⟨S384, .f32⟩
  | .hbm, ⟨10, _⟩ => ⟨S20x128, .f32⟩
  | .hbm, ⟨11, _⟩ => ⟨S128, .f32⟩
  | .hbm, ⟨12, _⟩ => ⟨S128x384, .f32⟩
  | .hbm, ⟨13, _⟩ => ⟨S384, .f32⟩
  | .hbm, ⟨14, _⟩ => ⟨S1x160000, .i32⟩
  | .hbm, ⟨15, _⟩ => ⟨S160000, .i32⟩
  | .hbm, ⟨16, _⟩ => ⟨S160000x1, .i32⟩
  | .hbm, ⟨17, _⟩ => ⟨S1x160000, .i32⟩
  | .hbm, ⟨18, _⟩ => ⟨S160000, .i32⟩
  | .hbm, ⟨19, _⟩ => ⟨S1x160000, .i32⟩
  | .hbm, ⟨20, _⟩ => ⟨S20000x384, .f32⟩
  | .hbm, ⟨21, _⟩ => ⟨S1x384, .f32⟩
  | .hbm, ⟨22, _⟩ => ⟨S1x384, .f32⟩
  | .hbm, ⟨23, _⟩ => ⟨S20000x768, .bf16⟩
  | .hbm, ⟨24, _⟩ => ⟨S160000x1, .f32⟩
  | .hbm, ⟨25, _⟩ => ⟨S1x128, .f32⟩
  | .hbm, ⟨26, _⟩ => ⟨S1x384, .f32⟩
  | .hbm, ⟨27, _⟩ => ⟨S160000x512, .f32⟩
  | .hbm, ⟨28, _⟩ => ⟨S20000x512, .f32⟩
  | .hbm, ⟨29, _⟩ => ⟨S20000x128, .f32⟩
  | .hbm, ⟨30, _⟩ => ⟨S20000x384, .f32⟩
  | .hbm, ⟨31, _⟩ => ⟨S20000x3x128, .f32⟩
  | .hbm, ⟨32, _⟩ => ⟨S1x160000, .i32⟩
  | .hbm, ⟨33, _⟩ => ⟨S160000, .i32⟩
  | .hbm, ⟨34, _⟩ => ⟨S_, .f32⟩
  | .hbm, ⟨35, _⟩ => ⟨S20000, .f32⟩
  | .hbm, ⟨36, _⟩ => ⟨S_, .i32⟩
  | .hbm, ⟨37, _⟩ => ⟨S160000, .i32⟩
  | .hbm, ⟨38, _⟩ => ⟨S160000, .i1⟩
  | .hbm, ⟨39, _⟩ => ⟨S_, .i32⟩
  | .hbm, ⟨40, _⟩ => ⟨S160000, .i32⟩
  | .hbm, ⟨41, _⟩ => ⟨S160000, .i32⟩
  | .hbm, ⟨42, _⟩ => ⟨S160000, .i32⟩
  | .hbm, ⟨43, _⟩ => ⟨S160000x1, .i32⟩
  | .hbm, ⟨44, _⟩ => ⟨S_, .f32⟩
  | .hbm, ⟨45, _⟩ => ⟨S160000, .f32⟩
  | .hbm, ⟨46, _⟩ => ⟨S20000, .f32⟩
  | .hbm, ⟨47, _⟩ => ⟨S_, .f32⟩
  | .hbm, ⟨48, _⟩ => ⟨S20000, .f32⟩
  | .hbm, ⟨49, _⟩ => ⟨S20000, .f32⟩
  | .hbm, ⟨50, _⟩ => ⟨S20000x1, .f32⟩
  | .hbm, ⟨51, _⟩ => ⟨S20000x128, .f32⟩
  | .hbm, ⟨52, _⟩ => ⟨S20000x128, .f32⟩
  | .hbm, ⟨53, _⟩ => ⟨S20000x1x1, .f32⟩
  | .hbm, ⟨54, _⟩ => ⟨S20000x3x128, .f32⟩
  | .hbm, ⟨55, _⟩ => ⟨S20000x3x128, .f32⟩
  | .hbm, ⟨56, _⟩ => ⟨S20000x128, .f32⟩
  | .hbm, ⟨57, _⟩ => ⟨S20000x3x128, .f32⟩
  | .local _ .vmem, ⟨0, _⟩ => ⟨S2000x128, .f32⟩
  | .local _ .vmem, ⟨1, _⟩ => ⟨S2000x128, .f32⟩
  | .local _ .vmem, ⟨2, _⟩ => ⟨S2000x384, .f32⟩
  | .local _ .vmem, ⟨3, _⟩ => ⟨S2000x384, .f32⟩
  | .local _ .vmem, ⟨4, _⟩ => ⟨S128x384, .f32⟩
  | .local _ .vmem, ⟨5, _⟩ => ⟨S1x384, .f32⟩
  | .local _ .vmem, ⟨6, _⟩ => ⟨S384x384, .f32⟩
  | .local _ .vmem, ⟨7, _⟩ => ⟨S1x384, .f32⟩
  | .local _ .vmem, ⟨8, _⟩ => ⟨S2000x768, .bf16⟩
  | .local _ .vmem, ⟨9, _⟩ => ⟨S2000x768, .bf16⟩
  | .local _ .vmem, ⟨10, _⟩ => ⟨S640x1, .i32⟩
  | .local _ .vmem, ⟨11, _⟩ => ⟨S640x1, .i32⟩
  | .local _ .vmem, ⟨12, _⟩ => ⟨S20000x768, .bf16⟩
  | .local _ .vmem, ⟨13, _⟩ => ⟨S640x20, .f32⟩
  | .local _ .vmem, ⟨14, _⟩ => ⟨S640x20, .f32⟩
  | .local _ .vmem, ⟨15, _⟩ => ⟨S640x1, .f32⟩
  | .local _ .vmem, ⟨16, _⟩ => ⟨S640x1, .f32⟩
  | .local _ .vmem, ⟨17, _⟩ => ⟨S640x3, .f32⟩
  | .local _ .vmem, ⟨18, _⟩ => ⟨S640x3, .f32⟩
  | .local _ .vmem, ⟨19, _⟩ => ⟨S20x128, .f32⟩
  | .local _ .vmem, ⟨20, _⟩ => ⟨S1x128, .f32⟩
  | .local _ .vmem, ⟨21, _⟩ => ⟨S128x384, .f32⟩
  | .local _ .vmem, ⟨22, _⟩ => ⟨S1x384, .f32⟩
  | .local _ .vmem, ⟨23, _⟩ => ⟨S640x512, .f32⟩
  | .local _ .vmem, ⟨24, _⟩ => ⟨S640x512, .f32⟩
  | .local _ .vmem, ⟨25, _⟩ => ⟨S640x768, .f32⟩
  | .local _ .vmem, ⟨26, _⟩ => ⟨S1x1280, .i32⟩
  | .local _ .vmem, ⟨27, _⟩ => ⟨S1x1280, .i32⟩
  | .local _ .vmem, ⟨28, _⟩ => ⟨S1280x256, .f32⟩
  | .local _ .vmem, ⟨29, _⟩ => ⟨S1280x256, .f32⟩
  | .local _ .vmem, ⟨30, _⟩ => ⟨S20000x256, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![250], ![false]⟩

@[reducible] def k1_t1_loop : Scf.Loop 32 :=
  let c0_i32 : BitVec 32 := 0#32
  let c50_i32 : BitVec 32 := 50#32
  let v6 : BitVec 32 := Scalar.addi c0_i32 c50_i32
  let c1_i32 : BitVec 32 := 1#32
  ⟨c0_i32, v6, c1_i32⟩
def k1_mult1 (k1_t1 : Fin k1_t1_loop.trips) : BitVec 32 :=
  let c0_i32_28 : BitVec 32 := 0#32
  let c0_i32 : BitVec 32 := 0#32
  let c1_i32 : BitVec 32 := 1#32
  let arg12 : BitVec 32 := Scf.iv c0_i32 c1_i32 k1_t1
  let c1_i32_27 : BitVec 32 := 1#32
  let v64 : BitVec 32 := Scalar.muli arg12 c1_i32_27
  let v65 : BitVec 32 := Scalar.addi c0_i32_28 v64
  let c400_i32 : BitVec 32 := 400#32
  let v66 : BitVec 32 := Scalar.muli v65 c400_i32
  v66
def k1_off1 (k1_t1 : Fin k1_t1_loop.trips) : Fin 2 → Nat :=
  let c0_i32_28 : BitVec 32 := 0#32
  let c0_i32 : BitVec 32 := 0#32
  let c1_i32 : BitVec 32 := 1#32
  let arg12 : BitVec 32 := Scf.iv c0_i32 c1_i32 k1_t1
  let c1_i32_27 : BitVec 32 := 1#32
  let v64 : BitVec 32 := Scalar.muli arg12 c1_i32_27
  let v65 : BitVec 32 := Scalar.addi c0_i32_28 v64
  let c400_i32 : BitVec 32 := 400#32
  let v66 : BitVec 32 := Scalar.muli v65 c400_i32
  let v67 : BitVec 32 := v66
  let v76 : Index := Scalar.indexCast v67
  let c0_29 : Index := 0#32
  ![v76.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S20000x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S640x20 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S640x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S640x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S20x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x384 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S640x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨2, ![2, 125], ![false, false]⟩

@[reducible] def k2_t1_loop : Scf.Loop 32 :=
  let c0_i32_4 : BitVec 32 := 0#32
  let c20_i32 : BitVec 32 := 20#32
  let v8 : BitVec 32 := Scalar.addi c0_i32_4 c20_i32
  let c1_i32 : BitVec 32 := 1#32
  ⟨c0_i32_4, v8, c1_i32⟩
def k2_mult1 (k2_t1 : Fin k2_t1_loop.trips) : BitVec 32 :=
  let c0_i32_7 : BitVec 32 := 0#32
  let c0_i32_4 : BitVec 32 := 0#32
  let c1_i32 : BitVec 32 := 1#32
  let arg5 : BitVec 32 := Scf.iv c0_i32_4 c1_i32 k2_t1
  let c1_i32_6 : BitVec 32 := 1#32
  let v9 : BitVec 32 := Scalar.muli arg5 c1_i32_6
  let v10 : BitVec 32 := Scalar.addi c0_i32_7 v9
  let c1000_i32 : BitVec 32 := 1000#32
  let v11 : BitVec 32 := Scalar.muli v10 c1000_i32
  v11
def k2_off1 (k2_t1 : Fin k2_t1_loop.trips) : Fin 2 → Nat :=
  let c0_i32_7 : BitVec 32 := 0#32
  let c0_i32_4 : BitVec 32 := 0#32
  let c1_i32 : BitVec 32 := 1#32
  let arg5 : BitVec 32 := Scf.iv c0_i32_4 c1_i32 k2_t1
  let c1_i32_6 : BitVec 32 := 1#32
  let v9 : BitVec 32 := Scalar.muli arg5 c1_i32_6
  let v10 : BitVec 32 := Scalar.addi c0_i32_7 v9
  let c1000_i32 : BitVec 32 := 1000#32
  let v11 : BitVec 32 := Scalar.muli v10 c1000_i32
  let v12 : BitVec 32 := v11
  let v23 : Index := Scalar.indexCast v12
  let c0_8 : Index := 0#32
  ![v23.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1x1280 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1280x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S20000x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

class Facts₀ : Prop where
  slices_S2x160000_S1x160000_1_0 : S2x160000.Slices ![1, 0] S1x160000
  shapeCasts_S1x160000_S160000 : S1x160000.ShapeCasts S160000
  shapeCasts_S160000_S160000x1 : S160000.ShapeCasts S160000x1
  slices_S2x160000_S1x160000_0_0 : S2x160000.Slices ![0, 0] S1x160000
  shapeCasts_S160000_S1x160000 : S160000.ShapeCasts S1x160000
  shapeCasts_S20000x3x128_S20000x384 : S20000x3x128.ShapeCasts S20000x384
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S384x384_S384x384_0_0 : ∀ a, (![0, 0] : Fin 2 → Nat) a + S384x384.size a ≤ S384x384.size a
  h_S384x384 : 0 < S384x384.numel
  inb_S2000x768_S2000x384_0_0 : ∀ a, (![0, 0] : Fin 2 → Nat) a + S2000x384.size a ≤ S2000x768.size a
  h_S2000x384 : 0 < S2000x384.numel
  packedbf16_S2000x768_S2000x384_0_0 : (Rect.unit (s := S2000x768) ![0, 0] S2000x384.size inb_S2000x768_S2000x384_0_0).PackedRows (EltTy.packing .bf16)
  inb_S2000x384_S2000x384_0_0 : ∀ a, (![0, 0] : Fin 2 → Nat) a + S2000x384.size a ≤ S2000x384.size a
  shapeCasts_S2000x384_S2000x384 : S2000x384.ShapeCasts S2000x384
  inb_S2000x768_S2000x384_0_384 : ∀ a, (![0, 384] : Fin 2 → Nat) a + S2000x384.size a ≤ S2000x768.size a
  packedbf16_S2000x768_S2000x384_0_384 : (Rect.unit (s := S2000x768) ![0, 384] S2000x384.size inb_S2000x768_S2000x384_0_384).PackedRows (EltTy.packing .bf16)
  shapeCasts_S128_S1x128 : S128.ShapeCasts S1x128
  inb_S640x1_S640x1_0_0 : ∀ a, (![0, 0] : Fin 2 → Nat) a + S640x1.size a ≤ S640x1.size a
  h_S640x1 : 0 < S640x1.numel
  shapeCasts_S640x1_S640x1 : S640x1.ShapeCasts S640x1
  inb_S640x768_S640x768_0_0 : ∀ a, (![0, 0] : Fin 2 → Nat) a + S640x768.size a ≤ S640x768.size a
  h_S640x768 : 0 < S640x768.numel
  shapeCasts_S640x768_S640x768 : S640x768.ShapeCasts S640x768
  iota_S640x400_d1_w32 : S640x400.Iotas .tc 32 [1]
  broadcasts_S640x1_S640x400 : S640x1.Broadcasts S640x400
  natLt_1_32 : 1 < 32
  h_S400x768 : 0 < S400x768.numel
  shapeCasts_S400x768_S400x768 : S400x768.ShapeCasts S400x768
  slices_S640x768_o0_0_S640x128 : S640x768.Slices ![0, 0] S640x128
  slices_S640x768_o0_128_S640x128 : S640x768.Slices ![0, 128] S640x128
  slices_S640x768_o0_256_S640x128 : S640x768.Slices ![0, 256] S640x128
  slices_S640x768_o0_384_S640x384 : S640x768.Slices ![0, 384] S640x384
  inb_S640x20_S640x20_0_0 : ∀ a, (![0, 0] : Fin 2 → Nat) a + S640x20.size a ≤ S640x20.size a
  h_S640x20 : 0 < S640x20.numel
  inb_S20x128_S20x128_0_0 : ∀ a, (![0, 0] : Fin 2 → Nat) a + S20x128.size a ≤ S20x128.size a
  h_S20x128 : 0 < S20x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S640x128 : S1x128.Broadcasts S640x128
  broadcasts_S1x384_S640x384 : S1x384.Broadcasts S640x384
  broadcasts_S640x1_S640x384 : S640x1.Broadcasts S640x384
  slices_S640x384_o0_0_S640x128 : S640x384.Slices ![0, 0] S640x128
  slices_S640x384_o0_128_S640x128 : S640x384.Slices ![0, 128] S640x128
  slices_S640x384_o0_256_S640x128 : S640x384.Slices ![0, 256] S640x128
  inb_S640x3_S640x3_0_0 : ∀ a, (![0, 0] : Fin 2 → Nat) a + S640x3.size a ≤ S640x3.size a
  h_S640x3 : 0 < S640x3.numel
  slices_S640x3_o0_0_S640x1 : S640x3.Slices ![0, 0] S640x1
  broadcasts_S640x1_S640x128 : S640x1.Broadcasts S640x128
  slices_S640x3_o0_1_S640x1 : S640x3.Slices ![0, 1] S640x1
  slices_S640x3_o0_2_S640x1 : S640x3.Slices ![0, 2] S640x1
  inb_S640x512_S640x128_0_0 : ∀ a, (![0, 0] : Fin 2 → Nat) a + S640x128.size a ≤ S640x512.size a
  h_S640x128 : 0 < S640x128.numel
  inb_S640x512_S640x128_0_128 : ∀ a, (![0, 128] : Fin 2 → Nat) a + S640x128.size a ≤ S640x512.size a
  inb_S640x512_S640x128_0_256 : ∀ a, (![0, 256] : Fin 2 → Nat) a + S640x128.size a ≤ S640x512.size a
  inb_S640x512_S640x128_0_384 : ∀ a, (![0, 384] : Fin 2 → Nat) a + S640x128.size a ≤ S640x512.size a
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  inb_S20000x256_S20000x256_0_0 : ∀ a, (![0, 0] : Fin 2 → Nat) a + S20000x256.size a ≤ S20000x256.size a
  h_S20000x256 : 0 < S20000x256.numel
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  iota_S1000x1_d0_w32 : S1000x1.Iotas .tc 32 [0]
  broadcasts_S1000x1_S1000x1280 : S1000x1.Broadcasts S1000x1280
  broadcasts_S1x1280_S1000x1280 : S1x1280.Broadcasts S1000x1280
  h_S1000x256 : 0 < S1000x256.numel
  shapeCasts_S1000x256_S1000x256 : S1000x256.ShapeCasts S1000x256
  slices_S20000x512_S20000x128_0_0 : S20000x512.Slices ![0, 0] S20000x128
  slices_S20000x512_S20000x384_0_128 : S20000x512.Slices ![0, 128] S20000x384
  shapeCasts_S20000x384_S20000x3x128 : S20000x384.ShapeCasts S20000x3x128
  bcast_S_S20000 : S_.BroadcastsInDim S20000 (![] : Fin 0 → Fin S20000.rank)
  bcast_S_S160000 : S_.BroadcastsInDim S160000 (![] : Fin 0 → Fin S160000.rank)
  bcast_S160000_S160000x1_0 : S160000.BroadcastsInDim S160000x1 (![0] : Fin 1 → Fin S160000x1.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S20000_S20000x1x1_0 : S20000.BroadcastsInDim S20000x1x1 (![0] : Fin 1 → Fin S20000x1x1.rank)
  bcast_S20000x1x1_S20000x3x128_0_1_2 : S20000x1x1.BroadcastsInDim S20000x3x128 (![0, 1, 2] : Fin 3 → Fin S20000x3x128.rank)
  dot_S2000x128_S128x384_S2000x384_1_0_0_1_n_n_wf : DotDims.WF S2000x128 S128x384 S2000x384 [1] [0] [0] [1] [] []
  dot_S2000x384_S384x384_S2000x384_1_0_0_1_n_n_wf : DotDims.WF S2000x384 S384x384 S2000x384 [1] [0] [0] [1] [] []
  dot_S640x400_S400x768_S640x768_1_0_0_1_n_n_wf : DotDims.WF S640x400 S400x768 S640x768 [1] [0] [0] [1] [] []
  dot_S640x20_S20x128_S640x128_1_0_0_1_n_n_wf : DotDims.WF S640x20 S20x128 S640x128 [1] [0] [0] [1] [] []
  dot_S640x128_S128x384_S640x384_1_0_0_1_n_n_wf : DotDims.WF S640x128 S128x384 S640x384 [1] [0] [0] [1] [] []
  dot_S1000x1280_S1280x256_S1000x256_1_0_0_1_n_n_wf : DotDims.WF S1000x1280 S1280x256 S1000x256 [1] [0] [0] [1] [] []
  scatter_S20000_S160000x1_S160000_n_0_0_1_wf : ScatterDims.WF S20000 S160000x1 S160000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x384.size a ≤ S20000x384.size a
  hwx0_1 : ∀ i : grid0.Coords, EltTy.bits .f32 = 32 ∨ (Rect.block (s := S20000x384) S2000x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .f32 = 32 ∨ (Rect.block (s := S128x384) S128x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x384.size a
  hwx0_3 : ∀ i : grid0.Coords, EltTy.bits .f32 = 32 ∨ (Rect.block (s := S1x384) S1x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x384.size a ≤ S384x384.size a
  hwx0_4 : ∀ i : grid0.Coords, EltTy.bits .f32 = 32 ∨ (Rect.block (s := S384x384) S384x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x768.size a ≤ S20000x768.size a
  hwx0_6 : ∀ i : grid0.Coords, EltTy.bits .bf16 = 32 ∨ (Rect.block (s := S20000x768) S2000x768.size (cc0_transform_6 i) (hinb0_6 i)).WholeWords (EltTy.packing .bf16)
  hrank1 : 0 < grid1.rank
  k1_t1_ok : k1_t1_loop.OK
  k1_mult1_dvd : ∀ k1_t1 : Fin k1_t1_loop.trips, 16 ∣ (k1_mult1 k1_t1).toNat
  k1_off1_inb : ∀ k1_t1 : Fin k1_t1_loop.trips, ∀ a, (k1_off1 k1_t1) a + S400x768.size a ≤ S20000x768.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S640x1.size a ≤ S160000x1.size a
  hwx1_0 : ∀ i : grid1.Coords, EltTy.bits .i32 = 32 ∨ (Rect.block (s := S160000x1) S640x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S20000x768.size a ≤ S20000x768.size a
  hwx1_1 : ∀ i : grid1.Coords, EltTy.bits .bf16 = 32 ∨ (Rect.block (s := S20000x768) S20000x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S640x20.size a ≤ S160000x20.size a
  hwx1_2 : ∀ i : grid1.Coords, EltTy.bits .f32 = 32 ∨ (Rect.block (s := S160000x20) S640x20.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S640x1.size a ≤ S160000x1.size a
  hwx1_3 : ∀ i : grid1.Coords, EltTy.bits .f32 = 32 ∨ (Rect.block (s := S160000x1) S640x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S640x3.size a ≤ S160000x3.size a
  hwx1_4 : ∀ i : grid1.Coords, EltTy.bits .f32 = 32 ∨ (Rect.block (s := S160000x3) S640x3.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S20x128.size a ≤ S20x128.size a
  hwx1_5 : ∀ i : grid1.Coords, EltTy.bits .f32 = 32 ∨ (Rect.block (s := S20x128) S20x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x384.size a ≤ S128x384.size a
  hwx1_7 : ∀ i : grid1.Coords, EltTy.bits .f32 = 32 ∨ (Rect.block (s := S128x384) S128x384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x384.size a ≤ S1x384.size a
  hwx1_8 : ∀ i : grid1.Coords, EltTy.bits .f32 = 32 ∨ (Rect.block (s := S1x384) S1x384.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S640x512.size a ≤ S160000x512.size a
  hwx1_9 : ∀ i : grid1.Coords, EltTy.bits .f32 = 32 ∨ (Rect.block (s := S160000x512) S640x512.size (cc1_transform_9 i) (hinb1_9 i)).WholeWords (EltTy.packing .f32)
  hrank2 : 0 < grid2.rank
  k2_t1_ok : k2_t1_loop.OK
  k2_mult1_dvd : ∀ k2_t1 : Fin k2_t1_loop.trips, 8 ∣ (k2_mult1 k2_t1).toNat
  k2_off1_inb : ∀ k2_t1 : Fin k2_t1_loop.trips, ∀ a, (k2_off1 k2_t1) a + S1000x256.size a ≤ S20000x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1280.size a ≤ S1x160000.size a
  hwx2_0 : ∀ i : grid2.Coords, EltTy.bits .i32 = 32 ∨ (Rect.block (s := S1x160000) S1x1280.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x256.size a ≤ S160000x512.size a
  hwx2_1 : ∀ i : grid2.Coords, EltTy.bits .f32 = 32 ∨ (Rect.block (s := S160000x512) S1280x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S20000x256.size a ≤ S20000x512.size a
  hwx2_2 : ∀ i : grid2.Coords, EltTy.bits .f32 = 32 ∨ (Rect.block (s := S20000x512) S20000x256.size (cc2_transform_2 i) (hinb2_2 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x384_S384x384_S2000x384_1_0_0_1_n_n : DotDims S2000x384 S384x384 S2000x384 where
  lhsContracting := [1]
  rhsContracting := [0]
  lhsNonContracting := [0]
  rhsNonContracting := [1]
  lhsBatch := []
  rhsBatch := []
  wf := dot_S2000x384_S384x384_S2000x384_1_0_0_1_n_n_wf
def dot_S640x400_S400x768_S640x768_1_0_0_1_n_n : DotDims S640x400 S400x768 S640x768 where
  lhsContracting := [1]
  rhsContracting := [0]
  lhsNonContracting := [0]
  rhsNonContracting := [1]
  lhsBatch := []
  rhsBatch := []
  wf := dot_S640x400_S400x768_S640x768_1_0_0_1_n_n_wf
def dot_S640x20_S20x128_S640x128_1_0_0_1_n_n : DotDims S640x20 S20x128 S640x128 where
  lhsContracting := [1]
  rhsContracting := [0]
  lhsNonContracting := [0]
  rhsNonContracting := [1]
  lhsBatch := []
  rhsBatch := []
  wf := dot_S640x20_S20x128_S640x128_1_0_0_1_n_n_wf
def dot_S640x128_S128x384_S640x384_1_0_0_1_n_n : DotDims S640x128 S128x384 S640x384 where
  lhsContracting := [1]
  rhsContracting := [0]
  lhsNonContracting := [0]
  rhsNonContracting := [1]
  lhsBatch := []
  rhsBatch := []
  wf := dot_S640x128_S128x384_S640x384_1_0_0_1_n_n_wf
def dot_S1000x1280_S1280x256_S1000x256_1_0_0_1_n_n : DotDims S1000x1280 S1280x256 S1000x256 where
  lhsContracting := [1]
  rhsContracting := [0]
  lhsNonContracting := [0]
  rhsNonContracting := [1]
  lhsBatch := []
  rhsBatch := []
  wf := dot_S1000x1280_S1280x256_S1000x256_1_0_0_1_n_n_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S384x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S2000x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2) S640x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S20000x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S640x20.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S640x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S640x3.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S20x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S128x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S1x384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v13) S640x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v5) S1x1280.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1280x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S20000x256.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S20000x128 : Shape := ⟨2, ![20000, 128]⟩
abbrev S20000x3x128 : Shape := ⟨3, ![20000, 3, 128]⟩
abbrev S2x160000 : Shape := ⟨2, ![2, 160000]⟩
abbrev S160000x20 : Shape := ⟨2, ![160000, 20]⟩
abbrev S160000x3 : Shape := ⟨2, ![160000, 3]⟩
abbrev S160000 : Shape := ⟨1, ![160000]⟩
abbrev S128x384 : Shape := ⟨2, ![128, 384]⟩
abbrev S384 : Shape := ⟨1, ![384]⟩
abbrev S384x384 : Shape := ⟨2, ![384, 384]⟩
abbrev S20x128 : Shape := ⟨2, ![20, 128]⟩
abbrev S128 : Shape := ⟨1, ![128]⟩
abbrev S1x160000 : Shape := ⟨2, ![1, 160000]⟩
abbrev S160000x128 : Shape := ⟨2, ![160000, 128]⟩
abbrev S1x128 : Shape := ⟨2, ![1, 128]⟩
abbrev S_ : Shape := ⟨0, ![]⟩
abbrev S160000x384 : Shape := ⟨2, ![160000, 384]⟩
abbrev S1x384 : Shape := ⟨2, ![1, 384]⟩
abbrev S160000x1 : Shape := ⟨2, ![160000, 1]⟩
abbrev S20000x384 : Shape := ⟨2, ![20000, 384]⟩
abbrev S160000x3x128 : Shape := ⟨3, ![160000, 3, 128]⟩
abbrev S160000x3x1 : Shape := ⟨3, ![160000, 3, 1]⟩
abbrev S160000x1x128 : Shape := ⟨3, ![160000, 1, 128]⟩
abbrev S20000 : Shape := ⟨1, ![20000]⟩
abbrev S20000x1 : Shape := ⟨2, ![20000, 1]⟩
abbrev S20000x1x1 : Shape := ⟨3, ![20000, 1, 1]⟩

abbrev nBuf : Space → Nat
  | .hbm => 134
  | .vmem => 0
  | .smem => 0
  | _ => 0

abbrev hbmTy0_0 (i : Nat) : BufTy := match i % 128 with
  | 0 => ⟨S20000x128, .f32⟩
  | 1 => ⟨S20000x3x128, .f32⟩
  | 2 => ⟨S2x160000, .i32⟩
  | 3 => ⟨S160000x20, .f32⟩
  | 4 => ⟨S160000x3, .f32⟩
  | 5 => ⟨S160000, .f32⟩
  | 6 => ⟨S128x384, .f32⟩
  | 7 => ⟨S384, .f32⟩
  | 8 => ⟨S384x384, .f32⟩
  | 9 => ⟨S384, .f32⟩
  | 10 => ⟨S20x128, .f32⟩
  | 11 => ⟨S128, .f32⟩
  | 12 => ⟨S128x384, .f32⟩
  | 13 => ⟨S384, .f32⟩
  | 14 => ⟨S1x160000, .i32⟩
  | 15 => ⟨S160000, .i32⟩
  | 16 => ⟨S1x160000, .i32⟩
  | 17 => ⟨S160000, .i32⟩
  | 18 => ⟨S160000x128, .f32⟩
  | 19 => ⟨S1x128, .f32⟩
  | 20 => ⟨S160000x128, .f32⟩
  | 21 => ⟨S160000x128, .f32⟩
  | 22 => ⟨S160000x128, .f32⟩
  | 23 => ⟨S160000x128, .f32⟩
  | 24 => ⟨S_, .f32⟩
  | 25 => ⟨S160000x128, .f32⟩
  | 26 => ⟨S160000x128, .f32⟩
  | 27 => ⟨S_, .f32⟩
  | 28 => ⟨S160000x128, .f32⟩
  | 29 => ⟨S160000x128, .f32⟩
  | 30 => ⟨S160000x128, .f32⟩
  | 31 => ⟨S160000x384, .f32⟩
  | 32 => ⟨S1x384, .f32⟩
  | 33 => ⟨S160000x384, .f32⟩
  | 34 => ⟨S160000x384, .f32⟩
  | 35 => ⟨S160000x1, .f32⟩
  | 36 => ⟨S160000x384, .f32⟩
  | 37 => ⟨S160000x384, .f32⟩
  | 38 => ⟨S160000x128, .f32⟩
  | 39 => ⟨S160000x128, .f32⟩
  | 40 => ⟨S160000x128, .f32⟩
  | 41 => ⟨S20000x384, .f32⟩
  | 42 => ⟨S1x384, .f32⟩
  | 43 => ⟨S20000x384, .f32⟩
  | 44 => ⟨S20000x384, .f32⟩
  | 45 => ⟨S20000x384, .f32⟩
  | 46 => ⟨S20000x384, .f32⟩
  | 47 => ⟨S_, .f32⟩
  | 48 => ⟨S20000x384, .f32⟩
  | 49 => ⟨S20000x384, .f32⟩
  | 50 => ⟨S_, .f32⟩
  | 51 => ⟨S20000x384, .f32⟩
  | 52 => ⟨S20000x384, .f32⟩
  | 53 => ⟨S20000x384, .f32⟩
  | 54 => ⟨S20000x384, .f32⟩
  | 55 => ⟨S1x384, .f32⟩
  | 56 => ⟨S20000x384, .f32⟩
  | 57 => ⟨S20000x384, .f32⟩
  | 58 => ⟨S20000x128, .f32⟩
  | 59 => ⟨S20000x128, .f32⟩
  | 60 => ⟨S20000x128, .f32⟩
  | 61 => ⟨S_, .i32⟩
  | 62 => ⟨S160000, .i32⟩
  | 63 => ⟨S160000, .i1⟩
  | 64 => ⟨S_, .i32⟩
  | 65 => ⟨S160000, .i32⟩
  | 66 => ⟨S160000, .i32⟩
  | 67 => ⟨S160000, .i32⟩
  | 68 => ⟨S160000x1, .i32⟩
  | 69 => ⟨S160000x128, .f32⟩
  | 70 => ⟨S160000x128, .f32⟩
  | 71 => ⟨S_, .f32⟩
  | 72 => ⟨S20000x128, .f32⟩
  | 73 => ⟨S160000x1, .i32⟩
  | 74 => ⟨S20000x128, .f32⟩
  | 75 => ⟨S_, .i32⟩
  | 76 => ⟨S160000, .i32⟩
  | 77 => ⟨S160000, .i1⟩
  | 78 => ⟨S_, .i32⟩
  | 79 => ⟨S160000, .i32⟩
  | 80 => ⟨S160000, .i32⟩
  | 81 => ⟨S160000, .i32⟩
  | 82 => ⟨S160000x1, .i32⟩
  | 83 => ⟨S160000x128, .f32⟩
  | 84 => ⟨S160000x128, .f32⟩
  | 85 => ⟨S_, .i32⟩
  | 86 => ⟨S160000, .i32⟩
  | 87 => ⟨S160000, .i1⟩
  | 88 => ⟨S_, .i32⟩
  | 89 => ⟨S160000, .i32⟩
  | 90 => ⟨S160000, .i32⟩
  | 91 => ⟨S160000, .i32⟩
  | 92 => ⟨S160000x1, .i32⟩
  | 93 => ⟨S160000x128, .f32⟩
  | 94 => ⟨S160000x128, .f32⟩
  | 95 => ⟨S_, .i32⟩
  | 96 => ⟨S160000, .i32⟩
  | 97 => ⟨S160000, .i1⟩
  | 98 => ⟨S_, .i32⟩
  | 99 => ⟨S160000, .i32⟩
  | 100 => ⟨S160000, .i32⟩
  | 101 => ⟨S160000, .i32⟩
  | 102 => ⟨S160000x1, .i32⟩
  | 103 => ⟨S160000x3x128, .f32⟩
  | 104 => ⟨S160000x3x1, .f32⟩
  | 105 => ⟨S160000x1x128, .f32⟩
  | 106 => ⟨S160000x3x128, .f32⟩
  | 107 => ⟨S160000x3x128, .f32⟩
  | 108 => ⟨S160000x3x128, .f32⟩
  | 109 => ⟨S160000x1x128, .f32⟩
  | 110 => ⟨S160000x3x128, .f32⟩
  | 111 => ⟨S160000x3x128, .f32⟩
  | 112 => ⟨S160000x3x128, .f32⟩
  | 113 => ⟨S_, .f32⟩
  | 114 => ⟨S20000x3x128, .f32⟩
  | 115 => ⟨S160000x1, .i32⟩
  | 116 => ⟨S20000x3x128, .f32⟩
  | 117 => ⟨S_, .f32⟩
  | 118 => ⟨S160000, .f32⟩
  | 119 => ⟨S_, .f32⟩
  | 120 => ⟨S20000, .f32⟩
  | 121 => ⟨S160000x1, .i32⟩
  | 122 => ⟨S20000, .f32⟩
  | 123 => ⟨S_, .f32⟩
  | 124 => ⟨S20000, .f32⟩
  | 125 => ⟨S20000, .f32⟩
  | 126 => ⟨S20000x1, .f32⟩
  | 127 => ⟨S20000x128, .f32⟩
  | _ => ⟨S20000x128, .f32⟩

abbrev hbmTy0_1 (i : Nat) : BufTy := match i % 128 with
  | 0 => ⟨S20000x128, .f32⟩
  | 1 => ⟨S20000x1x1, .f32⟩
  | 2 => ⟨S20000x3x128, .f32⟩
  | 3 => ⟨S20000x3x128, .f32⟩
  | 4 => ⟨S20000x128, .f32⟩
  | 5 => ⟨S20000x3x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c : Ref sig .tc := ⟨.hbm, 61, rfl⟩
abbrev main_v31 : Ref sig .tc := ⟨.hbm, 62, rfl⟩
abbrev main_v32 : Ref sig .tc := ⟨.hbm, 63, rfl⟩
abbrev main_c_0 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_1 : Ref sig .tc := ⟨.hbm, 75, rfl⟩
abbrev main_v42 : Ref sig .tc := ⟨.hbm, 76, rfl⟩
abbrev main_v43 : Ref sig .tc := ⟨.hbm, 77, rfl⟩
abbrev main_c_2 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_3 : Ref sig .tc := ⟨.hbm, 85, rfl⟩
abbrev main_v50 : Ref sig .tc := ⟨.hbm, 86, rfl⟩
abbrev main_v51 : Ref sig .tc := ⟨.hbm, 87, rfl⟩
abbrev main_c_4 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c_5 : Ref sig .tc := ⟨.hbm, 95, rfl⟩
abbrev main_v58 : Ref sig .tc := ⟨.hbm, 96, rfl⟩
abbrev main_v59 : Ref sig .tc := ⟨.hbm, 97, rfl⟩
abbrev main_c_6 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_7 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_8 : Ref sig .tc := ⟨.hbm, 117, rfl⟩
abbrev main_v77 : Ref sig .tc := ⟨.hbm, 118, rfl⟩
abbrev main_cst_9 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_10 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S128_S1x128_1 : S128.BroadcastsInDim S1x128 (![1] : Fin 1 → Fin S1x128.rank)
  bcast_S1x128_S160000x128_0_1 : S1x128.BroadcastsInDim S160000x128 (![0, 1] : Fin 2 → Fin S160000x128.rank)
  bcast_S_S160000x128 : S_.BroadcastsInDim S160000x128 (![] : Fin 0 → Fin S160000x128.rank)
  bcast_S384_S1x384_1 : S384.BroadcastsInDim S1x384 (![1] : Fin 1 → Fin S1x384.rank)
  bcast_S1x384_S160000x384_0_1 : S1x384.BroadcastsInDim S160000x384 (![0, 1] : Fin 2 → Fin S160000x384.rank)
  bcast_S160000_S160000x1_0 : S160000.BroadcastsInDim S160000x1 (![0] : Fin 1 → Fin S160000x1.rank)
  bcast_S160000x1_S160000x384_0_1 : S160000x1.BroadcastsInDim S160000x384 (![0, 1] : Fin 2 → Fin S160000x384.rank)
  slices_S160000x384_S160000x128_0_0 : S160000x384.Slices ![0, 0] S160000x128
  slices_S160000x384_S160000x128_0_128 : S160000x384.Slices ![0, 128] S160000x128
  slices_S160000x384_S160000x128_0_256 : S160000x384.Slices ![0, 256] S160000x128
  bcast_S1x384_S20000x384_0_1 : S1x384.BroadcastsInDim S20000x384 (![0, 1] : Fin 2 → Fin S20000x384.rank)
  bcast_S_S20000x384 : S_.BroadcastsInDim S20000x384 (![] : Fin 0 → Fin S20000x384.rank)
  slices_S20000x384_S20000x128_0_0 : S20000x384.Slices ![0, 0] S20000x128
  slices_S20000x384_S20000x128_0_128 : S20000x384.Slices ![0, 128] S20000x128
  slices_S20000x384_S20000x128_0_256 : S20000x384.Slices ![0, 256] S20000x128
  bcast_S_S160000 : S_.BroadcastsInDim S160000 (![] : Fin 0 → Fin S160000.rank)
  bcast_S_S20000x128 : S_.BroadcastsInDim S20000x128 (![] : Fin 0 → Fin S20000x128.rank)
  bcast_S160000x3_S160000x3x1_0_1 : S160000x3.BroadcastsInDim S160000x3x1 (![0, 1] : Fin 2 → Fin S160000x3x1.rank)
  bcast_S160000x128_S160000x1x128_0_2 : S160000x128.BroadcastsInDim S160000x1x128 (![0, 2] : Fin 2 → Fin S160000x1x128.rank)
  bcast_S160000x3x1_S160000x3x128_0_1_2 : S160000x3x1.BroadcastsInDim S160000x3x128 (![0, 1, 2] : Fin 3 → Fin S160000x3x128.rank)
  bcast_S160000x1x128_S160000x3x128_0_1_2 : S160000x1x128.BroadcastsInDim S160000x3x128 (![0, 1, 2] : Fin 3 → Fin S160000x3x128.rank)
  bcast_S_S20000x3x128 : S_.BroadcastsInDim S20000x3x128 (![] : Fin 0 → Fin S20000x3x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S20000_S20000x1x1_0 : S20000.BroadcastsInDim S20000x1x1 (![0] : Fin 1 → Fin S20000x1x1.rank)
  bcast_S20000x1x1_S20000x3x128_0_1_2 : S20000x1x1.BroadcastsInDim S20000x3x128 (![0, 1, 2] : Fin 3 → Fin S20000x3x128.rank)
  dot_S160000x20_S20x128_S160000x128_1_0_0_1_n_n_wf : DotDims.WF S160000x20 S20x128 S160000x128 [1] [0] [0] [1] [] []
  dot_S160000x128_S128x384_S160000x384_1_0_0_1_n_n_wf : DotDims.WF S160000x128 S128x384 S160000x384 [1] [0] [0] [1] [] []
  dot_S20000x128_S128x384_S20000x384_1_0_0_1_n_n_wf : DotDims.WF S20000x128 S128x384 S20000x384 [1] [0] [0] [1] [] []
  dot_S20000x384_S384x384_S20000x384_1_0_0_1_n_n_wf : DotDims.WF S20000x384 S384x384 S20000x384 [1] [0] [0] [1] [] []
  gather_S20000x128_S160000x1_S160000x128_1_0_n_n_0_1_1128_wf : GatherDims.WF S20000x128 S160000x1 S160000x128 [1] [0] [] [0] [] 1 ![1, 128]
  scatter_S20000x128_S160000x1_S160000x128_1_0_0_1_wf : ScatterDims.WF S20000x128 S160000x1 S160000x128 [1] [0] [0] 1
  gather_S20000x3x128_S160000x1_S160000x3x128_12_0_n_n_0_1_13128_wf : GatherDims.WF S20000x3x128 S160000x1 S160000x3x128 [1, 2] [0] [] [0] [] 1 ![1, 3, 128]
  scatter_S20000x3x128_S160000x1_S160000x3x128_12_0_0_1_wf : ScatterDims.WF S20000x3x128 S160000x1 S160000x3x128 [1, 2] [0] [0] 1
  scatter_S20000_S160000x1_S160000_n_0_0_1_wf : ScatterDims.WF S20000 S160000x1 S160000 [] [0] [0] 1

variable [Facts₀]

def dot_S160000x20_S20x128_S160000x128_1_0_0_1_n_n : DotDims S160000x20 S20x128 S160000x128 where
  lhsContracting := [1]
  rhsContracting := [0]
  lhsNonContracting := [0]
  rhsNonContracting := [1]
  lhsBatch := []
  rhsBatch := []
  wf := dot_S160000x20_S20x128_S160000x128_1_0_0_1_n_n_wf
def dot_S160000x128_S128x384_S160000x384_1_0_0_1_n_n : DotDims S160000x128 S128x384 S160000x384 where
  lhsContracting := [1]
  rhsContracting := [0]
  lhsNonContracting := [0]
  rhsNonContracting := [1]
  lhsBatch := []
  rhsBatch := []
  wf := dot_S160000x128_S128x384_S160000x384_1_0_0_1_n_n_wf
def dot_S20000x128_S128x384_S20000x384_1_0_0_1_n_n : DotDims S20000x128 S128x384 S20000x384 where
  lhsContracting := [1]
  rhsContracting := [0]
  lhsNonContracting := [0]
  rhsNonContracting := [1]
  lhsBatch := []
  rhsBatch := []
  wf := dot_S20000x128_S128x384_S20000x384_1_0_0_1_n_n_wf
def dot_S20000x384_S384x384_S20000x384_1_0_0_1_n_n : DotDims S20000x384 S384x384 S20000x384 where
  lhsContracting := [1]
  rhsContracting := [0]
  lhsNonContracting := [0]
  rhsNonContracting := [1]
  lhsBatch := []
  rhsBatch := []
  wf := dot_S20000x384_S384x384_S20000x384_1_0_0_1_n_n_wf
def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def scatter_S20000x128_S160000x1_S160000x128_1_0_0_1 : ScatterDims S20000x128 S160000x1 S160000x128 where
  updateWindowDims := [1]
  insertedWindowDims := [0]
  scatterDimsToOperandDims := [0]
  indexVectorDim := 1
  wf := scatter_S20000x128_S160000x1_S160000x128_1_0_0_1_wf
def gather_S20000x3x128_S160000x1_S160000x3x128_12_0_n_n_0_1_13128 : GatherDims S20000x3x128 S160000x1 S160000x3x128 where
  offsetDims := [1, 2]
  collapsedSliceDims := [0]
  operandBatchingDims := []
  startIndicesBatchingDims := []
  startIndexMap := [0]
  indexVectorDim := 1
  sliceSizes := ![1, 3, 128]
  wf := gather_S20000x3x128_S160000x1_S160000x3x128_12_0_n_n_0_1_13128_wf
def scatter_S20000x3x128_S160000x1_S160000x3x128_12_0_0_1 : ScatterDims S20000x3x128 S160000x1 S160000x3x128 where
  updateWindowDims := [1, 2]
  insertedWindowDims := [0]
  scatterDimsToOperandDims := [0]
  indexVectorDim := 1
  wf := scatter_S20000x3x128_S160000x1_S160000x3x128_12_0_0_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf

class Facts : Prop extends Facts₀ where

variable [Facts]
-- ==== Proof.Spec.lean ====
/-
  The message-passing layer, entry by entry over the extended reals.

  Nodes carry a scalar feature row q (128 entries) and three vector feature rows mu (3 x 128). A two-layer perceptron
  with the gate x * sigma(x) between its layers sends each node's q row to 384 entries (three bands of 128: one
  for the scalar message, two for the vector message); another sends each edge's radial basis row to 384 filter
  entries, scaled by the edge's cutoff. An edge e from node s to node t carries
      the scalar message   x(s)[l] * f(e)[l]
      the vector message   u(e)[a] * (x(s)[128+l] * f(e)[128+l]) + mu(s)[a][l] * (x(s)[256+l] * f(e)[256+l])
  and each node receives the sum of the messages of the edges pointing at it, divided by the larger of their number and
  one, added to its own features.

  Two spellings of "row s of a table" and of "the sum over the edges pointing at t" are written here: a sum over ALL
  rows weighted by the indicator of equality (what a product with a zero-one matrix computes), and a sum of the terms
  selected by a condition (what a gather and a scatter-add compute).
-/
import Idealize.ShloMosaic.PureOps.Ideal
import Idealize.ShloMosaic.PureOps.Ideal.Laws
import Idealize.ShloMosaic.Lib.ValueIdx

noncomputable section

open scoped BigOperators

namespace PaiNN

open Idealize.ShloMosaic Idealize.ShloMosaic.ValueIdx

/-- The number of nodes and of edges. -/
abbrev NN : ℕ := 20000
abbrev NE : ℕ := 160000

/-- A matrix as a function of its row and column. -/
def fn2 {a b : ℕ} {α : Type} (A : (⟨2, ![a, b]⟩ : Shape).Idx → α) : Fin a → Fin b → α := fun r c => A (ix2 r c)
/-- A vector as a function of its position. -/
def fn1 {a : ℕ} {α : Type} (A : (⟨1, ![a]⟩ : Shape).Idx → α) : Fin a → α := fun r => A (ix1 r)
/-- A rank-three array as a function of its three coordinates. -/
def fn3 {a b c : ℕ} {α : Type} (A : (⟨3, ![a, b, c]⟩ : Shape).Idx → α) : Fin a → Fin b → Fin c → α := fun r s t => A (ix3 r s t)

/-- The matrix whose entry (r, c) is f r c. -/
def arr2 {a b : ℕ} {α : Type} (f : Fin a → Fin b → α) : (⟨2, ![a, b]⟩ : Shape).Idx → α :=
  fun i => f ⟨(i 0).val, idx2_lt0 i⟩ ⟨(i 1).val, idx2_lt1 i⟩

theorem arr2_ix2 {a b : ℕ} {α : Type} (f : Fin a → Fin b → α) (r : Fin a) (c : Fin b) : arr2 f (ix2 r c) = f r c := rfl

theorem arr2_fn2 {a b : ℕ} {α : Type} (A : (⟨2, ![a, b]⟩ : Shape).Idx → α) : arr2 (fn2 A) = A := by
  funext i
  show A (ix2 ⟨(i 0).val, _⟩ ⟨(i 1).val, _⟩) = A i
  exact congrArg A (eq_ix2 i).symm

/-- The rank-three array whose entry (r, s, t) is f r s t. -/
def arr3 {a b c : ℕ} {α : Type} (f : Fin a → Fin b → Fin c → α) : (⟨3, ![a, b, c]⟩ : Shape).Idx → α :=
  fun i => f ⟨(i 0).val, (i 0).isLt⟩ ⟨(i 1).val, (i 1).isLt⟩ ⟨(i 2).val, (i 2).isLt⟩

theorem arr3_ix3 {a b c : ℕ} {α : Type} (f : Fin a → Fin b → Fin c → α) (r : Fin a) (s : Fin b) (t : Fin c) :
    arr3 f (ix3 r s t) = f r s t := rfl

/-- The indicator of equality of two words. -/
def ind (a b : BitVec 32) : EReal := if a = b then 1 else 0

/-- The gate between the layers: x * sigma(x). -/
def silu (x : EReal) : EReal := x * Ideal.logistic x

/-- Entry (r, j) of the two-layer perceptron applied to the rows of x. -/
def mlp {m k h n : ℕ} (x : Fin m → Fin k → EReal) (w1 : Fin k → Fin h → EReal) (b1 : Fin h → EReal)
    (w2 : Fin h → Fin n → EReal) (b2 : Fin n → EReal) (r : Fin m) (j : Fin n) : EReal :=
  (∑ c : Fin h, silu ((∑ d : Fin k, x r d * w1 d c) + b1 c) * w2 c j) + b2 j

/-- A node's 768 table entries: its 384 perceptron outputs, then its three vector feature rows end to end. -/
def slabAt (x : Fin NN → Fin 384 → EReal) (muflat : Fin NN → Fin 384 → EReal) (n : Fin NN) (j : Fin 768) : EReal :=
  if h : j.val < 384 then x n ⟨j.val, h⟩ else muflat n ⟨j.val - 384, by have := j.isLt; omega⟩

/-- Row (src e) of the table, as the sum over all rows weighted by the indicator that the row's number is src e. -/
def gathAt (src : Fin NE → BitVec 32) (slab : Fin NN → Fin 768 → EReal) (e : Fin NE) (j : Fin 768) : EReal :=
  ∑ n : Fin NN, ind (src e) (BitVec.ofNat 32 n.val) * slab n j

/-- An edge's filter entries: the perceptron of its radial basis row, times its cutoff. -/
def filtAt (fmlp : Fin NE → Fin 384 → EReal) (cut : Fin NE → EReal) (e : Fin NE) (j : Fin 384) : EReal :=
  fmlp e j * cut e

/-- Component a, entry l of an edge's vector message, from its gathered table row g and its filter row f. -/
def vecAt (g : Fin NE → Fin 768 → EReal) (f : Fin NE → Fin 384 → EReal) (uv : Fin NE → Fin 3 → EReal)
    (e : Fin NE) (a : Fin 3) (l : Fin 128) : EReal :=
  uv e a * (g e ⟨128 + l.val, by omega⟩ * f e ⟨128 + l.val, by omega⟩)
    + g e ⟨384 + (128 * a.val + l.val), by omega⟩ * (g e ⟨256 + l.val, by omega⟩ * f e ⟨256 + l.val, by omega⟩)

/-- An edge's 512 message entries: the scalar message, then the three components of the vector message. -/
def msgAt (g : Fin NE → Fin 768 → EReal) (f : Fin NE → Fin 384 → EReal) (uv : Fin NE → Fin 3 → EReal)
    (e : Fin NE) (j : Fin 512) : EReal :=
  if h : j.val < 128 then g e ⟨j.val, by omega⟩ * f e ⟨j.val, by omega⟩
  else vecAt g f uv e ⟨(j.val - 128) / 128, by have := j.isLt; omega⟩ ⟨(j.val - 128) % 128, Nat.mod_lt _ (by norm_num)⟩

/-- The sum of the messages of the edges pointing at node n, as the sum over all edges weighted by the indicator that
    the edge's target is n. -/
def scatAt (tgt : Fin NE → BitVec 32) (msg : Fin NE → Fin 512 → EReal) (n : Fin NN) (j : Fin 512) : EReal :=
  ∑ e : Fin NE, ind (BitVec.ofNat 32 n.val) (tgt e) * msg e j

/-- A negative word moved up by the number of nodes (how an index counted from the end is read). -/
def wrapNeg (t : BitVec 32) : BitVec 32 := Scalar.select (IntOp.cmpi .slt t 0#32) (IntOp.addi t 20000#32) t

/-- The row a gather reads for the word s: s, moved up if negative, clamped into the table. -/
def rowOf (s : BitVec 32) : Fin NN :=
  ⟨min (wrapNeg s).toInt.toNat 19999, Nat.lt_of_le_of_lt (Nat.min_le_right _ _) (by norm_num)⟩

/-- The number of edges whose target word, read through w, is n (from zero, one per edge). -/
def cnt (w : BitVec 32 → BitVec 32) (tgt : Fin NE → BitVec 32) (n : Fin NN) : EReal :=
  0 + ∑ e : Fin NE, if (w (tgt e)).toInt = (n.val : Int) then (1 : EReal) else 0

/-! ## The result as the tiled program computes it -/

section Tiled

variable (q : Fin NN → Fin 128 → EReal) (mu : Fin NN → Fin 3 → Fin 128 → EReal) (src tgt : Fin NE → BitVec 32)
  (rbf : Fin NE → Fin 20 → EReal) (uv : Fin NE → Fin 3 → EReal) (cut : Fin NE → EReal)
  (W1 : Fin 128 → Fin 384 → EReal) (b1 : Fin 384 → EReal) (W2 : Fin 384 → Fin 384 → EReal) (b2 : Fin 384 → EReal)
  (Wf1 : Fin 20 → Fin 128 → EReal) (bf1 : Fin 128 → EReal) (Wf2 : Fin 128 → Fin 384 → EReal) (bf2 : Fin 384 → EReal)

/-- A node's three vector feature rows end to end. -/
def muFlat (n : Fin NN) (j : Fin 384) : EReal := mu n ⟨j.val / 128, by have := j.isLt; omega⟩ ⟨j.val % 128, Nat.mod_lt _ (by norm_num)⟩

/-- The table of node rows. -/
def tiledSlab : Fin NN → Fin 768 → EReal := slabAt (mlp q W1 b1 W2 b2) (muFlat mu)

/-- The edge messages. -/
def tiledMsg : Fin NE → Fin 512 → EReal :=
  msgAt (gathAt src (tiledSlab q mu W1 b1 W2 b2)) (filtAt (mlp rbf Wf1 bf1 Wf2 bf2) cut) uv

/-- The per-node sums of the edge messages. -/
def tiledNode : Fin NN → Fin 512 → EReal := scatAt tgt (tiledMsg q mu src rbf uv cut W1 b1 W2 b2 Wf1 bf1 Wf2 bf2)

/-- The scalar result. -/
def tiledQ (n : Fin NN) (l : Fin 128) : EReal :=
  q n l + Ideal.div (tiledNode q mu src tgt rbf uv cut W1 b1 W2 b2 Wf1 bf1 Wf2 bf2 n ⟨l.val, by omega⟩) (max (cnt wrapNeg tgt n) 1)

/-- The vector result. -/
def tiledMu (n : Fin NN) (a : Fin 3) (l : Fin 128) : EReal :=
  mu n a l + Ideal.div (tiledNode q mu src tgt rbf uv cut W1 b1 W2 b2 Wf1 bf1 Wf2 bf2 n ⟨128 + (128 * a.val + l.val), by omega⟩)
    (max (cnt wrapNeg tgt n) 1)

/-! ## The result as the whole-array program computes it -/

/-- The scalar messages summed over the edges whose target word is n. -/
def wholeScalar (n : Fin NN) (l : Fin 128) : EReal :=
  0 + ∑ e : Fin NE, if (tgt e).toInt = (n.val : Int) then
      mlp q W1 b1 W2 b2 (rowOf (src e)) ⟨l.val, by omega⟩ * filtAt (mlp rbf Wf1 bf1 Wf2 bf2) cut e ⟨l.val, by omega⟩
    else 0

/-- The vector messages summed over the edges whose target word is n. -/
def wholeVector (n : Fin NN) (a : Fin 3) (l : Fin 128) : EReal :=
  0 + ∑ e : Fin NE, if (tgt e).toInt = (n.val : Int) then
      uv e a * (mlp q W1 b1 W2 b2 (rowOf (src e)) ⟨128 + l.val, by omega⟩ * filtAt (mlp rbf Wf1 bf1 Wf2 bf2) cut e ⟨128 + l.val, by omega⟩)
        + mu (rowOf (src e)) a l * (mlp q W1 b1 W2 b2 (rowOf (src e)) ⟨256 + l.val, by omega⟩ * filtAt (mlp rbf Wf1 bf1 Wf2 bf2) cut e ⟨256 + l.val, by omega⟩)
    else 0

/-- The scalar result. -/
def wholeQ (n : Fin NN) (l : Fin 128) : EReal :=
  q n l + Ideal.div (wholeScalar q src tgt rbf cut W1 b1 W2 b2 Wf1 bf1 Wf2 bf2 n l) (max (cnt id tgt n) 1)

/-- The vector result. -/
def wholeMu (n : Fin NN) (a : Fin 3) (l : Fin 128) : EReal :=
  mu n a l + Ideal.div (wholeVector q mu src tgt rbf uv cut W1 b1 W2 b2 Wf1 bf1 Wf2 bf2 n a l) (max (cnt id tgt n) 1)

end Tiled

/-- Every edge's two words are node numbers. -/
def InRange (src tgt : Fin NE → BitVec 32) : Prop :=
  ∀ e : Fin NE, (0 ≤ (src e).toInt ∧ (src e).toInt < 20000) ∧ (0 ≤ (tgt e).toInt ∧ (tgt e).toInt < 20000)

/-! ## Both results as arrays of the fourteen argument arrays -/

section Arrays

variable (x0 : (⟨2, ![20000, 128]⟩ : Shape).Idx → EReal) (x1 : (⟨3, ![20000, 3, 128]⟩ : Shape).Idx → EReal)
  (x2 : (⟨2, ![2, 160000]⟩ : Shape).Idx → BitVec 32) (x3 : (⟨2, ![160000, 20]⟩ : Shape).Idx → EReal)
  (x4 : (⟨2, ![160000, 3]⟩ : Shape).Idx → EReal) (x5 : (⟨1, ![160000]⟩ : Shape).Idx → EReal)
  (x6 : (⟨2, ![128, 384]⟩ : Shape).Idx → EReal) (x7 : (⟨1, ![384]⟩ : Shape).Idx → EReal)
  (x8 : (⟨2, ![384, 384]⟩ : Shape).Idx → EReal) (x9 : (⟨1, ![384]⟩ : Shape).Idx → EReal)
  (x10 : (⟨2, ![20, 128]⟩ : Shape).Idx → EReal) (x11 : (⟨1, ![128]⟩ : Shape).Idx → EReal)
  (x12 : (⟨2, ![128, 384]⟩ : Shape).Idx → EReal) (x13 : (⟨1, ![384]⟩ : Shape).Idx → EReal)

/-- The edges' source words (row 1 of the edge list) and target words (row 0). -/
def srcOf (e : Fin NE) : BitVec 32 := x2 (ix2 (1 : Fin 2) e)
def tgtOf (e : Fin NE) : BitVec 32 := x2 (ix2 (0 : Fin 2) e)

def tiledOutQ : (⟨2, ![20000, 128]⟩ : Shape).Idx → EReal :=
  arr2 fun n l => tiledQ (fn2 x0) (fn3 x1) (srcOf x2) (tgtOf x2) (fn2 x3) (fn2 x4) (fn1 x5) (fn2 x6) (fn1 x7) (fn2 x8) (fn1 x9)
    (fn2 x10) (fn1 x11) (fn2 x12) (fn1 x13) n l

def tiledOutMu : (⟨3, ![20000, 3, 128]⟩ : Shape).Idx → EReal :=
  arr3 fun n a l => tiledMu (fn2 x0) (fn3 x1) (srcOf x2) (tgtOf x2) (fn2 x3) (fn2 x4) (fn1 x5) (fn2 x6) (fn1 x7) (fn2 x8) (fn1 x9)
    (fn2 x10) (fn1 x11) (fn2 x12) (fn1 x13) n a l

def wholeOutQ : (⟨2, ![20000, 128]⟩ : Shape).Idx → EReal :=
  arr2 fun n l => wholeQ (fn2 x0) (srcOf x2) (tgtOf x2) (fn2 x3) (fn1 x5) (fn2 x6) (fn1 x7) (fn2 x8) (fn1 x9)
    (fn2 x10) (fn1 x11) (fn2 x12) (fn1 x13) n l

def wholeOutMu : (⟨3, ![20000, 3, 128]⟩ : Shape).Idx → EReal :=
  arr3 fun n a l => wholeMu (fn2 x0) (fn3 x1) (srcOf x2) (tgtOf x2) (fn2 x3) (fn2 x4) (fn1 x5) (fn2 x6) (fn1 x7) (fn2 x8) (fn1 x9)
    (fn2 x10) (fn1 x11) (fn2 x12) (fn1 x13) n a l

/-- Every word of the edge list is a node number. -/
def ArgsInRange : Prop := InRange (srcOf x2) (tgtOf x2)

end Arrays

end PaiNN

end
-- ==== Proof.Region0.lean ====
/-
  What the first launch leaves in its output array: the table of node rows. Every grid point handles 2000 nodes; the
  body computes the two-layer perceptron of their q rows into the first 384 columns of the block and copies their
  flattened vector features into the last 384.
-/
import proofs.«407274_j17514876634209_3_alg».proof.Proof.Gen.KernelIdeal.Frame
import proofs.«407274_j17514876634209_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen PaiNN

/-! ## The two products of the perceptron, entry by entry

Each product contracts the second axis of its left factor with the first axis of its right factor and starts from a
zero accumulator, so entry (p, j) is the sum over the contracted position d of left (p, d) times right (d, j). -/

theorem lhsA_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhsA_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhsA_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhsA_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- The first product: 2000 rows of 128 entries times a 128 by 384 matrix. -/
theorem prodA_apply (a : FVec Ideal S2000x128 .bf16) (b : FVec Ideal S128x384 .bf16) (p : Fin 2000) (j : Fin 384) :
    matmul dot_S2000x128_S128x384_S2000x384_1_0_0_1_n_n none a b (constant (F := Ideal) S2000x384 .f32 0x00000000#32) (ix2 p j)
      = ∑ d : Fin 128, a (ix2 p d) * b (ix2 d j) := by
  simp only [matmul]
  rw [Ideal.matmul_constant_zero_apply, ← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 p j) ((ValueIdx.contrEquiv1 dot_S2000x128_S128x384_S2000x384_1_0_0_1_n_n 128 rfl rfl).symm k) = ix2 p k := funext fun ax => Fin.ext (by
    match ax with
    | ⟨0, _⟩ => exact lhsA_0 _ _
    | ⟨1, _⟩ => exact (lhsA_1 _ _).trans hk)
  have er : dot_S2000x128_S128x384_S2000x384_1_0_0_1_n_n.rhsIdx (ix2 p j) ((ValueIdx.contrEquiv1 dot_S2000x128_S128x384_S2000x384_1_0_0_1_n_n 128 rfl rfl).symm k) = ix2 k j := funext fun ax => Fin.ext (by
    match ax with
    | ⟨0, _⟩ => exact (rhsA_0 _ _).trans hk
    | ⟨1, _⟩ => exact rhsA_1 _ _)
  rw [el, er]

theorem lhsB_0 (i : S2000x384.Idx) (q : dot_S2000x384_S384x384_S2000x384_1_0_0_1_n_n.contr.Idx) :
    (dot_S2000x384_S384x384_S2000x384_1_0_0_1_n_n.lhsIdx i q 0).val = (i 0).val := by
  unfold DotDims.lhsIdx
  rw [dif_neg (show ¬(0 : Fin S2000x384.rank) ∈ dot_S2000x384_S384x384_S2000x384_1_0_0_1_n_n.lhsBatch by decide), dif_pos (show (0 : Fin S2000x384.rank) ∈ dot_S2000x384_S384x384_S2000x384_1_0_0_1_n_n.lhsNonContracting by decide)]
  rfl
theorem lhsB_1 (i : S2000x384.Idx) (q : dot_S2000x384_S384x384_S2000x384_1_0_0_1_n_n.contr.Idx) :
    (dot_S2000x384_S384x384_S2000x384_1_0_0_1_n_n.lhsIdx i q 1).val = (q ⟨0, by decide⟩).val :=
  dot_S2000x384_S384x384_S2000x384_1_0_0_1_n_n.lhsIdx_val_of_single rfl i q
theorem rhsB_0 (i : S2000x384.Idx) (q : dot_S2000x384_S384x384_S2000x384_1_0_0_1_n_n.contr.Idx) :
    (dot_S2000x384_S384x384_S2000x384_1_0_0_1_n_n.rhsIdx i q 0).val = (q ⟨0, by decide⟩).val :=
  dot_S2000x384_S384x384_S2000x384_1_0_0_1_n_n.rhsIdx_val_of_single rfl i q
theorem rhsB_1 (i : S2000x384.Idx) (q : dot_S2000x384_S384x384_S2000x384_1_0_0_1_n_n.contr.Idx) :
    (dot_S2000x384_S384x384_S2000x384_1_0_0_1_n_n.rhsIdx i q 1).val = (i 1).val := by
  unfold DotDims.rhsIdx
  rw [dif_neg (show ¬(1 : Fin S384x384.rank) ∈ dot_S2000x384_S384x384_S2000x384_1_0_0_1_n_n.rhsBatch by decide), dif_pos (show (1 : Fin S384x384.rank) ∈ dot_S2000x384_S384x384_S2000x384_1_0_0_1_n_n.rhsNonContracting by decide)]
  rfl

/-- The second product: 2000 rows of 384 entries times a 384 by 384 matrix. -/
theorem prodB_apply (a : FVec Ideal S2000x384 .bf16) (b : FVec Ideal S384x384 .bf16) (p : Fin 2000) (j : Fin 384) :
    matmul dot_S2000x384_S384x384_S2000x384_1_0_0_1_n_n none a b (constant (F := Ideal) S2000x384 .f32 0x00000000#32) (ix2 p j)
      = ∑ d : Fin 384, a (ix2 p d) * b (ix2 d j) := by
  simp only [matmul]
  rw [Ideal.matmul_constant_zero_apply, ← Equiv.sum_comp (ValueIdx.contrEquiv1 dot_S2000x384_S384x384_S2000x384_1_0_0_1_n_n 384 rfl rfl).symm]
  refine Finset.sum_congr rfl fun k _ => ?_
  have hk := ValueIdx.contrEquiv1_symm_val dot_S2000x384_S384x384_S2000x384_1_0_0_1_n_n 384 rfl rfl k
  have el : dot_S2000x384_S384x384_S2000x384_1_0_0_1_n_n.lhsIdx (ix2 p j) ((ValueIdx.contrEquiv1 dot_S2000x384_S384x384_S2000x384_1_0_0_1_n_n 384 rfl rfl).symm k) = ix2 p k := funext fun ax => Fin.ext (by
    match ax with
    | ⟨0, _⟩ => exact lhsB_0 _ _
    | ⟨1, _⟩ => exact (lhsB_1 _ _).trans hk)
  have er : dot_S2000x384_S384x384_S2000x384_1_0_0_1_n_n.rhsIdx (ix2 p j) ((ValueIdx.contrEquiv1 dot_S2000x384_S384x384_S2000x384_1_0_0_1_n_n 384 rfl rfl).symm k) = ix2 k j := funext fun ax => Fin.ext (by
    match ax with
    | ⟨0, _⟩ => exact (rhsB_0 _ _).trans hk
    | ⟨1, _⟩ => exact rhsB_1 _ _)
  rw [el, er]

/-! ## What the body stores, entry by entry -/

/-- The first stored block is the perceptron of the q rows: formats change nothing, each bias row is read at its
    column whatever the row, and the gate is x times sigma(x). -/
theorem pay1_apply (x0 : Vec Ideal S2000x128 .f32) (x2 : Vec Ideal S128x384 .f32) (x3 : Vec Ideal S1x384 .f32)
    (x4 : Vec Ideal S384x384 .f32) (x5 : Vec Ideal S1x384 .f32) (p : Fin 2000) (j : Fin 384) :
    k0_pay1 x0 x2 x3 x4 x5 (ix2 p j)
      = mlp (fn2 x0) (fn2 x2) (fun k => x3 (ix2 0 k)) (fn2 x4) (fun k => x5 (ix2 0 k)) p j := by
  unfold k0_pay1
  simp only [truncf_apply, addf_apply, mulf_apply, shapeCast_self]
  rw [prodB_apply, broadcastTo_1b_ab_apply]
  unfold mlp silu
  refine congrArg (· + x5 (ix2 0 j)) (Finset.sum_congr rfl fun d _ => ?_)
  simp only [truncf_apply, mulf_apply, addf_apply, logistic, Ideal.logistic_def]
  rw [prodA_apply, broadcastTo_1b_ab_apply]
  simp only [truncf_apply]
  rfl

/-- The second stored block is the block of flattened vector features itself. -/
theorem pay2_apply (v : Vec Ideal S2000x384 .f32) : k0_pay2 v = v := by
  unfold k0_pay2
  rw [shapeCast_self]
  rfl

/-! ## The stored block as one function of the loaded blocks

The two stores fill the left and the right half of the 768 columns; an entry of the block is read from the store whose
rectangle holds it. -/

theorem zeros2 : (![0, 0] : Fin 2 → Nat) = fun _ => 0 := funext fun a => match a with | ⟨0, _⟩ => rfl | ⟨1, _⟩ => rfl

/-- A column below 384 lies outside the second store's rectangle and is the first store's entry at the same place. -/
theorem out_left (x0 : Vec Ideal S2000x128 .f32) (x1 : Vec Ideal S2000x384 .f32) (x2 : Vec Ideal S128x384 .f32)
    (x3 : Vec Ideal S1x384 .f32) (x4 : Vec Ideal S384x384 .f32) (x5 : Vec Ideal S1x384 .f32)
    (p : Fin 2000) (j : Fin 768) (hj : j.val < 384) :
    out0_6 (F := Ideal) x0 x1 x2 x3 x4 x5 (ix2 p j)
      = mlp (fn2 x0) (fn2 x2) (fun k => x3 (ix2 0 k)) (fn2 x4) (fun k => x5 (ix2 0 k)) p ⟨j.val, hj⟩ := by
  unfold out0_6
  refine (View.canon_cons_of_not_mem _ _ ?_).trans ?_
  · show (ix2 p j : S2000x768.Idx) ∉ r0_6.set
    rw [Rect.mem_set_unit]
    intro h
    have h1 : 384 ≤ j.val := (h 1).1
    omega
  have e : (ix2 p j : S2000x768.Idx) = r0_4.emb (ix2 p (⟨j.val, hj⟩ : Fin 384)) := funext fun a => Fin.ext (by
    match a with
    | ⟨0, _⟩ => show p.val = 0 + 1 * p.val; omega
    | ⟨1, _⟩ => show j.val = 0 + 1 * j.val; omega)
  rw [e, View.canon_cons_emb]
  simp only [View.ld_unit_zero (S := S2000x128) zeros2, View.ld_unit_zero (S := S128x384) zeros2,
    View.ld_unit_zero (S := S1x384) zeros2, View.ld_unit_zero (S := S384x384) zeros2]
  exact pay1_apply x0 x2 x3 x4 x5 p ⟨j.val, hj⟩

/-- A column from 384 on is the second store's entry 384 columns to the left. -/
theorem out_right (x0 : Vec Ideal S2000x128 .f32) (x1 : Vec Ideal S2000x384 .f32) (x2 : Vec Ideal S128x384 .f32)
    (x3 : Vec Ideal S1x384 .f32) (x4 : Vec Ideal S384x384 .f32) (x5 : Vec Ideal S1x384 .f32)
    (p : Fin 2000) (j : Fin 768) (hj : ¬ j.val < 384) :
    out0_6 (F := Ideal) x0 x1 x2 x3 x4 x5 (ix2 p j) = x1 (ix2 p ⟨j.val - 384, by have := j.isLt; omega⟩) := by
  unfold out0_6
  have e : (ix2 p j : S2000x768.Idx) = r0_6.emb (ix2 p (⟨j.val - 384, by have := j.isLt; omega⟩ : Fin 384)) := funext fun a => Fin.ext (by
    match a with
    | ⟨0, _⟩ => show p.val = 0 + 1 * p.val; omega
    | ⟨1, _⟩ => show j.val = 384 + 1 * (j.val - 384); omega)
  rw [e, View.canon_cons_emb, pay2_apply, View.ld_unit_zero (S := S2000x384) zeros2]

/-- The perceptron's row r depends on row r of its input only. -/
theorem mlp_row {m m' k h n : ℕ} (x : Fin m → Fin k → EReal) (x' : Fin m' → Fin k → EReal) (w1 : Fin k → Fin h → EReal)
    (b1 : Fin h → EReal) (w2 : Fin h → Fin n → EReal) (b2 : Fin n → EReal) (r : Fin m) (r' : Fin m')
    (hx : ∀ d, x r d = x' r' d) (j : Fin n) : mlp x w1 b1 w2 b2 r j = mlp x' w1 b1 w2 b2 r' j := by
  unfold mlp
  simp only [hx]

/-- The stored block of the point that handles rows 2000 n .. 2000 n + 1999, when the loaded blocks are those rows of
    q and of the flattened vector features and the four parameter arrays whole: its entry y is the table's entry i at
    row 2000 n + (row of y) and the column of y. -/
theorem block_entry (q : S20000x128.Idx → EReal) (mu : S20000x384.Idx → EReal) (w1 : S128x384.Idx → EReal)
    (b1 : S1x384.Idx → EReal) (w2 : S384x384.Idx → EReal) (b2 : S1x384.Idx → EReal)
    (x0 : Vec Ideal S2000x128 .f32) (x1 : Vec Ideal S2000x384 .f32) (x2 : Vec Ideal S128x384 .f32)
    (x3 : Vec Ideal S1x384 .f32) (x4 : Vec Ideal S384x384 .f32) (x5 : Vec Ideal S1x384 .f32) (n : ℕ) (hn : n < 10)
    (h0 : ∀ (p : Fin 2000) (d : Fin 128), x0 (ix2 p d) = q (ix2 (⟨2000 * n + p.val, by have := p.isLt; omega⟩ : Fin 20000) d))
    (h1 : ∀ (p : Fin 2000) (d : Fin 384), x1 (ix2 p d) = mu (ix2 (⟨2000 * n + p.val, by have := p.isLt; omega⟩ : Fin 20000) d))
    (h2 : x2 = w1) (h3 : x3 = b1) (h4 : x4 = w2) (h5 : x5 = b2)
    (y : S2000x768.Idx) (i : S20000x768.Idx) (hi0 : (i 0).val = 2000 * n + (y 0).val) (hi1 : (i 1).val = (y 1).val) :
    out0_6 (F := Ideal) x0 x1 x2 x3 x4 x5 y
      = arr2 (slabAt (mlp (fn2 q) (fn2 w1) (fun k => b1 (ix2 0 k)) (fn2 w2) (fun k => b2 (ix2 0 k))) (fn2 mu)) i := by
  subst h2 h3 h4 h5
  obtain ⟨p, j, rfl⟩ : ∃ (p : Fin 2000) (j : Fin 768), y = ix2 p j := ⟨y 0, y 1, eq_ix2 y⟩
  have hr : (⟨(i 0).val, idx2_lt0 i⟩ : Fin 20000) = ⟨2000 * n + p.val, by have := p.isLt; omega⟩ := Fin.ext hi0
  have hc : (⟨(i 1).val, idx2_lt1 i⟩ : Fin 768) = j := Fin.ext hi1
  unfold arr2
  rw [hr, hc]
  unfold slabAt
  by_cases hj : j.val < 384
  · rw [dif_pos hj, out_left x0 x1 x2 x3 x4 x5 p j hj]
    exact mlp_row _ _ _ _ _ _ p _ (fun d => h0 p d) _
  · rw [dif_neg hj, out_right x0 x1 x2 x3 x4 x5 p j hj]
    exact h1 p _

/-! ## The blocks the launch loads, and the block it writes back -/

variable (V : (c : Dev nD) → (b : Ref sig .tc) → Buf (Elt Ideal) ((c : Thread nD τ).loc b))

/-- The arrays the launch reads, as it finds them. -/
abbrev qArr (c : Dev nD) : S20000x128.Idx → EReal := V c (Pipeline.arrRef spec0 0)
abbrev muArr (c : Dev nD) : S20000x384.Idx → EReal := V c (Pipeline.arrRef spec0 1)
abbrev w1Arr (c : Dev nD) : S128x384.Idx → EReal := V c (Pipeline.arrRef spec0 2)
abbrev b1Arr (c : Dev nD) : S1x384.Idx → EReal := V c (Pipeline.arrRef spec0 3)
abbrev w2Arr (c : Dev nD) : S384x384.Idx → EReal := V c (Pipeline.arrRef spec0 4)
abbrev b2Arr (c : Dev nD) : S1x384.Idx → EReal := V c (Pipeline.arrRef spec0 5)

/-- The grid has ten points. -/
theorem point_lt (t : Fin cfg0.N) : t.val < 10 := lt_of_lt_of_eq t.isLt N_0

/-- At point t the blocks of q, of the flattened vector features and of the output are block t along the rows (and the
    only block along the columns); each of the four parameter arrays is one block, the same at every point. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The block of q at point t is rows 2000 t .. 2000 t + 1999 of q. -/
theorem qblock_apply (c : Dev nD) (t : Fin cfg0.N) (p : Fin 2000) (d : Fin 128) :
    (iblk0 V c 0 t : Vec Ideal S2000x128 .f32) (ix2 p d)
      = qArr V c (ix2 (⟨2000 * t.val + p.val, by have := p.isLt; have := point_lt t; omega⟩ : Fin 20000) d) := by
  obtain ⟨e0, e1, -⟩ := block_indices t
  show V c (Pipeline.arrRef spec0 0) (((cfg0.win 0).blk t).view.emb (ix2 p d : S2000x128.Idx)) = V c (Pipeline.arrRef spec0 0) _
  refine congrArg _ (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 128 + 1 * d.val = d.val; rw [e1]; omega

/-- The block of the flattened vector features at point t is the same rows of that array. -/
theorem mublock_apply (c : Dev nD) (t : Fin cfg0.N) (p : Fin 2000) (d : Fin 384) :
    (iblk0 V c 1 t : Vec Ideal S2000x384 .f32) (ix2 p d)
      = muArr V c (ix2 (⟨2000 * t.val + p.val, by have := p.isLt; have := point_lt t; omega⟩ : Fin 20000) d) := by
  obtain ⟨-, -, e0, e1, -⟩ := block_indices t
  show V c (Pipeline.arrRef spec0 1) (((cfg0.win 1).blk t).view.emb (ix2 p d : S2000x384.Idx)) = V c (Pipeline.arrRef spec0 1) _
  refine congrArg _ (funext fun a => Fin.ext ?_)
  match a with
  | ⟨0, _⟩ => show win0_1.index t (0 : Fin 2) * 2000 + 1 * p.val = 2000 * t.val + p.val; rw [e0]; omega
  | ⟨1, _⟩ => show win0_1.index t (1 : Fin 2) * 384 + 1 * d.val = d.val; rw [e1]; omega

/-- Each parameter array is loaded whole. -/
theorem w1block_eq (c : Dev nD) (t : Fin cfg0.N) : (iblk0 V c 2 t : Vec Ideal S128x384 .f32) = w1Arr V c := by
  obtain ⟨-, -, -, -, e0, e1, -⟩ := block_indices t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 384 + 1 * (y 1).val = (y 1).val; rw [e1]; omega
theorem b1block_eq (c : Dev nD) (t : Fin cfg0.N) : (iblk0 V c 3 t : Vec Ideal S1x384 .f32) = b1Arr V c := by
  obtain ⟨-, -, -, -, -, -, e0, e1, -⟩ := block_indices t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 384 + 1 * (y 1).val = (y 1).val; rw [e1]; omega
theorem w2block_eq (c : Dev nD) (t : Fin cfg0.N) : (iblk0 V c 4 t : Vec Ideal S384x384 .f32) = w2Arr V c := by
  obtain ⟨-, -, -, -, -, -, -, -, e0, e1, -⟩ := block_indices t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 384 + 1 * (y 0).val = (y 0).val; rw [e0]; omega
  | ⟨1, _⟩ => show win0_4.index t (1 : Fin 2) * 384 + 1 * (y 1).val = (y 1).val; rw [e1]; omega
theorem b2block_eq (c : Dev nD) (t : Fin cfg0.N) : (iblk0 V c 5 t : Vec Ideal S1x384 .f32) = b2Arr V c := by
  obtain ⟨-, -, -, -, -, -, -, -, -, -, e0, e1, -⟩ := block_indices t
  funext y
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 384 + 1 * (y 1).val = (y 1).val; rw [e1]; omega

/-- The table of node rows of the arrays the launch reads. -/
abbrev table (c : Dev nD) : S20000x768.Idx → EReal :=
  arr2 (slabAt (mlp (fn2 (qArr V c)) (fn2 (w1Arr V c)) (fun k => b1Arr V c (ix2 0 k)) (fn2 (w2Arr V c)) (fun k => b2Arr V c (ix2 0 k)))
    (fn2 (muArr V c)))

/-- What point t writes back is rows 2000 t .. 2000 t + 1999 of the table. -/
theorem flushed_eq (c : Dev nD) (t : Fin cfg0.N) :
    (dat0 (F := Ideal) V c).flushed 6 t = ((cfg0.win 6).blk t).view.read (Elt Ideal) (table V c) := by
  show (cfg0.win 6).cut (grid0.coords t) ((dat0 (F := Ideal) V c).after 6 t) = _
  rw [after0_6]
  obtain ⟨-, -, -, -, -, -, -, -, -, -, -, -, e0, e1⟩ := block_indices t
  funext y
  show out0_6 (F := Ideal) (iblk0 V c 0 t) (iblk0 V c 1 t) (iblk0 V c 2 t) (iblk0 V c 3 t) (iblk0 V c 4 t) (iblk0 V c 5 t) y
    = table V c (((cfg0.win 6).blk t).view.emb y)
  exact block_entry (qArr V c) (muArr V c) (w1Arr V c) (b1Arr V c) (w2Arr V c) (b2Arr V c)
    (iblk0 V c 0 t) (iblk0 V c 1 t) (iblk0 V c 2 t) (iblk0 V c 3 t) (iblk0 V c 4 t) (iblk0 V c 5 t) t.val (point_lt t)
    (qblock_apply V c t) (mublock_apply V c t) (w1block_eq V c t) (b1block_eq V c t) (w2block_eq V c t) (b2block_eq V c t)
    y (((cfg0.win 6).blk t).view.emb y)
    (by show win0_6.index t (0 : Fin 2) * 2000 + 1 * (y 0).val = 2000 * t.val + (y 0).val; rw [e0]; omega)
    (by show win0_6.index t (1 : Fin 2) * 768 + 1 * (y 1).val = (y 1).val; rw [e1]; omega)

/-- Row r of the output array lies in the block of point r / 2000. -/
theorem covered (c : Dev nD) (i : ((cfg0.win 6).arr.view.loc (c.tc : Thread nD τ)).2.ty.Idx) :
    ∃ t : Fin cfg0.N, (cfg0.win 6).flush t = true ∧ i ∈ ((cfg0.win 6).blk t).view.set := by
  have hi0 : (i 0).val < 20000 := (i 0).isLt
  have hi1 : (i 1).val < 768 := (i 1).isLt
  have ht : (i 0).val / 2000 < cfg0.N := by rw [show cfg0.N = 10 from N_0]; omega
  obtain ⟨-, -, -, -, -, -, -, -, -, -, -, -, e0, e1⟩ := block_indices ⟨(i 0).val / 2000, ht⟩
  refine ⟨⟨(i 0).val / 2000, ht⟩, flush0_6 _, ?_⟩
  show i ∈ ((View.whole main_v9).slice (win0_6.rect ⟨(i 0).val / 2000, ht⟩)).set
  rw [View.set_slice_whole, Rect.mem_set_unit]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 768 ≤ (i 1).val
      ∧ (i 1).val < win0_6.index ⟨(i 0).val / 2000, ht⟩ (1 : Fin 2) * 768 + 768
    rw [e1]; omega

/-- The output array after the last grid point is the table of node rows. -/
theorem value (c : Dev nD) :
    ((dat0 (F := Ideal) V c).arrAt 6 cfg0.N : S20000x768.Idx → EReal)
      = arr2 (slabAt (mlp (fn2 (qArr V c)) (fn2 (w1Arr V c)) (fun k => b1Arr V c (ix2 0 k)) (fn2 (w2Arr V c)) (fun k => b2Arr V c (ix2 0 k)))
          (fn2 (muArr V c))) :=
  (dat0 (F := Ideal) V c).arrAt_eq_of_cover 6 (table V c) (fun t _ => flushed_eq V c t) (covered c)

end Cert.KernelIdeal.Region0

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.LibBlockSum.lean ====
/-
  Sums taken block by block.

  A sum over B * S terms is the sum over the B blocks of the sums over each block's S terms; and a quantity that starts at
  zero and receives one block's sum per step holds, after B steps, the whole sum. Stated over any commutative monoid
  (the extended reals among them: their addition is commutative and associative, whatever the terms).
-/
import Mathlib.Algebra.BigOperators.Fin
import Mathlib.Algebra.BigOperators.Group.Finset.Basic
import Mathlib.Logic.Equiv.Fin.Basic
import Mathlib.Data.Fintype.BigOperators

open scoped BigOperators

namespace BlockSum

variable {M : Type*} [AddCommMonoid M]

/-- Term number S * k + c of B * S terms: term c of block k. -/
def at' {B S : ℕ} (k : Fin B) (c : Fin S) : Fin (B * S) :=
  ⟨S * k.val + c.val, by
    have hk := k.isLt; have hc := c.isLt
    calc S * k.val + c.val < S * k.val + S := by omega
      _ = S * (k.val + 1) := (Nat.mul_succ S k.val).symm
      _ ≤ S * B := Nat.mul_le_mul_left S hk
      _ = B * S := Nat.mul_comm S B⟩

@[simp] theorem at'_val {B S : ℕ} (k : Fin B) (c : Fin S) : (at' k c).val = S * k.val + c.val := rfl

/-- A sum over B * S terms, block by block. -/
theorem sum_blocks (B S : ℕ) (f : Fin (B * S) → M) :
    ∑ n : Fin (B * S), f n = ∑ k : Fin B, ∑ c : Fin S, f (at' k c) := by
  rw [← Equiv.sum_comp finProdFinEquiv f, Fintype.sum_prod_type]
  refine Finset.sum_congr rfl fun k _ => Finset.sum_congr rfl fun c _ => congrArg f (Fin.ext ?_)
  show c.val + S * k.val = S * k.val + c.val
  omega

/-- An accumulator that starts at zero and adds g k at step k holds the sum of g after B steps. -/
theorem acc_eq_sum (B : ℕ) (g : ℕ → M) (acc : ℕ → M) (h0 : acc 0 = 0) (hs : ∀ k, k < B → acc (k + 1) = acc k + g k) :
    acc B = ∑ k : Fin B, g k.val := by
  induction B with
  | zero => simpa using h0
  | succ B ih =>
    rw [hs B (Nat.lt_succ_self B), ih fun k hk => hs k (Nat.lt_succ_of_lt hk), Fin.sum_univ_castSucc]
    rfl

/-- The same from any start: after B steps the accumulator holds its start plus the sum. -/
theorem acc_eq_add_sum (B : ℕ) (g : ℕ → M) (acc : ℕ → M) (hs : ∀ k, k < B → acc (k + 1) = acc k + g k) :
    acc B = acc 0 + ∑ k : Fin B, g k.val := by
  induction B with
  | zero => simp
  | succ B ih =>
    rw [hs B (Nat.lt_succ_self B), ih fun k hk => hs k (Nat.lt_succ_of_lt hk), Fin.sum_univ_castSucc, add_assoc]
    rfl

end BlockSum
-- ==== Proof.OneHotPay.lean ====
/-
  The two products with a zero-one matrix, read at an index.

  In the gather, trip k of the loop compares every edge's source word with the numbers 400k, 400k+1, ..., 400k+399 of the
  chunk's rows, turns the comparison bits into the numbers one and zero, and adds the product of that 640 x 400 matrix with
  the chunk to the accumulator: entry (e, j) gains the sum over the chunk's rows of [source e = row number] times the
  row's entry j. In the scatter, trip k compares the numbers 1000k, ..., 1000k+999 of a slab's nodes with every edge's
  target word and adds the product of that 1000 x 1280 matrix with the edge block's messages: entry (r, j) gains the sum
  over the block's edges of [node number = target] times the edge's entry j. The words are computed with wrap-around
  arithmetic; the word of a sum or product of numbers is the sum or product of their words, so no bound is needed.
-/
import proofs.«407274_j17514876634209_3_alg».proof.Proof.Gen.KernelIdeal.Skeleton
import proofs.«407274_j17514876634209_3_alg».proof.Proof.Spec
import proofs.«407274_j17514876634209_3_alg».proof.Proof.LibRowLayers
import Idealize.ShloMosaic.Lib.ValueIdx
import Idealize.ShloMosaic.Lib.ValueLayout
import Idealize.ShloMosaic.Lib.Pipeline.Value
import Idealize.ShloMosaic.Lib.Scf
import Idealize.ShloMosaic.PureOps.Ideal.Laws

set_option maxRecDepth 16384

noncomputable section

open scoped BigOperators

namespace Cert.KernelIdeal.OneHot

open Idealize.ShloMosaic Idealize.ShloMosaic.TcCoe Idealize.ShloMosaic.ValueIdx Idealize.SL.Sem
open Cert.KernelIdeal Cert.KernelIdeal.Gen PaiNN

/-- The comparison bit of two words, widened to a word and converted, is the indicator of their equality. -/
theorem onehot_eq (a b : BitVec 32) :
    (FloatOps.sitofp (F := Ideal) .f32 ((IntOp.cmpi .eq a b).setWidth 32) : EReal) = ind a b := by
  have e : IntOp.cmpi .eq a b = BitVec.ofBool (a == b) := rfl
  rw [e]
  unfold ind
  by_cases h : a = b
  · rw [if_pos h, show (a == b) = true from by simpa using h]
    show ((((BitVec.ofBool true).setWidth 32).toInt : ℝ) : EReal) = 1
    rw [show ((BitVec.ofBool true).setWidth 32).toInt = 1 from by decide]
    norm_num
  · rw [if_neg h, show (a == b) = false from by simpa using h]
    show ((((BitVec.ofBool false).setWidth 32).toInt : ℝ) : EReal) = 0
    rw [show ((BitVec.ofBool false).setWidth 32).toInt = 0 from by decide]
    norm_num

/-- The loop counter's word times a stride is the word of the product. -/
theorem stride_word (k s : ℕ) :
    Scalar.muli (Scalar.addi 0#32 (Scalar.muli (Scf.iv 0#32 1#32 k) 1#32)) (BitVec.ofNat 32 s) = BitVec.ofNat 32 (k * s) := by
  show (0#32 + (0#32 + BitVec.ofNat 32 k * 1#32) * 1#32) * BitVec.ofNat 32 s = _
  rw [BitVec.mul_one, BitVec.mul_one, BitVec.zero_add, BitVec.zero_add, BitVec.ofNat_mul]

theorem lhs_g_0 (i : S640x768.Idx) (q : dot_S640x400_S400x768_S640x768_1_0_0_1_n_n.contr.Idx) : (dot_S640x400_S400x768_S640x768_1_0_0_1_n_n.lhsIdx i q 0).val = (i 0).val := by
  unfold DotDims.lhsIdx
  rw [dif_neg (show ¬(0 : Fin S640x400.rank) ∈ dot_S640x400_S400x768_S640x768_1_0_0_1_n_n.lhsBatch by decide), dif_pos (show (0 : Fin S640x400.rank) ∈ dot_S640x400_S400x768_S640x768_1_0_0_1_n_n.lhsNonContracting by decide)]
  rfl
theorem lhs_g_1 (i : S640x768.Idx) (q : dot_S640x400_S400x768_S640x768_1_0_0_1_n_n.contr.Idx) : (dot_S640x400_S400x768_S640x768_1_0_0_1_n_n.lhsIdx i q 1).val = (q ⟨0, by decide⟩).val :=
  dot_S640x400_S400x768_S640x768_1_0_0_1_n_n.lhsIdx_val_of_single rfl i q
theorem rhs_g_0 (i : S640x768.Idx) (q : dot_S640x400_S400x768_S640x768_1_0_0_1_n_n.contr.Idx) : (dot_S640x400_S400x768_S640x768_1_0_0_1_n_n.rhsIdx i q 0).val = (q ⟨0, by decide⟩).val :=
  dot_S640x400_S400x768_S640x768_1_0_0_1_n_n.rhsIdx_val_of_single rfl i q
theorem rhs_g_1 (i : S640x768.Idx) (q : dot_S640x400_S400x768_S640x768_1_0_0_1_n_n.contr.Idx) : (dot_S640x400_S400x768_S640x768_1_0_0_1_n_n.rhsIdx i q 1).val = (i 1).val := by
  unfold DotDims.rhsIdx
  rw [dif_neg (show ¬(1 : Fin S400x768.rank) ∈ dot_S640x400_S400x768_S640x768_1_0_0_1_n_n.rhsBatch by decide), dif_pos (show (1 : Fin S400x768.rank) ∈ dot_S640x400_S400x768_S640x768_1_0_0_1_n_n.rhsNonContracting by decide)]
  rfl

/-- The product into a zero accumulator, at (a, b): the sum over the contracted coordinate of the products of the entries. -/
theorem matmul_g_apply {φ₁ φ₂ : FTy} (A : FVec Ideal S640x400 φ₁) (B : FVec Ideal S400x768 φ₂) (a : Fin 640) (b : Fin 768) :
    matmul dot_S640x400_S400x768_S640x768_1_0_0_1_n_n none A B (constant S640x768 .f32 0x00000000#32) (ix2 a b) = ∑ c : Fin 400, A (ix2 a c) * B (ix2 c b) := by
  refine (Ideal.matmul_constant_zero_apply dot_S640x400_S400x768_S640x768_1_0_0_1_n_n none A B (ix2 a b)).trans ?_
  rw [← Equiv.sum_comp (ValueIdx.contrEquiv1 dot_S640x400_S400x768_S640x768_1_0_0_1_n_n 400 rfl rfl).symm]
  refine Finset.sum_congr rfl fun k _ => ?_
  have hk := ValueIdx.contrEquiv1_symm_val dot_S640x400_S400x768_S640x768_1_0_0_1_n_n 400 rfl rfl k
  have el : dot_S640x400_S400x768_S640x768_1_0_0_1_n_n.lhsIdx (ix2 a b) ((ValueIdx.contrEquiv1 dot_S640x400_S400x768_S640x768_1_0_0_1_n_n 400 rfl rfl).symm k) = ix2 a k := funext fun x => Fin.ext (by
    match x with
    | ⟨0, _⟩ => exact lhs_g_0 _ _
    | ⟨1, _⟩ => exact (lhs_g_1 _ _).trans hk)
  have er : dot_S640x400_S400x768_S640x768_1_0_0_1_n_n.rhsIdx (ix2 a b) ((ValueIdx.contrEquiv1 dot_S640x400_S400x768_S640x768_1_0_0_1_n_n 400 rfl rfl).symm k) = ix2 k b := funext fun x => Fin.ext (by
    match x with
    | ⟨0, _⟩ => exact (rhs_g_0 _ _).trans hk
    | ⟨1, _⟩ => exact rhs_g_1 _ _)
  rw [el, er]

theorem lhs_s_0 (i : S1000x256.Idx) (q : dot_S1000x1280_S1280x256_S1000x256_1_0_0_1_n_n.contr.Idx) : (dot_S1000x1280_S1280x256_S1000x256_1_0_0_1_n_n.lhsIdx i q 0).val = (i 0).val := by
  unfold DotDims.lhsIdx
  rw [dif_neg (show ¬(0 : Fin S1000x1280.rank) ∈ dot_S1000x1280_S1280x256_S1000x256_1_0_0_1_n_n.lhsBatch by decide), dif_pos (show (0 : Fin S1000x1280.rank) ∈ dot_S1000x1280_S1280x256_S1000x256_1_0_0_1_n_n.lhsNonContracting by decide)]
  rfl
theorem lhs_s_1 (i : S1000x256.Idx) (q : dot_S1000x1280_S1280x256_S1000x256_1_0_0_1_n_n.contr.Idx) : (dot_S1000x1280_S1280x256_S1000x256_1_0_0_1_n_n.lhsIdx i q 1).val = (q ⟨0, by decide⟩).val :=
  dot_S1000x1280_S1280x256_S1000x256_1_0_0_1_n_n.lhsIdx_val_of_single rfl i q
theorem rhs_s_0 (i : S1000x256.Idx) (q : dot_S1000x1280_S1280x256_S1000x256_1_0_0_1_n_n.contr.Idx) : (dot_S1000x1280_S1280x256_S1000x256_1_0_0_1_n_n.rhsIdx i q 0).val = (q ⟨0, by decide⟩).val :=
  dot_S1000x1280_S1280x256_S1000x256_1_0_0_1_n_n.rhsIdx_val_of_single rfl i q
theorem rhs_s_1 (i : S1000x256.Idx) (q : dot_S1000x1280_S1280x256_S1000x256_1_0_0_1_n_n.contr.Idx) : (dot_S1000x1280_S1280x256_S1000x256_1_0_0_1_n_n.rhsIdx i q 1).val = (i 1).val := by
  unfold DotDims.rhsIdx
  rw [dif_neg (show ¬(1 : Fin S1280x256.rank) ∈ dot_S1000x1280_S1280x256_S1000x256_1_0_0_1_n_n.rhsBatch by decide), dif_pos (show (1 : Fin S1280x256.rank) ∈ dot_S1000x1280_S1280x256_S1000x256_1_0_0_1_n_n.rhsNonContracting by decide)]
  rfl

/-- The product into a zero accumulator, at (a, b): the sum over the contracted coordinate of the products of the entries. -/
theorem matmul_s_apply {φ₁ φ₂ : FTy} (A : FVec Ideal S1000x1280 φ₁) (B : FVec Ideal S1280x256 φ₂) (a : Fin 1000) (b : Fin 256) :
    matmul dot_S1000x1280_S1280x256_S1000x256_1_0_0_1_n_n none A B (constant S1000x256 .f32 0x00000000#32) (ix2 a b) = ∑ c : Fin 1280, A (ix2 a c) * B (ix2 c b) := by
  refine (Ideal.matmul_constant_zero_apply dot_S1000x1280_S1280x256_S1000x256_1_0_0_1_n_n none A B (ix2 a b)).trans ?_
  rw [← Equiv.sum_comp (ValueIdx.contrEquiv1 dot_S1000x1280_S1280x256_S1000x256_1_0_0_1_n_n 1280 rfl rfl).symm]
  refine Finset.sum_congr rfl fun k _ => ?_
  have hk := ValueIdx.contrEquiv1_symm_val dot_S1000x1280_S1280x256_S1000x256_1_0_0_1_n_n 1280 rfl rfl k
  have el : dot_S1000x1280_S1280x256_S1000x256_1_0_0_1_n_n.lhsIdx (ix2 a b) ((ValueIdx.contrEquiv1 dot_S1000x1280_S1280x256_S1000x256_1_0_0_1_n_n 1280 rfl rfl).symm k) = ix2 a k := funext fun x => Fin.ext (by
    match x with
    | ⟨0, _⟩ => exact lhs_s_0 _ _
    | ⟨1, _⟩ => exact (lhs_s_1 _ _).trans hk)
  have er : dot_S1000x1280_S1280x256_S1000x256_1_0_0_1_n_n.rhsIdx (ix2 a b) ((ValueIdx.contrEquiv1 dot_S1000x1280_S1280x256_S1000x256_1_0_0_1_n_n 1280 rfl rfl).symm k) = ix2 k b := funext fun x => Fin.ext (by
    match x with
    | ⟨0, _⟩ => exact (rhs_s_0 _ _).trans hk
    | ⟨1, _⟩ => exact rhs_s_1 _ _)
  rw [el, er]

/-- One trip of the gather's loop: the accumulator's entry gains the chunk's rows weighted by the indicator of the edge's
    source word. -/
theorem pay9_apply (v0 : Vec Ideal S640x1 .i32) (k : Fin k1_t1_loop.trips) (v77 : Vec Ideal S400x768 .bf16)
    (v79 : Vec Ideal S640x768 .f32) (e : Fin 640) (j : Fin 768) :
    k1_pay9 (F := Ideal) v0 k v77 v79 (ix2 e j)
      = v79 (ix2 e j) + ∑ col : Fin 400, ind (v0 (ix2 e 0)) (BitVec.ofNat 32 (400 * k.val + col.val)) * v77 (ix2 col j) := by
  unfold k1_pay9
  dsimp only
  rw [shapeCast_self, addf_apply]
  refine congrArg (v79 (ix2 e j) + ·) ?_
  rw [shapeCast_self, matmul_g_apply]
  refine Finset.sum_congr rfl fun col _ => ?_
  rw [shapeCast_self]
  refine congrArg (· * v77 (ix2 col j)) ?_
  show (FloatOps.sitofp (F := Ideal) .f32 ((IntOp.cmpi .eq _ _).setWidth 32) : EReal) = _
  rw [onehot_eq]
  congr 1
  · exact RowLayers.broadcastColumn_apply _ _ e col
  · show Scalar.muli (Scalar.addi 0#32 (Scalar.muli (Scf.iv 0#32 1#32 k.val) 1#32)) 400#32 + BitVec.ofNat 32 (0 * _ + col.val) = _
    rw [show (400#32 : BitVec 32) = BitVec.ofNat 32 400 from rfl, stride_word, ← BitVec.ofNat_add]
    congr 1
    omega

/-- One trip of the scatter's loop: a slab's entry gains the edge block's rows weighted by the indicator of the node's
    number against the edges' target words. -/
theorem pay2_apply (v0 : Vec Ideal S1x1280 .i32) (v5 : Vec Ideal S1280x256 .f32) (k : Fin k2_t1_loop.trips)
    (v24 : Vec Ideal S1000x256 .f32) (r : Fin 1000) (j : Fin 256) :
    k2_pay2 (F := Ideal) v0 v5 k v24 (ix2 r j)
      = v24 (ix2 r j) + ∑ col : Fin 1280, ind (BitVec.ofNat 32 (1000 * k.val + r.val)) (v0 (ix2 0 col)) * v5 (ix2 col j) := by
  unfold k2_pay2
  dsimp only
  rw [addf_apply, shapeCast_self]
  refine congrArg (v24 (ix2 r j) + ·) ?_
  rw [matmul_s_apply]
  refine Finset.sum_congr rfl fun col _ => ?_
  simp only [shapeCast_self]
  refine congrArg₂ (· * ·) ?_ rfl
  show (FloatOps.sitofp (F := Ideal) .f32 ((IntOp.cmpi .eq _ _).setWidth 32) : EReal) = _
  rw [onehot_eq]
  congr 1
  · rw [RowLayers.broadcastColumn_apply]
    show Scalar.muli (Scalar.addi 0#32 (Scalar.muli (Scf.iv 0#32 1#32 k.val) 1#32)) 1000#32 + BitVec.ofNat 32 (0 * _ + r.val) = _
    rw [show (1000#32 : BitVec 32) = BitVec.ofNat 32 1000 from rfl, stride_word, ← BitVec.ofNat_add]
    congr 1
    omega
  · exact broadcastTo_1b_ab_apply _ _ r col

end Cert.KernelIdeal.OneHot

end
-- ==== Proof.Region1.lean ====
/-
  What the second launch leaves in its output array: the edge messages. Every grid point handles 640 edges; the body
  first adds up, over fifty chunks of 400 table rows, the product of a zero-one matrix (edge's source = row number) with
  the chunk, which is the source's table row; then computes the edges' filters and combines them with the gathered row.

  The accumulator is followed trip by trip: each trip stores, through the whole accumulator, its old contents plus the
  product of the zero-one matrix with the trip's chunk, so after fifty trips from the zero fill its entry (e, j) is the
  sum over all 20000 rows n of [source of e = n] * table(n, j). The four column pieces the body stores are then the four
  bands of the message, entry by entry; and block t of the output array is rows 640 t .. 640 t + 639 of the messages.
-/
import proofs.«407274_j17514876634209_3_alg».proof.Proof.Gen.KernelIdeal.Frame
import proofs.«407274_j17514876634209_3_alg».proof.Proof.Spec
import proofs.«407274_j17514876634209_3_alg».proof.Proof.LibRowLayers
import proofs.«407274_j17514876634209_3_alg».proof.Proof.LibBlockSum
import proofs.«407274_j17514876634209_3_alg».proof.Proof.OneHotPay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen PaiNN

/-! ## The accumulator through the loop, and the body's four stores (at any float instance) -/

section Generic

variable {F : FTy → Type} [FloatOps F]

theorem hz : (![0, 0] : Fin 2 → Nat) = fun _ => 0 := funext fun a => by fin_cases a <;> rfl

/-- After a last store through the whole shape, the buffer reads as that store's payload. -/
theorem read_writes_cons_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

/-- One trip stores, through the whole accumulator, the payload of the table rows at the trip's offset and of the
    accumulator as the trip finds it. -/
theorem tripL_eq (𝒱 : Variants) (c : Dev nD) (bd : Option 𝒱.V) (i : grid1.Coords) (arg1 : Memref sig .tc .vmem S640x1 .i32) (harg1 : arg1.IsWhole) (arg2 : Memref sig .tc .vmem S20000x768 .bf16) (harg2 : arg2.IsWhole) (arg3 : Memref sig .tc .vmem S640x20 .f32) (harg3 : arg3.IsWhole) (arg4 : Memref sig .tc .vmem S640x1 .f32) (harg4 : arg4.IsWhole) (arg5 : Memref sig .tc .vmem S640x3 .f32) (harg5 : arg5.IsWhole) (arg6 : Memref sig .tc .vmem S20x128 .f32) (harg6 : arg6.IsWhole) (arg7 : Memref sig .tc .vmem S1x128 .f32) (harg7 : arg7.IsWhole) (arg8 : Memref sig .tc .vmem S128x384 .f32) (harg8 : arg8.IsWhole) (arg9 : Memref sig .tc .vmem S1x384 .f32) (harg9 : arg9.IsWhole) (arg10 : Memref sig .tc .vmem S640x512 .f32) (harg10 : arg10.IsWhole) (arg11 : Memref sig .tc .vmem S640x768 .f32) (harg11 : arg11.IsWhole) (v0 : Vec F S640x1 .i32) (X_arg2 : BufTy.Contents (Elt F) arg2.view.ty) (k : Fin k1_t1_loop.trips) (f_arg11 : BufTy.Contents (Elt F) arg11.view.ty) :
    tripL_k1_t1 (F := F) 𝒱 c bd i arg1 harg1 arg2 harg2 arg3 harg3 arg4 harg4 arg5 harg5 arg6 harg6 arg7 harg7 arg8 harg8 arg9 harg9 arg10 harg10 arg11 harg11 v0 X_arg2 k f_arg11
      = [⟨Rect.unit ![0, 0] S640x768.size inb_S640x768_S640x768_0_0,
          k1_pay9 v0 k (View.readAt (Elt F) arg2.view (Rect.unit (s := S20000x768) (k1_off1 k) S400x768.size (k1_off1_inb k)).toLoadRect X_arg2)
            (View.readAt (Elt F) arg11.view (Rect.unit ![0, 0] S640x768.size inb_S640x768_S640x768_0_0).toLoadRect f_arg11)⟩] := by
  unfold tripL_k1_t1 trip_k1_t1
  rfl

/-- The accumulator after k trips from contents z: each trip adds the product of the zero-one matrix with its chunk. -/
def accAt (v0 : Vec F S640x1 .i32) (tab : Vec F S20000x768 .bf16) (z : Vec F S640x768 .f32) : ℕ → Vec F S640x768 .f32
  | 0 => z
  | k + 1 =>
    if h : k < k1_t1_loop.trips then
      k1_pay9 v0 ⟨k, h⟩ (View.ld (Val := Elt F) tab (Rect.unit (s := S20000x768) (k1_off1 ⟨k, h⟩) S400x768.size (k1_off1_inb ⟨k, h⟩))) (accAt v0 tab z k)
    else accAt v0 tab z k

theorem loop_read (𝒱 : Variants) (c : Dev nD) (bd : Option 𝒱.V) (i : grid1.Coords) (arg1 : Memref sig .tc .vmem S640x1 .i32) (harg1 : arg1.IsWhole) (arg2 : Memref sig .tc .vmem S20000x768 .bf16) (harg2 : arg2.IsWhole) (arg3 : Memref sig .tc .vmem S640x20 .f32) (harg3 : arg3.IsWhole) (arg4 : Memref sig .tc .vmem S640x1 .f32) (harg4 : arg4.IsWhole) (arg5 : Memref sig .tc .vmem S640x3 .f32) (harg5 : arg5.IsWhole) (arg6 : Memref sig .tc .vmem S20x128 .f32) (harg6 : arg6.IsWhole) (arg7 : Memref sig .tc .vmem S1x128 .f32) (harg7 : arg7.IsWhole) (arg8 : Memref sig .tc .vmem S128x384 .f32) (harg8 : arg8.IsWhole) (arg9 : Memref sig .tc .vmem S1x384 .f32) (harg9 : arg9.IsWhole) (arg10 : Memref sig .tc .vmem S640x512 .f32) (harg10 : arg10.IsWhole) (arg11 : Memref sig .tc .vmem S640x768 .f32) (harg11 : arg11.IsWhole) (v0 : Vec F S640x1 .i32) (X : BufTy.Contents (Elt F) arg2.view.ty) (G : BufTy.Contents (Elt F) arg11.view.ty) :
    ∀ k : ℕ, k ≤ k1_t1_loop.trips →
      arg11.view.read (Elt F) (arg11.view.writes (Elt F) G (pb_k1_t1 (F := F) 𝒱 c bd i arg1 harg1 arg2 harg2 arg3 harg3 arg4 harg4 arg5 harg5 arg6 harg6 arg7 harg7 arg8 harg8 arg9 harg9 arg10 harg10 arg11 harg11 v0 X G k))
        = accAt v0 (arg2.view.read (Elt F) X) (arg11.view.read (Elt F) G) k
  | 0, _ => rfl
  | k + 1, hk => by
    have h : k < k1_t1_loop.trips := hk
    have ih := loop_read 𝒱 c bd i arg1 harg1 arg2 harg2 arg3 harg3 arg4 harg4 arg5 harg5 arg6 harg6 arg7 harg7 arg8 harg8 arg9 harg9 arg10 harg10 arg11 harg11 v0 X G k (Nat.le_of_lt h)
    have e := pb_k1_t1_succ (F := F) 𝒱 c bd i arg1 harg1 arg2 harg2 arg3 harg3 arg4 harg4 arg5 harg5 arg6 harg6 arg7 harg7 arg8 harg8 arg9 harg9 arg10 harg10 arg11 harg11 v0 X G ⟨k, h⟩
    rw [show pb_k1_t1 (F := F) 𝒱 c bd i arg1 harg1 arg2 harg2 arg3 harg3 arg4 harg4 arg5 harg5 arg6 harg6 arg7 harg7 arg8 harg8 arg9 harg9 arg10 harg10 arg11 harg11 v0 X G (k + 1) = _ from e, tripL_eq, List.singleton_append,
      read_writes_cons_whole _ _ hz]
    rw [accAt, dif_pos h, View.readAt_eq_ld, View.readAt_eq_ld, View.ld_unit_zero hz, ih]

/-- The accumulator after the whole loop, from the zero fill. -/
abbrev gathered (x0 : Vec F S640x1 .i32) (x1 : Vec F S20000x768 .bf16) : Vec F S640x768 .f32 :=
  accAt x0 x1 (k1_pay8 (F := F)) k1_t1_loop.trips

/-- What a load of the whole accumulator reads after the zero fill and the loop. -/
theorem scratch_after (𝒱 : Variants) (c : Dev nD) (bd : Option 𝒱.V) (i : grid1.Coords) (arg1 : Memref sig .tc .vmem S640x1 .i32) (harg1 : arg1.IsWhole) (arg2 : Memref sig .tc .vmem S20000x768 .bf16) (harg2 : arg2.IsWhole) (arg3 : Memref sig .tc .vmem S640x20 .f32) (harg3 : arg3.IsWhole) (arg4 : Memref sig .tc .vmem S640x1 .f32) (harg4 : arg4.IsWhole) (arg5 : Memref sig .tc .vmem S640x3 .f32) (harg5 : arg5.IsWhole) (arg6 : Memref sig .tc .vmem S20x128 .f32) (harg6 : arg6.IsWhole) (arg7 : Memref sig .tc .vmem S1x128 .f32) (harg7 : arg7.IsWhole) (arg8 : Memref sig .tc .vmem S128x384 .f32) (harg8 : arg8.IsWhole) (arg9 : Memref sig .tc .vmem S1x384 .f32) (harg9 : arg9.IsWhole) (arg10 : Memref sig .tc .vmem S640x512 .f32) (harg10 : arg10.IsWhole) (arg11 : Memref sig .tc .vmem S640x768 .f32) (harg11 : arg11.IsWhole) (v0 : Vec F S640x1 .i32) (X : BufTy.Contents (Elt F) arg2.view.ty) :
    View.readAt (Elt F) arg11.view (Rect.unit ![0, 0] S640x768.size inb_S640x768_S640x768_0_0).toLoadRect
        (arg11.view.writes (Elt F) arg11.view.junk
          (pb_k1_t1 (F := F) 𝒱 c bd i arg1 harg1 arg2 harg2 arg3 harg3 arg4 harg4 arg5 harg5 arg6 harg6 arg7 harg7 arg8 harg8 arg9 harg9 arg10 harg10 arg11 harg11 v0 X
              (arg11.view.writes (Elt F) arg11.view.junk [⟨Rect.unit ![0, 0] S640x768.size inb_S640x768_S640x768_0_0, k1_pay8⟩])
              (Scf.trips k1_t1_loop.lb k1_t1_loop.ub k1_t1_loop.st)
            ++ [⟨Rect.unit ![0, 0] S640x768.size inb_S640x768_S640x768_0_0, k1_pay8⟩]))
      = accAt v0 (arg2.view.read (Elt F) X) (k1_pay8 (F := F)) k1_t1_loop.trips := by
  rw [View.readAt_eq_ld, View.ld_unit_zero hz, View.writes_append]
  refine (loop_read 𝒱 c bd i arg1 harg1 arg2 harg2 arg3 harg3 arg4 harg4 arg5 harg5 arg6 harg6 arg7 harg7 arg8 harg8 arg9 harg9 arg10 harg10 arg11 harg11 v0 X _ k1_t1_loop.trips (Nat.le_refl _)).trans ?_
  rw [read_writes_cons_whole _ _ hz]

/-- The output block the body leaves, as four column pieces over the gathered rows and the filter perceptron. -/
theorem out1_pieces (c : Dev nD) (i : grid1.Coords) (arg1 : Memref sig .tc .vmem S640x1 .i32) (harg1 : arg1.IsWhole) (arg2 : Memref sig .tc .vmem S20000x768 .bf16) (harg2 : arg2.IsWhole) (arg3 : Memref sig .tc .vmem S640x20 .f32) (harg3 : arg3.IsWhole) (arg4 : Memref sig .tc .vmem S640x1 .f32) (harg4 : arg4.IsWhole) (arg5 : Memref sig .tc .vmem S640x3 .f32) (harg5 : arg5.IsWhole) (arg6 : Memref sig .tc .vmem S20x128 .f32) (harg6 : arg6.IsWhole) (arg7 : Memref sig .tc .vmem S1x128 .f32) (harg7 : arg7.IsWhole) (arg8 : Memref sig .tc .vmem S128x384 .f32) (harg8 : arg8.IsWhole) (arg9 : Memref sig .tc .vmem S1x384 .f32) (harg9 : arg9.IsWhole) (arg10 : Memref sig .tc .vmem S640x512 .f32) (harg10 : arg10.IsWhole) (arg11 : Memref sig .tc .vmem S640x768 .f32) (harg11 : arg11.IsWhole) (x0 : Vec F S640x1 .i32) (x1 : Vec F S20000x768 .bf16) (x2 : Vec F S640x20 .f32) (x3 : Vec F S640x1 .f32) (x4 : Vec F S640x3 .f32) (x5 : Vec F S20x128 .f32) (x6 : Vec F S1x128 .f32) (x7 : Vec F S128x384 .f32) (x8 : Vec F S1x384 .f32) :
    out1_A_9 (F := F) c i arg1 harg1 arg2 harg2 arg3 harg3 arg4 harg4 arg5 harg5 arg6 harg6 arg7 harg7 arg8 harg8 arg9 harg9 arg10 harg10 arg11 harg11 x0 x1 x2 x3 x4 x5 x6 x7 x8
      = View.canon
          [⟨Rect.unit (s := S640x512) ![0, 384] S640x128.size inb_S640x512_S640x128_0_384,
              k1_pay7 (k1_pay11 (gathered x0 x1)) (k1_pay12 (gathered x0 x1)) (k1_pay13 (gathered x0 x1)) (k1_pay14 x2 x5 x6 x7 x8) x3 x4⟩,
            ⟨Rect.unit (s := S640x512) ![0, 256] S640x128.size inb_S640x512_S640x128_0_256,
              k1_pay6 (k1_pay11 (gathered x0 x1)) (k1_pay12 (gathered x0 x1)) (k1_pay13 (gathered x0 x1)) (k1_pay14 x2 x5 x6 x7 x8) x3 x4⟩,
            ⟨Rect.unit (s := S640x512) ![0, 128] S640x128.size inb_S640x512_S640x128_0_128,
              k1_pay5 (k1_pay11 (gathered x0 x1)) (k1_pay12 (gathered x0 x1)) (k1_pay13 (gathered x0 x1)) (k1_pay14 x2 x5 x6 x7 x8) x3 x4⟩,
            ⟨Rect.unit (s := S640x512) ![0, 0] S640x128.size inb_S640x512_S640x128_0_0,
              k1_pay2 (k1_pay10 (gathered x0 x1)) (k1_pay14 x2 x5 x6 x7 x8) x3⟩] := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun1_A
  dsimp only
  sl_unfold_words
  rw [scratch_after]
  simp only [View.readAt_eq_ld, harg1.read_unread, harg2.read_unread, harg3.read_unread, harg4.read_unread,
    harg5.read_unread, harg6.read_unread, harg7.read_unread, harg8.read_unread, harg9.read_unread,
    View.ld_unit_zero (S := S640x1) hz, View.ld_unit_zero (S := S640x20) hz, View.ld_unit_zero (S := S640x3) hz,
    View.ld_unit_zero (S := S20x128) hz, View.ld_unit_zero (S := S1x128) hz, View.ld_unit_zero (S := S128x384) hz,
    View.ld_unit_zero (S := S1x384) hz]

end Generic

/-! ## The accumulator's entries after the loop -/

theorem trips_eq : k1_t1_loop.trips = 50 := by decide

/-- Trip k reads the table from row 400 k. -/
theorem off1_eq (k : Fin k1_t1_loop.trips) : k1_off1 k = ![400 * k.val, 0] := by
  have hk : k.val < 50 := Nat.lt_of_lt_of_le k.isLt (Nat.le_of_eq trips_eq)
  unfold k1_off1
  dsimp only
  rw [show (400#32 : BitVec 32) = BitVec.ofNat 32 400 from rfl, OneHot.stride_word]
  show ![(BitVec.ofNat 32 (k.val * 400)).toNat, 0] = _
  rw [BitVec.toNat_ofNat, Nat.mod_eq_of_lt (show k.val * 400 < 2 ^ 32 by omega), Nat.mul_comm]

/-- The chunk of trip k, at (col, j): row 400 k + col of the table. -/
theorem ld_chunk (x1 : Vec Ideal S20000x768 .bf16) (k : Fin k1_t1_loop.trips) (col : Fin 400) (j : Fin 768)
    (h : 400 * k.val + col.val < 20000) :
    View.ld (Val := Elt Ideal) x1 (Rect.unit (s := S20000x768) (k1_off1 k) S400x768.size (k1_off1_inb k)) (ix2 col j)
      = x1 (ix2 ⟨400 * k.val + col.val, h⟩ j) := by
  show x1 _ = x1 _
  refine congrArg x1 (funext fun a => Fin.ext ?_)
  match a with
  | ⟨0, _⟩ =>
    show k1_off1 k 0 + 1 * col.val = 400 * k.val + col.val
    rw [off1_eq]
    show 400 * k.val + 1 * col.val = _
    omega
  | ⟨1, _⟩ =>
    show k1_off1 k 1 + 1 * j.val = j.val
    rw [off1_eq]
    show 0 + 1 * j.val = _
    omega

/-- After the fifty trips the accumulator holds, at (e, j), the sum over all table rows of the indicator that the row's
    number is the edge's source word, times the row's entry j. -/
theorem gathered_apply (x0 : Vec Ideal S640x1 .i32) (x1 : Vec Ideal S20000x768 .bf16) (e : Fin 640) (j : Fin 768) :
    gathered (F := Ideal) x0 x1 (ix2 e j) = ∑ n : Fin 20000, ind (x0 (ix2 e 0)) (BitVec.ofNat 32 n.val) * x1 (ix2 n j) := by
  let f : Fin (50 * 400) → EReal := fun n => ind (x0 (ix2 e 0)) (BitVec.ofNat 32 n.val) * x1 (ix2 n j)
  let g : ℕ → EReal := fun k => if h : k < 50 then ∑ c : Fin 400, f (BlockSum.at' ⟨k, h⟩ c) else 0
  have hs : ∀ k, k < 50 → accAt x0 x1 (k1_pay8 (F := Ideal)) (k + 1) (ix2 e j) = accAt x0 x1 (k1_pay8 (F := Ideal)) k (ix2 e j) + g k := by
    intro k hk
    have hk' : k < k1_t1_loop.trips := by rw [trips_eq]; exact hk
    rw [accAt, dif_pos hk', OneHot.pay9_apply]
    refine congrArg (_ + ·) ?_
    show _ = dite (k < 50) _ _
    rw [dif_pos hk]
    refine Finset.sum_congr rfl fun col _ => ?_
    rw [ld_chunk x1 ⟨k, hk'⟩ col j (by show 400 * k + col.val < 20000; have := col.isLt; omega)]
    rfl
  have hsum := BlockSum.acc_eq_add_sum 50 g (fun k => accAt x0 x1 (k1_pay8 (F := Ideal)) k (ix2 e j)) hs
  have h0 : accAt x0 x1 (k1_pay8 (F := Ideal)) 0 (ix2 e j) = 0 := by
    show k1_pay8 (F := Ideal) (ix2 e j) = 0
    unfold k1_pay8
    rw [shapeCast_self]
    exact Ideal.ofBits_zero_f32
  show accAt x0 x1 (k1_pay8 (F := Ideal)) k1_t1_loop.trips (ix2 e j) = _
  rw [trips_eq]
  refine hsum.trans ?_
  rw [h0, zero_add]
  refine Eq.trans ?_ (BlockSum.sum_blocks 50 400 f).symm
  refine Finset.sum_congr rfl fun k _ => ?_
  show dite (k.val < 50) _ _ = _
  rw [dif_pos k.isLt]

/-! ## The payloads at an index, over the extended reals -/

theorem lhs_f1_0 (i : S640x128.Idx) (q : dot_S640x20_S20x128_S640x128_1_0_0_1_n_n.contr.Idx) : (dot_S640x20_S20x128_S640x128_1_0_0_1_n_n.lhsIdx i q 0).val = (i 0).val := by
  unfold DotDims.lhsIdx
  rw [dif_neg (show ¬(0 : Fin S640x20.rank) ∈ dot_S640x20_S20x128_S640x128_1_0_0_1_n_n.lhsBatch by decide), dif_pos (show (0 : Fin S640x20.rank) ∈ dot_S640x20_S20x128_S640x128_1_0_0_1_n_n.lhsNonContracting by decide)]
  rfl
theorem lhs_f1_1 (i : S640x128.Idx) (q : dot_S640x20_S20x128_S640x128_1_0_0_1_n_n.contr.Idx) : (dot_S640x20_S20x128_S640x128_1_0_0_1_n_n.lhsIdx i q 1).val = (q ⟨0, by decide⟩).val :=
  dot_S640x20_S20x128_S640x128_1_0_0_1_n_n.lhsIdx_val_of_single rfl i q
theorem rhs_f1_0 (i : S640x128.Idx) (q : dot_S640x20_S20x128_S640x128_1_0_0_1_n_n.contr.Idx) : (dot_S640x20_S20x128_S640x128_1_0_0_1_n_n.rhsIdx i q 0).val = (q ⟨0, by decide⟩).val :=
  dot_S640x20_S20x128_S640x128_1_0_0_1_n_n.rhsIdx_val_of_single rfl i q
theorem rhs_f1_1 (i : S640x128.Idx) (q : dot_S640x20_S20x128_S640x128_1_0_0_1_n_n.contr.Idx) : (dot_S640x20_S20x128_S640x128_1_0_0_1_n_n.rhsIdx i q 1).val = (i 1).val := by
  unfold DotDims.rhsIdx
  rw [dif_neg (show ¬(1 : Fin S20x128.rank) ∈ dot_S640x20_S20x128_S640x128_1_0_0_1_n_n.rhsBatch by decide), dif_pos (show (1 : Fin S20x128.rank) ∈ dot_S640x20_S20x128_S640x128_1_0_0_1_n_n.rhsNonContracting by decide)]
  rfl

/-- A 640 x 20 matrix times a 20 x 128 matrix, into a zero accumulator, at (a, b): the sum over the contracted coordinate of
    the products of the entries. -/
theorem matmul_f1_apply {φ₁ φ₂ : FTy} (A : FVec Ideal S640x20 φ₁) (B : FVec Ideal S20x128 φ₂) (a : Fin 640) (b : Fin 128) :
    matmul dot_S640x20_S20x128_S640x128_1_0_0_1_n_n none A B (constant S640x128 .f32 0x00000000#32) (ix2 a b) = ∑ c : Fin 20, A (ix2 a c) * B (ix2 c b) := by
  refine (Ideal.matmul_constant_zero_apply dot_S640x20_S20x128_S640x128_1_0_0_1_n_n none A B (ix2 a b)).trans ?_
  rw [← Equiv.sum_comp (ValueIdx.contrEquiv1 dot_S640x20_S20x128_S640x128_1_0_0_1_n_n 20 rfl rfl).symm]
  refine Finset.sum_congr rfl fun k _ => ?_
  have hk := ValueIdx.contrEquiv1_symm_val dot_S640x20_S20x128_S640x128_1_0_0_1_n_n 20 rfl rfl k
  have el : dot_S640x20_S20x128_S640x128_1_0_0_1_n_n.lhsIdx (ix2 a b) ((ValueIdx.contrEquiv1 dot_S640x20_S20x128_S640x128_1_0_0_1_n_n 20 rfl rfl).symm k) = ix2 a k := funext fun x => Fin.ext (by
    match x with
    | ⟨0, _⟩ => exact lhs_f1_0 _ _
    | ⟨1, _⟩ => exact (lhs_f1_1 _ _).trans hk)
  have er : dot_S640x20_S20x128_S640x128_1_0_0_1_n_n.rhsIdx (ix2 a b) ((ValueIdx.contrEquiv1 dot_S640x20_S20x128_S640x128_1_0_0_1_n_n 20 rfl rfl).symm k) = ix2 k b := funext fun x => Fin.ext (by
    match x with
    | ⟨0, _⟩ => exact (rhs_f1_0 _ _).trans hk
    | ⟨1, _⟩ => exact rhs_f1_1 _ _)
  rw [el, er]

theorem lhs_f2_0 (i : S640x384.Idx) (q : dot_S640x128_S128x384_S640x384_1_0_0_1_n_n.contr.Idx) : (dot_S640x128_S128x384_S640x384_1_0_0_1_n_n.lhsIdx i q 0).val = (i 0).val := by
  unfold DotDims.lhsIdx
  rw [dif_neg (show ¬(0 : Fin S640x128.rank) ∈ dot_S640x128_S128x384_S640x384_1_0_0_1_n_n.lhsBatch by decide), dif_pos (show (0 : Fin S640x128.rank) ∈ dot_S640x128_S128x384_S640x384_1_0_0_1_n_n.lhsNonContracting by decide)]
  rfl
theorem lhs_f2_1 (i : S640x384.Idx) (q : dot_S640x128_S128x384_S640x384_1_0_0_1_n_n.contr.Idx) : (dot_S640x128_S128x384_S640x384_1_0_0_1_n_n.lhsIdx i q 1).val = (q ⟨0, by decide⟩).val :=
  dot_S640x128_S128x384_S640x384_1_0_0_1_n_n.lhsIdx_val_of_single rfl i q
theorem rhs_f2_0 (i : S640x384.Idx) (q : dot_S640x128_S128x384_S640x384_1_0_0_1_n_n.contr.Idx) : (dot_S640x128_S128x384_S640x384_1_0_0_1_n_n.rhsIdx i q 0).val = (q ⟨0, by decide⟩).val :=
  dot_S640x128_S128x384_S640x384_1_0_0_1_n_n.rhsIdx_val_of_single rfl i q
theorem rhs_f2_1 (i : S640x384.Idx) (q : dot_S640x128_S128x384_S640x384_1_0_0_1_n_n.contr.Idx) : (dot_S640x128_S128x384_S640x384_1_0_0_1_n_n.rhsIdx i q 1).val = (i 1).val := by
  unfold DotDims.rhsIdx
  rw [dif_neg (show ¬(1 : Fin S128x384.rank) ∈ dot_S640x128_S128x384_S640x384_1_0_0_1_n_n.rhsBatch by decide), dif_pos (show (1 : Fin S128x384.rank) ∈ dot_S640x128_S128x384_S640x384_1_0_0_1_n_n.rhsNonContracting by decide)]
  rfl

/-- A 640 x 128 matrix times a 128 x 384 matrix, into a zero accumulator, at (a, b): the sum over the contracted coordinate of
    the products of the entries. -/
theorem matmul_f2_apply {φ₁ φ₂ : FTy} (A : FVec Ideal S640x128 φ₁) (B : FVec Ideal S128x384 φ₂) (a : Fin 640) (b : Fin 384) :
    matmul dot_S640x128_S128x384_S640x384_1_0_0_1_n_n none A B (constant S640x384 .f32 0x00000000#32) (ix2 a b) = ∑ c : Fin 128, A (ix2 a c) * B (ix2 c b) := by
  refine (Ideal.matmul_constant_zero_apply dot_S640x128_S128x384_S640x384_1_0_0_1_n_n none A B (ix2 a b)).trans ?_
  rw [← Equiv.sum_comp (ValueIdx.contrEquiv1 dot_S640x128_S128x384_S640x384_1_0_0_1_n_n 128 rfl rfl).symm]
  refine Finset.sum_congr rfl fun k _ => ?_
  have hk := ValueIdx.contrEquiv1_symm_val dot_S640x128_S128x384_S640x384_1_0_0_1_n_n 128 rfl rfl k
  have el : dot_S640x128_S128x384_S640x384_1_0_0_1_n_n.lhsIdx (ix2 a b) ((ValueIdx.contrEquiv1 dot_S640x128_S128x384_S640x384_1_0_0_1_n_n 128 rfl rfl).symm k) = ix2 a k := funext fun x => Fin.ext (by
    match x with
    | ⟨0, _⟩ => exact lhs_f2_0 _ _
    | ⟨1, _⟩ => exact (lhs_f2_1 _ _).trans hk)
  have er : dot_S640x128_S128x384_S640x384_1_0_0_1_n_n.rhsIdx (ix2 a b) ((ValueIdx.contrEquiv1 dot_S640x128_S128x384_S640x384_1_0_0_1_n_n 128 rfl rfl).symm k) = ix2 k b := funext fun x => Fin.ext (by
    match x with
    | ⟨0, _⟩ => exact (rhs_f2_0 _ _).trans hk
    | ⟨1, _⟩ => exact rhs_f2_1 _ _)
  rw [el, er]

/-- The filter perceptron of the block's radial basis rows, at (e, j). -/
theorem pay14_apply (v12 : Vec Ideal S640x20 .f32) (v14 : Vec Ideal S20x128 .f32) (v17 : Vec Ideal S1x128 .f32)
    (v23 : Vec Ideal S128x384 .f32) (v27 : Vec Ideal S1x384 .f32) (e : Fin 640) (j : Fin 384) :
    k1_pay14 (F := Ideal) v12 v14 v17 v23 v27 (ix2 e j)
      = (∑ c : Fin 128, silu ((∑ d : Fin 20, v12 (ix2 e d) * v14 (ix2 d c)) + v17 (ix2 0 c)) * v23 (ix2 c j)) + v27 (ix2 0 j) := by
  unfold k1_pay14
  simp only [shapeCast_self]
  rw [addf_apply, matmul_f2_apply, broadcastTo_1b_ab_apply]
  refine congrArg (· + v27 (ix2 0 j)) (Finset.sum_congr rfl fun c _ => ?_)
  refine congrArg (· * v23 (ix2 c j)) ?_
  show (addf (F := Ideal) (matmul _ _ _ _ _) _ (ix2 e c)) * Ideal.logistic (addf (F := Ideal) (matmul _ _ _ _ _) _ (ix2 e c)) = _
  rw [addf_apply, matmul_f1_apply, broadcastTo_1b_ab_apply]
  rfl

/-- The filter: the perceptron's entry times the edge's cutoff. -/
theorem pay1_apply (v30 : FVec Ideal S640x384 .f32) (v31 : Vec Ideal S640x1 .f32) (e : Fin 640) (j : Fin 384) :
    k1_pay1 (F := Ideal) v30 v31 (ix2 e j) = v30 (ix2 e j) * v31 (ix2 e 0) := by
  unfold k1_pay1
  rw [mulf_apply, RowLayers.broadcastColumn_apply, shapeCast_self]

/-- The scalar message: the gathered row's first band times the filter's first band. -/
theorem pay2_apply (v8 : FVec Ideal S640x128 .f32) (v30 : FVec Ideal S640x384 .f32) (v31 : Vec Ideal S640x1 .f32) (e : Fin 640) (l : Fin 128) :
    k1_pay2 (F := Ideal) v8 v30 v31 (ix2 e l) = v8 (ix2 e l) * (v30 (ix2 e ⟨l.val, by omega⟩) * v31 (ix2 e 0)) := by
  unfold k1_pay2
  rw [mulf_apply, slice2_axis1_apply 0 (k1_pay1 (F := Ideal) v30 v31) _ e l ⟨l.val, by omega⟩ (Nat.zero_add _).symm, pay1_apply]

theorem pay3_apply (v9 : FVec Ideal S640x128 .f32) (v30 : FVec Ideal S640x384 .f32) (v31 : Vec Ideal S640x1 .f32) (e : Fin 640) (l : Fin 128) :
    k1_pay3 (F := Ideal) v9 v30 v31 (ix2 e l) = v9 (ix2 e l) * (v30 (ix2 e ⟨128 + l.val, by omega⟩) * v31 (ix2 e 0)) := by
  unfold k1_pay3
  rw [mulf_apply, slice2_axis1_apply 128 (k1_pay1 (F := Ideal) v30 v31) _ e l ⟨128 + l.val, by omega⟩ rfl, pay1_apply]

theorem pay4_apply (v10 : FVec Ideal S640x128 .f32) (v30 : FVec Ideal S640x384 .f32) (v31 : Vec Ideal S640x1 .f32) (e : Fin 640) (l : Fin 128) :
    k1_pay4 (F := Ideal) v10 v30 v31 (ix2 e l) = v10 (ix2 e l) * (v30 (ix2 e ⟨256 + l.val, by omega⟩) * v31 (ix2 e 0)) := by
  unfold k1_pay4
  rw [mulf_apply, slice2_axis1_apply 256 (k1_pay1 (F := Ideal) v30 v31) _ e l ⟨256 + l.val, by omega⟩ rfl, pay1_apply]

/-- The three components of the vector message. -/
theorem pay5_apply (v9 v10 : FVec Ideal S640x128 .f32) (v11 v30 : FVec Ideal S640x384 .f32) (v31 : Vec Ideal S640x1 .f32) (v41 : Vec Ideal S640x3 .f32) (e : Fin 640) (l : Fin 128) :
    k1_pay5 (F := Ideal) v9 v10 v11 v30 v31 v41 (ix2 e l)
      = v41 (ix2 e 0) * k1_pay3 (F := Ideal) v9 v30 v31 (ix2 e l) + v11 (ix2 e ⟨128 * 0 + l.val, by omega⟩) * k1_pay4 (F := Ideal) v10 v30 v31 (ix2 e l) := by
  unfold k1_pay5
  rw [addf_apply, mulf_apply, mulf_apply, RowLayers.broadcastColumn_apply, slice2_axis1_apply 0 v41 _ e (0 : Fin 1) (0 : Fin 3) rfl,
    slice2_axis1_apply 0 v11 _ e l ⟨128 * 0 + l.val, by omega⟩ (by show 128 * 0 + l.val = 0 + l.val; omega)]

theorem pay6_apply (v9 v10 : FVec Ideal S640x128 .f32) (v11 v30 : FVec Ideal S640x384 .f32) (v31 : Vec Ideal S640x1 .f32) (v41 : Vec Ideal S640x3 .f32) (e : Fin 640) (l : Fin 128) :
    k1_pay6 (F := Ideal) v9 v10 v11 v30 v31 v41 (ix2 e l)
      = v41 (ix2 e 1) * k1_pay3 (F := Ideal) v9 v30 v31 (ix2 e l) + v11 (ix2 e ⟨128 * 1 + l.val, by omega⟩) * k1_pay4 (F := Ideal) v10 v30 v31 (ix2 e l) := by
  unfold k1_pay6
  rw [addf_apply, mulf_apply, mulf_apply, RowLayers.broadcastColumn_apply, slice2_axis1_apply 1 v41 _ e (0 : Fin 1) (1 : Fin 3) rfl,
    slice2_axis1_apply 128 v11 _ e l ⟨128 * 1 + l.val, by omega⟩ rfl]

theorem pay7_apply (v9 v10 : FVec Ideal S640x128 .f32) (v11 v30 : FVec Ideal S640x384 .f32) (v31 : Vec Ideal S640x1 .f32) (v41 : Vec Ideal S640x3 .f32) (e : Fin 640) (l : Fin 128) :
    k1_pay7 (F := Ideal) v9 v10 v11 v30 v31 v41 (ix2 e l)
      = v41 (ix2 e 2) * k1_pay3 (F := Ideal) v9 v30 v31 (ix2 e l) + v11 (ix2 e ⟨128 * 2 + l.val, by omega⟩) * k1_pay4 (F := Ideal) v10 v30 v31 (ix2 e l) := by
  unfold k1_pay7
  rw [addf_apply, mulf_apply, mulf_apply, RowLayers.broadcastColumn_apply, slice2_axis1_apply 2 v41 _ e (0 : Fin 1) (2 : Fin 3) rfl,
    slice2_axis1_apply 256 v11 _ e l ⟨128 * 2 + l.val, by omega⟩ rfl]

/-- The four bands of the gathered row. -/
theorem pay10_apply (v7 : Vec Ideal S640x768 .f32) (e : Fin 640) (l : Fin 128) :
    k1_pay10 (F := Ideal) v7 (ix2 e l) = v7 (ix2 e ⟨l.val, by omega⟩) := by
  unfold k1_pay10
  exact slice2_axis1_apply 0 v7 _ e l ⟨l.val, by omega⟩ (Nat.zero_add _).symm
theorem pay11_apply (v7 : Vec Ideal S640x768 .f32) (e : Fin 640) (l : Fin 128) :
    k1_pay11 (F := Ideal) v7 (ix2 e l) = v7 (ix2 e ⟨128 + l.val, by omega⟩) := by
  unfold k1_pay11
  exact slice2_axis1_apply 128 v7 _ e l ⟨128 + l.val, by omega⟩ rfl
theorem pay12_apply (v7 : Vec Ideal S640x768 .f32) (e : Fin 640) (l : Fin 128) :
    k1_pay12 (F := Ideal) v7 (ix2 e l) = v7 (ix2 e ⟨256 + l.val, by omega⟩) := by
  unfold k1_pay12
  exact slice2_axis1_apply 256 v7 _ e l ⟨256 + l.val, by omega⟩ rfl
theorem pay13_apply (v7 : Vec Ideal S640x768 .f32) (e : Fin 640) (l : Fin 384) :
    k1_pay13 (F := Ideal) v7 (ix2 e l) = v7 (ix2 e ⟨384 + l.val, by omega⟩) := by
  unfold k1_pay13
  exact slice2_axis1_apply 384 v7 _ e l ⟨384 + l.val, by omega⟩ rfl

/-! ## A message's entries, band by band -/

theorem msgAt_low (g : Fin NE → Fin 768 → EReal) (f : Fin NE → Fin 384 → EReal) (uv : Fin NE → Fin 3 → EReal) (E : Fin NE)
    (l : Fin 128) : msgAt g f uv E ⟨l.val, by omega⟩ = g E ⟨l.val, by omega⟩ * f E ⟨l.val, by omega⟩ := by
  unfold msgAt
  rw [dif_pos (show (⟨l.val, by omega⟩ : Fin 512).val < 128 from l.isLt)]

theorem msgAt_band (g : Fin NE → Fin 768 → EReal) (f : Fin NE → Fin 384 → EReal) (uv : Fin NE → Fin 3 → EReal) (E : Fin NE)
    (a : Fin 3) (l : Fin 128) :
    msgAt g f uv E ⟨128 + (128 * a.val + l.val), by omega⟩
      = uv E a * (g E ⟨128 + l.val, by omega⟩ * f E ⟨128 + l.val, by omega⟩)
        + g E ⟨384 + (128 * a.val + l.val), by omega⟩ * (g E ⟨256 + l.val, by omega⟩ * f E ⟨256 + l.val, by omega⟩) := by
  unfold msgAt
  rw [dif_neg (show ¬ (⟨128 + (128 * a.val + l.val), by omega⟩ : Fin 512).val < 128 from by
    show ¬ 128 + (128 * a.val + l.val) < 128; omega)]
  have ea : (⟨((⟨128 + (128 * a.val + l.val), by omega⟩ : Fin 512).val - 128) / 128, by
      show (128 + (128 * a.val + l.val) - 128) / 128 < 3; omega⟩ : Fin 3) = a :=
    Fin.ext (by show (128 + (128 * a.val + l.val) - 128) / 128 = a.val; omega)
  have el : (⟨((⟨128 + (128 * a.val + l.val), by omega⟩ : Fin 512).val - 128) % 128, Nat.mod_lt _ (by norm_num)⟩ : Fin 128) = l :=
    Fin.ext (by show (128 + (128 * a.val + l.val) - 128) % 128 = l.val; omega)
  rw [ea, el]
  rfl

/-! ## One grid point's block -/

section Point

variable (A : Vec Ideal S640x768 .f32) (P : FVec Ideal S640x384 .f32) (x3 : Vec Ideal S640x1 .f32) (x4 : Vec Ideal S640x3 .f32)
  (g : Fin NE → Fin 768 → EReal) (f : Fin NE → Fin 384 → EReal) (uv : Fin NE → Fin 3 → EReal) (E : Fin NE) (e : Fin 640)
  (hA : ∀ j, A (ix2 e j) = g E j) (hP : ∀ j, P (ix2 e j) * x3 (ix2 e 0) = f E j) (hUV : ∀ a, x4 (ix2 e a) = uv E a)

include hA hP in
theorem piece_low (l : Fin 128) :
    k1_pay2 (F := Ideal) (k1_pay10 (F := Ideal) A) P x3 (ix2 e l) = msgAt g f uv E ⟨l.val, by omega⟩ := by
  rw [pay2_apply, pay10_apply, hA, hP, msgAt_low]

include hA hP hUV in
theorem piece_band0 (l : Fin 128) :
    k1_pay5 (F := Ideal) (k1_pay11 (F := Ideal) A) (k1_pay12 (F := Ideal) A) (k1_pay13 (F := Ideal) A) P x3 x4 (ix2 e l)
      = msgAt g f uv E ⟨128 + (128 * (0 : Fin 3).val + l.val), by omega⟩ := by
  rw [pay5_apply, pay3_apply, pay4_apply, pay11_apply, pay12_apply, pay13_apply, hA, hA, hA, hP, hP, hUV, msgAt_band]
  rfl

include hA hP hUV in
theorem piece_band1 (l : Fin 128) :
    k1_pay6 (F := Ideal) (k1_pay11 (F := Ideal) A) (k1_pay12 (F := Ideal) A) (k1_pay13 (F := Ideal) A) P x3 x4 (ix2 e l)
      = msgAt g f uv E ⟨128 + (128 * (1 : Fin 3).val + l.val), by omega⟩ := by
  rw [pay6_apply, pay3_apply, pay4_apply, pay11_apply, pay12_apply, pay13_apply, hA, hA, hA, hP, hP, hUV, msgAt_band]
  rfl

include hA hP hUV in
theorem piece_band2 (l : Fin 128) :
    k1_pay7 (F := Ideal) (k1_pay11 (F := Ideal) A) (k1_pay12 (F := Ideal) A) (k1_pay13 (F := Ideal) A) P x3 x4 (ix2 e l)
      = msgAt g f uv E ⟨128 + (128 * (2 : Fin 3).val + l.val), by omega⟩ := by
  rw [pay7_apply, pay3_apply, pay4_apply, pay11_apply, pay12_apply, pay13_apply, hA, hA, hA, hP, hP, hUV, msgAt_band]
  rfl

end Point

/-! ## The block a grid point leaves, entry by entry -/

/-- Where the four column pieces sit in the block. -/

theorem emb_low (e : Fin 640) (l : Fin 128) :
    (Rect.unit (s := S640x512) ![0, 0] S640x128.size inb_S640x512_S640x128_0_0).emb (ix2 e l)
      = ix2 e (⟨l.val, by omega⟩ : Fin 512) :=
  funext fun a => Fin.ext (by
    match a with
    | ⟨0, _⟩ => show 0 + 1 * e.val = e.val; omega
    | ⟨1, _⟩ => show 0 + 1 * l.val = l.val; omega)

theorem emb_band0 (e : Fin 640) (l : Fin 128) :
    (Rect.unit (s := S640x512) ![0, 128] S640x128.size inb_S640x512_S640x128_0_128).emb (ix2 e l)
      = ix2 e (⟨128 + (128 * (0 : Fin 3).val + l.val), by omega⟩ : Fin 512) :=
  funext fun a => Fin.ext (by
    match a with
    | ⟨0, _⟩ => show 0 + 1 * e.val = e.val; omega
    | ⟨1, _⟩ => show 128 + 1 * l.val = 128 + (128 * (0 : Fin 3).val + l.val); omega)

theorem emb_band1 (e : Fin 640) (l : Fin 128) :
    (Rect.unit (s := S640x512) ![0, 256] S640x128.size inb_S640x512_S640x128_0_256).emb (ix2 e l)
      = ix2 e (⟨128 + (128 * (1 : Fin 3).val + l.val), by omega⟩ : Fin 512) :=
  funext fun a => Fin.ext (by
    match a with
    | ⟨0, _⟩ => show 0 + 1 * e.val = e.val; omega
    | ⟨1, _⟩ => show 256 + 1 * l.val = 128 + (128 * (1 : Fin 3).val + l.val); omega)

theorem emb_band2 (e : Fin 640) (l : Fin 128) :
    (Rect.unit (s := S640x512) ![0, 384] S640x128.size inb_S640x512_S640x128_0_384).emb (ix2 e l)
      = ix2 e (⟨128 + (128 * (2 : Fin 3).val + l.val), by omega⟩ : Fin 512) :=
  funext fun a => Fin.ext (by
    match a with
    | ⟨0, _⟩ => show 0 + 1 * e.val = e.val; omega
    | ⟨1, _⟩ => show 384 + 1 * l.val = 128 + (128 * (2 : Fin 3).val + l.val); omega)

/-- Rows E e of the messages, as a block. -/
def blockMsgs (g : Fin NE → Fin 768 → EReal) (f : Fin NE → Fin 384 → EReal) (uv : Fin NE → Fin 3 → EReal) (E : Fin 640 → Fin NE) :
    S640x512.Idx → EReal := arr2 fun e j => msgAt g f uv (E e) j

/-- If the point's blocks are the rows E e of the arrays (and the whole arrays where a window holds its whole array), the
    block the body leaves is the rows E e of the messages. -/
theorem point_value (c : Dev nD) (i : grid1.Coords) (arg1 : Memref sig .tc .vmem S640x1 .i32) (harg1 : arg1.IsWhole) (arg2 : Memref sig .tc .vmem S20000x768 .bf16) (harg2 : arg2.IsWhole) (arg3 : Memref sig .tc .vmem S640x20 .f32) (harg3 : arg3.IsWhole) (arg4 : Memref sig .tc .vmem S640x1 .f32) (harg4 : arg4.IsWhole) (arg5 : Memref sig .tc .vmem S640x3 .f32) (harg5 : arg5.IsWhole) (arg6 : Memref sig .tc .vmem S20x128 .f32) (harg6 : arg6.IsWhole) (arg7 : Memref sig .tc .vmem S1x128 .f32) (harg7 : arg7.IsWhole) (arg8 : Memref sig .tc .vmem S128x384 .f32) (harg8 : arg8.IsWhole) (arg9 : Memref sig .tc .vmem S1x384 .f32) (harg9 : arg9.IsWhole) (arg10 : Memref sig .tc .vmem S640x512 .f32) (harg10 : arg10.IsWhole) (arg11 : Memref sig .tc .vmem S640x768 .f32) (harg11 : arg11.IsWhole) (x0 : Vec Ideal S640x1 .i32) (x1 : Vec Ideal S20000x768 .bf16) (x2 : Vec Ideal S640x20 .f32) (x3 : Vec Ideal S640x1 .f32) (x4 : Vec Ideal S640x3 .f32) (x5 : Vec Ideal S20x128 .f32) (x6 : Vec Ideal S1x128 .f32) (x7 : Vec Ideal S128x384 .f32) (x8 : Vec Ideal S1x384 .f32)
    (srcA : S160000x1.Idx → BitVec 32) (slabA : S20000x768.Idx → EReal) (rbfA : S160000x20.Idx → EReal)
    (cutA : S160000x1.Idx → EReal) (uvA : S160000x3.Idx → EReal) (wf1A : S20x128.Idx → EReal) (bf1A : S1x128.Idx → EReal)
    (wf2A : S128x384.Idx → EReal) (bf2A : S1x384.Idx → EReal) (E : Fin 640 → Fin NE)
    (h0 : ∀ e, x0 (ix2 e 0) = srcA (ix2 (E e) 0)) (h1 : ∀ n j, x1 (ix2 n j) = slabA (ix2 n j))
    (h2 : ∀ e d, x2 (ix2 e d) = rbfA (ix2 (E e) d)) (h3 : ∀ e, x3 (ix2 e 0) = cutA (ix2 (E e) 0))
    (h4 : ∀ e a, x4 (ix2 e a) = uvA (ix2 (E e) a)) (h5 : ∀ d k, x5 (ix2 d k) = wf1A (ix2 d k))
    (h6 : ∀ k, x6 (ix2 0 k) = bf1A (ix2 0 k)) (h7 : ∀ k j, x7 (ix2 k j) = wf2A (ix2 k j))
    (h8 : ∀ j, x8 (ix2 0 j) = bf2A (ix2 0 j)) (e : Fin 640) (j : Fin 512) :
    out1_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix2 e j)
      = msgAt (gathAt (fun e => srcA (ix2 e 0)) (fn2 slabA))
          (filtAt (mlp (fn2 rbfA) (fn2 wf1A) (fun k => bf1A (ix2 0 k)) (fn2 wf2A) (fun k => bf2A (ix2 0 k))) (fun e => cutA (ix2 e 0)))
          (fn2 uvA) (E e) j := by
  rw [out1_pieces]
  generalize hg : gathAt (fun e => srcA (ix2 e 0)) (fn2 slabA) = g
  generalize hf : filtAt (mlp (fn2 rbfA) (fn2 wf1A) (fun k => bf1A (ix2 0 k)) (fn2 wf2A) (fun k => bf2A (ix2 0 k))) (fun e => cutA (ix2 e 0)) = f
  have hA : ∀ e j, gathered (F := Ideal) x0 x1 (ix2 e j) = g (E e) j := fun e j => by
    subst hg
    refine (gathered_apply x0 x1 e j).trans (Finset.sum_congr rfl fun n _ => ?_)
    rw [h0, h1]
    rfl
  have hP : ∀ e j, k1_pay14 (F := Ideal) x2 x5 x6 x7 x8 (ix2 e j) * x3 (ix2 e 0) = f (E e) j := fun e j => by
    subst hf
    rw [pay14_apply, h3, h8]
    simp only [h2, h5, h6, h7]
    rfl
  have hU : ∀ e a, x4 (ix2 e a) = fn2 uvA (E e) a := fun e a => h4 e a
  refine View.canon_apply_of_pieces (Val := Elt Ideal) (e := .f32) (blockMsgs g f (fn2 uvA) E) _ ?_ (ix2 e j)
    (View.cover_of_tiledL (s := S640x512) _ S640x128.size (by sl_kernel_rfl) (ix2 e j))
  intro p hp
  simp only [List.mem_cons, List.not_mem_nil, or_false] at hp
  rcases hp with rfl | rfl | rfl | rfl
  · intro x
    obtain ⟨e', l, rfl⟩ : ∃ (e' : Fin 640) (l : Fin 128), x = ix2 e' l := ⟨x 0, x 1, eq_ix2 x⟩
    refine Eq.trans ?_ (congrArg (blockMsgs g f (fn2 uvA) E) (emb_band2 e' l)).symm
    exact piece_band2 _ _ x3 x4 g f (fn2 uvA) (E e') e' (hA e') (hP e') (hU e') l
  · intro x
    obtain ⟨e', l, rfl⟩ : ∃ (e' : Fin 640) (l : Fin 128), x = ix2 e' l := ⟨x 0, x 1, eq_ix2 x⟩
    refine Eq.trans ?_ (congrArg (blockMsgs g f (fn2 uvA) E) (emb_band1 e' l)).symm
    exact piece_band1 _ _ x3 x4 g f (fn2 uvA) (E e') e' (hA e') (hP e') (hU e') l
  · intro x
    obtain ⟨e', l, rfl⟩ : ∃ (e' : Fin 640) (l : Fin 128), x = ix2 e' l := ⟨x 0, x 1, eq_ix2 x⟩
    refine Eq.trans ?_ (congrArg (blockMsgs g f (fn2 uvA) E) (emb_band0 e' l)).symm
    exact piece_band0 _ _ x3 x4 g f (fn2 uvA) (E e') e' (hA e') (hP e') (hU e') l
  · intro x
    obtain ⟨e', l, rfl⟩ : ∃ (e' : Fin 640) (l : Fin 128), x = ix2 e' l := ⟨x 0, x 1, eq_ix2 x⟩
    refine Eq.trans ?_ (congrArg (blockMsgs g f (fn2 uvA) E) (emb_low e' l)).symm
    exact piece_low _ _ x3 g f (fn2 uvA) (E e') e' (hA e') (hP e') l

variable (V : (c : Dev nD) → (b : Ref sig .tc) → Buf (Elt Ideal) ((c : Thread nD τ).loc b))

/-- The arrays the launch reads, as it finds them. -/
abbrev srcArr (c : Dev nD) : S160000x1.Idx → BitVec 32 := V c (Pipeline.arrRef spec1 0)
abbrev slabArr (c : Dev nD) : S20000x768.Idx → EReal := V c (Pipeline.arrRef spec1 1)
abbrev rbfArr (c : Dev nD) : S160000x20.Idx → EReal := V c (Pipeline.arrRef spec1 2)
abbrev cutArr (c : Dev nD) : S160000x1.Idx → EReal := V c (Pipeline.arrRef spec1 3)
abbrev uvArr (c : Dev nD) : S160000x3.Idx → EReal := V c (Pipeline.arrRef spec1 4)
abbrev wf1Arr (c : Dev nD) : S20x128.Idx → EReal := V c (Pipeline.arrRef spec1 5)
abbrev bf1Arr (c : Dev nD) : S1x128.Idx → EReal := V c (Pipeline.arrRef spec1 6)
abbrev wf2Arr (c : Dev nD) : S128x384.Idx → EReal := V c (Pipeline.arrRef spec1 7)
abbrev bf2Arr (c : Dev nD) : S1x384.Idx → EReal := V c (Pipeline.arrRef spec1 8)

/-! ## From the blocks to the array -/

/-- The block index of every window at a grid point: the edge-row windows are at block t, the others at block 0. -/
theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = 0 ∧ win1_1.index t (1 : Fin 2) = 0 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem idx3 : ∀ t : Fin cfg1.N, win1_3.index t (0 : Fin 2) = t.val ∧ win1_3.index t (1 : Fin 2) = 0 :=
  (by decide +kernel : ∀ t : Fin grid1.N, _)
theorem idx4 : ∀ t : Fin cfg1.N, win1_4.index t (0 : Fin 2) = t.val ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 2) = 0 ∧ win1_7.index t (1 : Fin 2) = 0 :=
  (by decide +kernel : ∀ t : Fin grid1.N, _)
theorem idx8 : ∀ t : Fin cfg1.N, win1_8.index t (0 : Fin 2) = 0 ∧ win1_8.index t (1 : Fin 2) = 0 :=
  (by decide +kernel : ∀ t : Fin grid1.N, _)
theorem idx9 : ∀ t : Fin cfg1.N, win1_9.index t (0 : Fin 2) = t.val ∧ win1_9.index t (1 : Fin 2) = 0 :=
  (by decide +kernel : ∀ t : Fin grid1.N, _)

/-- Edge number 640 t + e: row e of block t. -/
def row (t : Fin cfg1.N) (e : Fin 640) : Fin NE :=
  ⟨640 * t.val + e.val, by
    have ht : t.val < 250 := lt_of_lt_of_eq t.isLt N_1
    show 640 * t.val + e.val < 160000
    omega⟩

section Blocks

theorem blk0 (c : Dev nD) (t : Fin cfg1.N) (e : Fin 640) (d : Fin 1) :
    iblk1 (F := Ideal) V c 0 t (ix2 e d) = srcArr V c (ix2 (row t e) d) := by
  have hidx : ((cfg1.win 0).blk t).view.emb (ix2 e d) = (ix2 (row t e) d : S160000x1.Idx) :=
    funext fun a => Fin.ext (by
      match a with
      | ⟨0, _⟩ =>
        show win1_0.index t (0 : Fin 2) * 640 + 1 * e.val = 640 * t.val + e.val
        have := (idx0 t).1; omega
      | ⟨1, _⟩ =>
        show win1_0.index t (1 : Fin 2) * 1 + 1 * d.val = d.val
        have := (idx0 t).2; omega)
  show V c (Pipeline.arrRef spec1 0) (((cfg1.win 0).blk t).view.emb (ix2 e d)) = V c (Pipeline.arrRef spec1 0) (ix2 (row t e) d)
  rw [hidx]

theorem blk1 (c : Dev nD) (t : Fin cfg1.N) (p : Fin 20000) (q : Fin 768) :
    iblk1 (F := Ideal) V c 1 t (ix2 p q) = slabArr V c (ix2 p q) := by
  have hidx : ((cfg1.win 1).blk t).view.emb (ix2 p q) = (ix2 p q : S20000x768.Idx) :=
    funext fun a => Fin.ext (by
      match a with
      | ⟨0, _⟩ =>
        show win1_1.index t (0 : Fin 2) * 20000 + 1 * p.val = p.val
        have := (idx1 t).1; omega
      | ⟨1, _⟩ =>
        show win1_1.index t (1 : Fin 2) * 768 + 1 * q.val = q.val
        have := (idx1 t).2; omega)
  show V c (Pipeline.arrRef spec1 1) (((cfg1.win 1).blk t).view.emb (ix2 p q)) = V c (Pipeline.arrRef spec1 1) (ix2 p q)
  rw [hidx]

theorem blk2 (c : Dev nD) (t : Fin cfg1.N) (e : Fin 640) (d : Fin 20) :
    iblk1 (F := Ideal) V c 2 t (ix2 e d) = rbfArr V c (ix2 (row t e) d) := by
  have hidx : ((cfg1.win 2).blk t).view.emb (ix2 e d) = (ix2 (row t e) d : S160000x20.Idx) :=
    funext fun a => Fin.ext (by
      match a with
      | ⟨0, _⟩ =>
        show win1_2.index t (0 : Fin 2) * 640 + 1 * e.val = 640 * t.val + e.val
        have := (idx2 t).1; omega
      | ⟨1, _⟩ =>
        show win1_2.index t (1 : Fin 2) * 20 + 1 * d.val = d.val
        have := (idx2 t).2; omega)
  show V c (Pipeline.arrRef spec1 2) (((cfg1.win 2).blk t).view.emb (ix2 e d)) = V c (Pipeline.arrRef spec1 2) (ix2 (row t e) d)
  rw [hidx]

theorem blk3 (c : Dev nD) (t : Fin cfg1.N) (e : Fin 640) (d : Fin 1) :
    iblk1 (F := Ideal) V c 3 t (ix2 e d) = cutArr V c (ix2 (row t e) d) := by
  have hidx : ((cfg1.win 3).blk t).view.emb (ix2 e d) = (ix2 (row t e) d : S160000x1.Idx) :=
    funext fun a => Fin.ext (by
      match a with
      | ⟨0, _⟩ =>
        show win1_3.index t (0 : Fin 2) * 640 + 1 * e.val = 640 * t.val + e.val
        have := (idx3 t).1; omega
      | ⟨1, _⟩ =>
        show win1_3.index t (1 : Fin 2) * 1 + 1 * d.val = d.val
        have := (idx3 t).2; omega)
  show V c (Pipeline.arrRef spec1 3) (((cfg1.win 3).blk t).view.emb (ix2 e d)) = V c (Pipeline.arrRef spec1 3) (ix2 (row t e) d)
  rw [hidx]

theorem blk4 (c : Dev nD) (t : Fin cfg1.N) (e : Fin 640) (d : Fin 3) :
    iblk1 (F := Ideal) V c 4 t (ix2 e d) = uvArr V c (ix2 (row t e) d) := by
  have hidx : ((cfg1.win 4).blk t).view.emb (ix2 e d) = (ix2 (row t e) d : S160000x3.Idx) :=
    funext fun a => Fin.ext (by
      match a with
      | ⟨0, _⟩ =>
        show win1_4.index t (0 : Fin 2) * 640 + 1 * e.val = 640 * t.val + e.val
        have := (idx4 t).1; omega
      | ⟨1, _⟩ =>
        show win1_4.index t (1 : Fin 2) * 3 + 1 * d.val = d.val
        have := (idx4 t).2; omega)
  show V c (Pipeline.arrRef spec1 4) (((cfg1.win 4).blk t).view.emb (ix2 e d)) = V c (Pipeline.arrRef spec1 4) (ix2 (row t e) d)
  rw [hidx]

theorem blk5 (c : Dev nD) (t : Fin cfg1.N) (p : Fin 20) (q : Fin 128) :
    iblk1 (F := Ideal) V c 5 t (ix2 p q) = wf1Arr V c (ix2 p q) := by
  have hidx : ((cfg1.win 5).blk t).view.emb (ix2 p q) = (ix2 p q : S20x128.Idx) :=
    funext fun a => Fin.ext (by
      match a with
      | ⟨0, _⟩ =>
        show win1_5.index t (0 : Fin 2) * 20 + 1 * p.val = p.val
        have := (idx5 t).1; omega
      | ⟨1, _⟩ =>
        show win1_5.index t (1 : Fin 2) * 128 + 1 * q.val = q.val
        have := (idx5 t).2; omega)
  show V c (Pipeline.arrRef spec1 5) (((cfg1.win 5).blk t).view.emb (ix2 p q)) = V c (Pipeline.arrRef spec1 5) (ix2 p q)
  rw [hidx]

theorem blk6 (c : Dev nD) (t : Fin cfg1.N) (p : Fin 1) (q : Fin 128) :
    iblk1 (F := Ideal) V c 6 t (ix2 p q) = bf1Arr V c (ix2 p q) := by
  have hidx : ((cfg1.win 6).blk t).view.emb (ix2 p q) = (ix2 p q : S1x128.Idx) :=
    funext fun a => Fin.ext (by
      match a with
      | ⟨0, _⟩ =>
        show win1_6.index t (0 : Fin 2) * 1 + 1 * p.val = p.val
        have := (idx6 t).1; omega
      | ⟨1, _⟩ =>
        show win1_6.index t (1 : Fin 2) * 128 + 1 * q.val = q.val
        have := (idx6 t).2; omega)
  show V c (Pipeline.arrRef spec1 6) (((cfg1.win 6).blk t).view.emb (ix2 p q)) = V c (Pipeline.arrRef spec1 6) (ix2 p q)
  rw [hidx]

theorem blk7 (c : Dev nD) (t : Fin cfg1.N) (p : Fin 128) (q : Fin 384) :
    iblk1 (F := Ideal) V c 7 t (ix2 p q) = wf2Arr V c (ix2 p q) := by
  have hidx : ((cfg1.win 7).blk t).view.emb (ix2 p q) = (ix2 p q : S128x384.Idx) :=
    funext fun a => Fin.ext (by
      match a with
      | ⟨0, _⟩ =>
        show win1_7.index t (0 : Fin 2) * 128 + 1 * p.val = p.val
        have := (idx7 t).1; omega
      | ⟨1, _⟩ =>
        show win1_7.index t (1 : Fin 2) * 384 + 1 * q.val = q.val
        have := (idx7 t).2; omega)
  show V c (Pipeline.arrRef spec1 7) (((cfg1.win 7).blk t).view.emb (ix2 p q)) = V c (Pipeline.arrRef spec1 7) (ix2 p q)
  rw [hidx]

theorem blk8 (c : Dev nD) (t : Fin cfg1.N) (p : Fin 1) (q : Fin 384) :
    iblk1 (F := Ideal) V c 8 t (ix2 p q) = bf2Arr V c (ix2 p q) := by
  have hidx : ((cfg1.win 8).blk t).view.emb (ix2 p q) = (ix2 p q : S1x384.Idx) :=
    funext fun a => Fin.ext (by
      match a with
      | ⟨0, _⟩ =>
        show win1_8.index t (0 : Fin 2) * 1 + 1 * p.val = p.val
        have := (idx8 t).1; omega
      | ⟨1, _⟩ =>
        show win1_8.index t (1 : Fin 2) * 384 + 1 * q.val = q.val
        have := (idx8 t).2; omega)
  show V c (Pipeline.arrRef spec1 8) (((cfg1.win 8).blk t).view.emb (ix2 p q)) = V c (Pipeline.arrRef spec1 8) (ix2 p q)
  rw [hidx]

end Blocks

/-- Every edge's message, as an array. -/
abbrev edgeMsgs (c : Dev nD) : S160000x512.Idx → EReal :=
  arr2 (msgAt (gathAt (fun e => srcArr V c (ix2 e 0)) (fn2 (slabArr V c)))
    (filtAt (mlp (fn2 (rbfArr V c)) (fn2 (wf1Arr V c)) (fun k => bf1Arr V c (ix2 0 k)) (fn2 (wf2Arr V c)) (fun k => bf2Arr V c (ix2 0 k)))
      (fun e => cutArr V c (ix2 e 0)))
    (fn2 (uvArr V c)))

/-- What grid point t writes back is block t of the messages. -/
theorem flushed_eq (c : Dev nD) (t : Fin cfg1.N) :
    (dat1 (F := Ideal) V c).flushed 9 t = ((cfg1.win 9).blk t).view.read (Elt Ideal) (edgeMsgs V c) := by
  show (cfg1.win 9).cut (grid1.coords t) ((dat1 (F := Ideal) V c).after 9 t) = _
  rw [after1_9]
  unfold outsAt1
  funext y
  obtain ⟨r, j, rfl⟩ : ∃ (r : Fin 640) (j : Fin 512), y = ix2 r j := ⟨y 0, y 1, eq_ix2 y⟩
  have hidx : ((cfg1.win 9).blk t).view.emb (ix2 r j) = (ix2 (row t r) j : S160000x512.Idx) :=
    funext fun a => Fin.ext (by
      match a with
      | ⟨0, _⟩ =>
        show win1_9.index t (0 : Fin 2) * 640 + 1 * r.val = 640 * t.val + r.val
        have := (idx9 t).1; omega
      | ⟨1, _⟩ =>
        show win1_9.index t (1 : Fin 2) * 512 + 1 * j.val = j.val
        have := (idx9 t).2; omega)
  show out1_A_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (ix2 r j)
    = edgeMsgs V c (((cfg1.win 9).blk t).view.emb (ix2 r j))
  rw [hidx]
  exact point_value c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _)
    (iblk1 V c 0 t) (iblk1 V c 1 t) (iblk1 V c 2 t) (iblk1 V c 3 t) (iblk1 V c 4 t) (iblk1 V c 5 t) (iblk1 V c 6 t) (iblk1 V c 7 t) (iblk1 V c 8 t)
    (srcArr V c) (slabArr V c) (rbfArr V c) (cutArr V c) (uvArr V c) (wf1Arr V c) (bf1Arr V c) (wf2Arr V c) (bf2Arr V c) (row t)
    (fun e => blk0 V c t e 0) (blk1 V c t) (blk2 V c t) (fun e => blk3 V c t e 0) (blk4 V c t) (blk5 V c t) (fun k => blk6 V c t 0 k) (blk7 V c t) (fun k => blk8 V c t 0 k) r j

/-- Every entry of the output array lies in the block of the point that handles its edge. -/
theorem covered (i : S160000x512.Idx) :
    ∃ t : Fin cfg1.N, (cfg1.win 9).flush t = true ∧ i ∈ ((cfg1.win 9).blk t).view.set := by
  have hi0 : (i 0).val < 160000 := (i 0).isLt
  have hi1 : (i 1).val < 512 := (i 1).isLt
  have hN : cfg1.N = 250 := N_1
  let t : Fin cfg1.N := ⟨(i 0).val / 640, by rw [hN]; omega⟩
  refine ⟨t, flush1_9 t, ?_⟩
  show i ∈ ((View.whole main_v13).slice (win1_9.rect t)).set
  rw [View.set_slice_whole, Rect.mem_set_unit]
  intro a
  match a with
  | ⟨0, _⟩ =>
    show win1_9.index t (0 : Fin 2) * 640 ≤ (i 0).val ∧ (i 0).val < win1_9.index t (0 : Fin 2) * 640 + 640
    have := (idx9 t).1
    have ht : t.val = (i 0).val / 640 := rfl
    omega
  | ⟨1, _⟩ =>
    show win1_9.index t (1 : Fin 2) * 512 ≤ (i 1).val ∧ (i 1).val < win1_9.index t (1 : Fin 2) * 512 + 512
    have := (idx9 t).2
    omega

/-- The output array after the last grid point holds every edge's message. -/
theorem value (c : Dev nD) :
    ((dat1 (F := Ideal) V c).arrAt 9 cfg1.N : S160000x512.Idx → EReal)
      = arr2 (msgAt (gathAt (fun e => srcArr V c (ix2 e 0)) (fn2 (slabArr V c)))
          (filtAt (mlp (fn2 (rbfArr V c)) (fn2 (wf1Arr V c)) (fun k => bf1Arr V c (ix2 0 k)) (fn2 (wf2Arr V c)) (fun k => bf2Arr V c (ix2 0 k)))
            (fun e => cutArr V c (ix2 e 0)))
          (fn2 (uvArr V c))) :=
  (dat1 (F := Ideal) V c).arrAt_eq_of_cover 9 (edgeMsgs V c) (fun t _ => flushed_eq V c t) covered

end Cert.KernelIdeal.Region1

end
-- ==== Proof.Region2.lean ====
/-
  What the third launch leaves in its output array: the per-node sums of the edge messages. The grid is 2 halves of the
  512 message columns by 125 blocks of 1280 edges; a half's output block (all nodes, 256 columns) is zeroed at the first
  edge block and then, edge block by edge block and slab of 1000 nodes by slab, receives the product of a zero-one
  matrix (node number = edge's target) with the edge block's messages.

  The proof follows that order. One trip of the slab loop stores, through rows 1000k .. 1000k + 999, what it loads
  there plus the product; by induction over the twenty trips the whole block receives, at row n and column j, the
  addend  sum over the block's 1280 edges of [n = target word] * message(edge, j).  A half's first edge block leaves
  its addend over the zeroed block and each later one adds its own to what the point before left, so by induction over
  the grid points the block holds, after point 125 fh + eb, the addends of edge blocks 0 .. eb of half fh. Only a half's
  last point writes the block back; there the 125 addends of 1280 edges each are the sum over all 160000 edges, and the
  two halves' blocks tile the output array.
-/
import proofs.«407274_j17514876634209_3_alg».proof.Proof.Gen.KernelIdeal.Frame
import proofs.«407274_j17514876634209_3_alg».proof.Proof.Spec
import proofs.«407274_j17514876634209_3_alg».proof.Proof.OneHotPay
import proofs.«407274_j17514876634209_3_alg».proof.Proof.LibBlockSum
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Region2

open Idealize.ShloMosaic Idealize.ShloMosaic.TcCoe Idealize.ShloMosaic.ValueIdx Idealize.SL.Sem
open Cert.KernelIdeal Cert.KernelIdeal.Gen PaiNN

/-! ## One trip of the slab loop -/

/-- The loop makes twenty trips. -/
theorem trips_eq : k2_t1_loop.trips = 20 := by decide

/-- Slab k of the output block: rows 1000k .. 1000k + 999, all 256 columns. -/
abbrev slab (k : Fin k2_t1_loop.trips) : Rect S20000x256 :=
  Rect.unit (s := S20000x256) (k2_off1 k) S1000x256.size (k2_off1_inb k)

theorem off1_row (k : Fin k2_t1_loop.trips) : k2_off1 k 0 = 1000 * k.val := by
  have hk : k.val < 20 := Nat.lt_of_lt_of_le k.isLt k2_t1_abs.2.1
  show BitVec.toNat (Scalar.indexCast (Scalar.muli (Scalar.addi (0#32) (Scalar.muli (Scf.iv 0#32 1#32 k.val) 1#32)) 1000#32)) = _
  simp only [Scalar.indexCast, Scalar.muli, Scalar.addi, IntOp.muli, IntOp.addi, Scf.iv, BitVec.toNat_add, BitVec.toNat_mul,
    BitVec.toNat_ofNat]
  omega

theorem off1_col (k : Fin k2_t1_loop.trips) : k2_off1 k 1 = 0 := rfl

/-- Entry (r, j) of slab k is entry (1000k + r, j) of the block. -/
theorem slab_emb (k : Fin k2_t1_loop.trips) (r : Fin 1000) (j : Fin 256) (n : Fin 20000) (hn : n.val = 1000 * k.val + r.val) :
    (slab k).emb (ix2 r j) = ix2 n j := by
  funext a
  apply Fin.ext
  match a with
  | ⟨0, _⟩ => show k2_off1 k 0 + 1 * r.val = n.val; rw [off1_row]; omega
  | ⟨1, _⟩ => show k2_off1 k 1 + 1 * j.val = j.val; rw [off1_col]; omega

/-- An entry of the block lies in slab k exactly when its row does. -/
theorem mem_slab (k : Fin k2_t1_loop.trips) (n : Fin 20000) (j : Fin 256) :
    ix2 n j ∈ (slab k).set ↔ 1000 * k.val ≤ n.val ∧ n.val < 1000 * k.val + 1000 := by
  rw [Rect.mem_set_unit]
  constructor
  · intro h
    have h0 := h 0
    rw [off1_row] at h0
    exact h0
  · intro h a
    match a with
    | ⟨0, _⟩ => show k2_off1 k 0 ≤ n.val ∧ n.val < k2_off1 k 0 + 1000; rw [off1_row]; exact h
    | ⟨1, _⟩ => show k2_off1 k 1 ≤ j.val ∧ j.val < k2_off1 k 1 + 256; rw [off1_col]; have := j.isLt; omega

section Structure
variable {F : FTy → Type} [FloatOps F]

/-- A trip stores one piece: through slab k, the update of what it loads there. -/
theorem tripL_eq (𝒱 : Variants) (c : Dev nD) (bd : Option 𝒱.V) (i : grid2.Coords) (arg2 : Memref sig .tc .vmem S1x1280 .i32) (harg2 : arg2.IsWhole)
    (arg3 : Memref sig .tc .vmem S1280x256 .f32) (harg3 : arg3.IsWhole) (arg4 : Memref sig .tc .vmem S20000x256 .f32) (harg4 : arg4.IsWhole)
    (v0 : Vec F S1x1280 .i32) (v5 : Vec F S1280x256 .f32) (k : Fin k2_t1_loop.trips) (f : BufTy.Contents (Elt F) arg4.view.ty) :
    tripL_k2_t1 (F := F) 𝒱 c bd i arg2 harg2 arg3 harg3 arg4 harg4 v0 v5 k f
      = [⟨slab k, k2_pay2 v0 v5 k (View.ld (arg4.view.read (Elt F) f) (slab k))⟩] := by
  unfold tripL_k2_t1 trip_k2_t1
  rfl

end Structure

/-! ## The twenty trips -/

/-- What one block of 1280 edges sends to entry (n, j) of the output block: over the block's edges, the indicator
    that the edge's target word is the node number n, times the edge's message entry j. -/
def addend (tgt : Vec Ideal S1x1280 .i32) (msg : Vec Ideal S1280x256 .f32) (n : Fin 20000) (j : Fin 256) : EReal :=
  ∑ col : Fin 1280, ind (BitVec.ofNat 32 n.val) (tgt (ix2 (0 : Fin 1) col)) * msg (ix2 col j)

/-- After k trips the rows below 1000k have received their addend and the other rows are as the loop found them. -/
theorem loop_inv (𝒱 : Variants) (c : Dev nD) (bd : Option 𝒱.V) (i : grid2.Coords) (arg2 : Memref sig .tc .vmem S1x1280 .i32) (harg2 : arg2.IsWhole)
    (arg3 : Memref sig .tc .vmem S1280x256 .f32) (harg3 : arg3.IsWhole) (arg4 : Memref sig .tc .vmem S20000x256 .f32) (harg4 : arg4.IsWhole)
    (v0 : Vec Ideal S1x1280 .i32) (v5 : Vec Ideal S1280x256 .f32) (G : BufTy.Contents (Elt Ideal) arg4.view.ty) :
    ∀ k : ℕ, k ≤ 20 → ∀ (n : Fin 20000) (j : Fin 256),
      arg4.view.read (Elt Ideal) (arg4.view.writes (Elt Ideal) G
          (pb_k2_t1 (F := Ideal) 𝒱 c bd i arg2 harg2 arg3 harg3 arg4 harg4 v0 v5 G k)) (ix2 n j)
        = if n.val < 1000 * k then arg4.view.read (Elt Ideal) G (ix2 n j) + addend v0 v5 n j
          else arg4.view.read (Elt Ideal) G (ix2 n j)
  | 0, _, n, j => by
    rw [if_neg (by omega)]
    rfl
  | k + 1, hk, n, j => by
    have hk' : k < k2_t1_loop.trips := by rw [trips_eq]; omega
    have ih := loop_inv 𝒱 c bd i arg2 harg2 arg3 harg3 arg4 harg4 v0 v5 G k (by omega)
    have e : pb_k2_t1 (F := Ideal) 𝒱 c bd i arg2 harg2 arg3 harg3 arg4 harg4 v0 v5 G (k + 1)
        = ⟨slab ⟨k, hk'⟩, k2_pay2 v0 v5 ⟨k, hk'⟩ (View.ld (arg4.view.read (Elt Ideal) (arg4.view.writes (Elt Ideal) G
            (pb_k2_t1 (F := Ideal) 𝒱 c bd i arg2 harg2 arg3 harg3 arg4 harg4 v0 v5 G k))) (slab ⟨k, hk'⟩))⟩
          :: pb_k2_t1 (F := Ideal) 𝒱 c bd i arg2 harg2 arg3 harg3 arg4 harg4 v0 v5 G k :=
      (pb_k2_t1_succ (F := Ideal) 𝒱 c bd i arg2 harg2 arg3 harg3 arg4 harg4 v0 v5 G ⟨k, hk'⟩).trans (by rw [tripL_eq]; rfl)
    rw [e]
    by_cases hin : 1000 * k ≤ n.val ∧ n.val < 1000 * k + 1000
    · have hy := slab_emb ⟨k, hk'⟩ ⟨n.val - 1000 * k, by omega⟩ j n (by show n.val = 1000 * k + (n.val - 1000 * k); omega)
      have h1 := View.read_writes_cons_emb arg4.view G (slab ⟨k, hk'⟩)
        (k2_pay2 v0 v5 ⟨k, hk'⟩ (View.ld (arg4.view.read (Elt Ideal) (arg4.view.writes (Elt Ideal) G
            (pb_k2_t1 (F := Ideal) 𝒱 c bd i arg2 harg2 arg3 harg3 arg4 harg4 v0 v5 G k))) (slab ⟨k, hk'⟩)))
        (pb_k2_t1 (F := Ideal) 𝒱 c bd i arg2 harg2 arg3 harg3 arg4 harg4 v0 v5 G k) (ix2 ⟨n.val - 1000 * k, by omega⟩ j)
      rw [hy] at h1
      rw [h1, OneHot.pay2_apply]
      have h2 : View.ld (arg4.view.read (Elt Ideal) (arg4.view.writes (Elt Ideal) G
            (pb_k2_t1 (F := Ideal) 𝒱 c bd i arg2 harg2 arg3 harg3 arg4 harg4 v0 v5 G k))) (slab ⟨k, hk'⟩)
            (ix2 ⟨n.val - 1000 * k, by omega⟩ j)
          = arg4.view.read (Elt Ideal) (arg4.view.writes (Elt Ideal) G
            (pb_k2_t1 (F := Ideal) 𝒱 c bd i arg2 harg2 arg3 harg3 arg4 harg4 v0 v5 G k)) (ix2 n j) :=
        congrArg (arg4.view.read (Elt Ideal) (arg4.view.writes (Elt Ideal) G
            (pb_k2_t1 (F := Ideal) 𝒱 c bd i arg2 harg2 arg3 harg3 arg4 harg4 v0 v5 G k))) hy
      rw [h2, ih n j, if_neg (by omega), if_pos (by omega)]
      unfold addend
      rw [show 1000 * (⟨k, hk'⟩ : Fin k2_t1_loop.trips).val + (⟨n.val - 1000 * k, by omega⟩ : Fin 1000).val = n.val from by
        show 1000 * k + (n.val - 1000 * k) = n.val; omega]
    · have hy : ix2 n j ∉ Finset.univ.map (slab ⟨k, hk'⟩).emb := by
        rw [Rect.map_emb_univ, mem_slab]; exact hin
      rw [View.writes_cons, View.read_slice_write_of_not_mem _ _ _ _ hy, ih n j]
      by_cases h : n.val < 1000 * k
      · rw [if_pos h, if_pos (by omega)]
      · rw [if_neg h, if_neg (by omega)]

/-- After the twenty trips every row has received its addend. -/
theorem loop_end (𝒱 : Variants) (c : Dev nD) (bd : Option 𝒱.V) (i : grid2.Coords) (arg2 : Memref sig .tc .vmem S1x1280 .i32) (harg2 : arg2.IsWhole)
    (arg3 : Memref sig .tc .vmem S1280x256 .f32) (harg3 : arg3.IsWhole) (arg4 : Memref sig .tc .vmem S20000x256 .f32) (harg4 : arg4.IsWhole)
    (v0 : Vec Ideal S1x1280 .i32) (v5 : Vec Ideal S1280x256 .f32) (G : BufTy.Contents (Elt Ideal) arg4.view.ty) (n : Fin 20000) (j : Fin 256) :
    arg4.view.read (Elt Ideal) (arg4.view.writes (Elt Ideal) G
        (pb_k2_t1 (F := Ideal) 𝒱 c bd i arg2 harg2 arg3 harg3 arg4 harg4 v0 v5 G 20)) (ix2 n j)
      = arg4.view.read (Elt Ideal) G (ix2 n j) + addend v0 v5 n j := by
  rw [loop_inv 𝒱 c bd i arg2 harg2 arg3 harg3 arg4 harg4 v0 v5 G 20 (le_refl _) n j, if_pos (by have := n.isLt; omega)]

/-! ## The body's two cases -/

theorem hz2 : (![0, 0] : Fin 2 → Nat) = fun _ => 0 := funext fun a => by
  match a with
  | ⟨0, _⟩ => rfl
  | ⟨1, _⟩ => rfl

section Pieces
variable {F : FTy → Type} [FloatOps F]

/-- The store that zeroes the whole output block. -/
abbrev zeroPiece : View.Piece (Elt F) S20000x256 .f32 :=
  ⟨Rect.unit (s := S20000x256) ![0, 0] S20000x256.size inb_S20000x256_S20000x256_0_0, k2_pay1 (F := F)⟩

/-- At a later edge block the body's stores are the twenty trips' over what the point before left. -/
theorem runB_pieces (c : Dev nD) (i : grid2.Coords) (arg2 : Memref sig .tc .vmem S1x1280 .i32) (harg2 : arg2.IsWhole)
    (arg3 : Memref sig .tc .vmem S1280x256 .f32) (harg3 : arg3.IsWhole) (arg4 : Memref sig .tc .vmem S20000x256 .f32) (harg4 : arg4.IsWhole)
    (hc0 : ¬cond2_0 i) (x0 : Vec F S1x1280 .i32) (x1 : Vec F S1280x256 .f32) (xo : Vec F S20000x256 .f32) :
    (kernelRun2_B c i arg2 harg2 arg3 harg3 arg4 harg4 hc0 x0 x1 xo).1
      = pb_k2_t1 (F := F) Variants.none c none i arg2 harg2 arg3 harg3 arg4 harg4 x0 x1 (harg4.unread xo) 20 := by
  unfold kernelRun2_B
  dsimp only
  simp only [View.readAt_eq_ld, harg2.read_unread, harg3.read_unread, View.ld_unit_zero (S := S1x1280) hz2,
    View.ld_unit_zero (S := S1280x256) hz2]
  rfl

/-- At a half's first edge block they are the zeroing store, then the twenty trips over the zeroed block. -/
theorem runA_pieces (c : Dev nD) (i : grid2.Coords) (arg2 : Memref sig .tc .vmem S1x1280 .i32) (harg2 : arg2.IsWhole)
    (arg3 : Memref sig .tc .vmem S1280x256 .f32) (harg3 : arg3.IsWhole) (arg4 : Memref sig .tc .vmem S20000x256 .f32) (harg4 : arg4.IsWhole)
    (hc0 : cond2_0 i) (x0 : Vec F S1x1280 .i32) (x1 : Vec F S1280x256 .f32) :
    (kernelRun2_A c i arg2 harg2 arg3 harg3 arg4 harg4 hc0 x0 x1).1
      = pb_k2_t1 (F := F) Variants.none c none i arg2 harg2 arg3 harg3 arg4 harg4 x0 x1
          (arg4.view.writes (Elt F) arg4.view.junk [zeroPiece (F := F)]) 20 ++ [zeroPiece (F := F)] := by
  unfold kernelRun2_A
  dsimp only
  sl_unfold_words
  simp only [View.readAt_eq_ld, harg2.read_unread, harg3.read_unread, View.ld_unit_zero (S := S1x1280) hz2,
    View.ld_unit_zero (S := S1280x256) hz2]
  rfl

end Pieces

/-- A later edge block adds its addend to what the point before left in the output block. -/
theorem out_B (c : Dev nD) (i : grid2.Coords) (arg2 : Memref sig .tc .vmem S1x1280 .i32) (harg2 : arg2.IsWhole)
    (arg3 : Memref sig .tc .vmem S1280x256 .f32) (harg3 : arg3.IsWhole) (arg4 : Memref sig .tc .vmem S20000x256 .f32) (harg4 : arg4.IsWhole)
    (hc0 : ¬cond2_0 i) (x0 : Vec Ideal S1x1280 .i32) (x1 : Vec Ideal S1280x256 .f32) (xo : Vec Ideal S20000x256 .f32)
    (n : Fin 20000) (j : Fin 256) :
    out2_B_2 (F := Ideal) c i arg2 harg2 arg3 harg3 arg4 harg4 hc0 x0 x1 xo (ix2 n j) = xo (ix2 n j) + addend x0 x1 n j := by
  unfold out2_B_2
  refine (congrFun (View.read_writes_of_cover VO2_2 VO2_2.junk arg4.view (harg4.unread xo) _
    (cover2_B_2 c i arg2 harg2 arg3 harg3 arg4 harg4 hc0 x0 x1 xo)) (ix2 n j)).trans ?_
  rw [runB_pieces, loop_end, harg4.read_unread]

/-- A half's first edge block leaves its addend over the zeroed block. -/
theorem out_A (c : Dev nD) (i : grid2.Coords) (arg2 : Memref sig .tc .vmem S1x1280 .i32) (harg2 : arg2.IsWhole)
    (arg3 : Memref sig .tc .vmem S1280x256 .f32) (harg3 : arg3.IsWhole) (arg4 : Memref sig .tc .vmem S20000x256 .f32) (harg4 : arg4.IsWhole)
    (hc0 : cond2_0 i) (x0 : Vec Ideal S1x1280 .i32) (x1 : Vec Ideal S1280x256 .f32) (n : Fin 20000) (j : Fin 256) :
    out2_A_2 (F := Ideal) c i arg2 harg2 arg3 harg3 arg4 harg4 hc0 x0 x1 (ix2 n j) = addend x0 x1 n j := by
  unfold out2_A_2
  refine (congrFun (View.read_writes_of_cover VO2_2 VO2_2.junk arg4.view arg4.view.junk _
    (cover2_A_2 c i arg2 harg2 arg3 harg3 arg4 harg4 hc0 x0 x1)) (ix2 n j)).trans ?_
  rw [runA_pieces, View.writes_append, loop_end]
  have hzero : arg4.view.read (Elt Ideal) (arg4.view.writes (Elt Ideal) arg4.view.junk [zeroPiece (F := Ideal)]) (ix2 n j) = 0 := by
    rw [View.read_writes_eq_canon arg4.view arg4.view.junk [zeroPiece (F := Ideal)]
      (fun y => ⟨_, List.mem_singleton_self _, View.mem_set_unit_zero hz2 inb_S20000x256_S20000x256_0_0 y⟩),
      View.canon_unit_zero hz2]
    exact Ideal.ofBits_zero_f32
  rw [hzero, zero_add]

/-! ## The output block after each grid point -/

variable (V : (c : Dev nD) → (b : Ref sig .tc) → Buf (Elt Ideal) ((c : Thread nD τ).loc b))

/-- The block of target words and the block of messages the body reads at point t. -/
abbrev tgtBlk (c : Dev nD) (t : Fin cfg2.N) : Vec Ideal S1x1280 .i32 := iblk2 V c 0 t
abbrev msgBlk (c : Dev nD) (t : Fin cfg2.N) : Vec Ideal S1280x256 .f32 := iblk2 V c 1 t

/-- The addend of point p's edge block (zero past the grid). -/
def ptAddend (c : Dev nD) (p : ℕ) (n : Fin 20000) (j : Fin 256) : EReal :=
  if h : p < cfg2.N then addend (tgtBlk V c ⟨p, h⟩) (msgBlk V c ⟨p, h⟩) n j else 0

/-- At a half's first point the block holds that point's addend. -/
theorem outs_first (c : Dev nD) (t : Fin cfg2.N) (h0 : t.val % 125 = 0) (n : Fin 20000) (j : Fin 256) :
    outsAt2 V c t.val t.isLt (ix2 n j)
      = ∑ s ∈ Finset.range (t.val % 125 + 1), ptAddend V c (125 * (t.val / 125) + s) n j := by
  rw [outsAt2_A V c t h0]
  refine (out_A c (grid2.coords t) (ms2_0 t) (hs2_0 t) (ms2_1 t) (hs2_1 t) (ms2_2 t) (hs2_2 t) ((hcond2_0 t).mpr h0)
    (tgtBlk V c t) (msgBlk V c t) n j).trans ?_
  rw [h0, Finset.sum_range_succ, Finset.sum_range_zero, zero_add, show 125 * (t.val / 125) + 0 = t.val from by omega]
  unfold ptAddend
  rw [dif_pos t.isLt]

/-- At a later point it holds what the point before left plus this point's addend. -/
theorem outs_next (c : Dev nD) (t : ℕ) (ht : t + 1 < cfg2.N) (h0 : ¬(t + 1) % 125 = 0) (n : Fin 20000) (j : Fin 256)
    (ih : outsAt2 V c t (Nat.lt_of_succ_lt ht) (ix2 n j)
      = ∑ s ∈ Finset.range (t % 125 + 1), ptAddend V c (125 * (t / 125) + s) n j) :
    outsAt2 V c (t + 1) ht (ix2 n j)
      = ∑ s ∈ Finset.range ((t + 1) % 125 + 1), ptAddend V c (125 * ((t + 1) / 125) + s) n j := by
  rw [outsAt2_B V c ⟨t + 1, ht⟩ h0]
  refine (out_B c (grid2.coords ⟨t + 1, ht⟩) (ms2_0 ⟨t + 1, ht⟩) (hs2_0 ⟨t + 1, ht⟩) (ms2_1 ⟨t + 1, ht⟩) (hs2_1 ⟨t + 1, ht⟩)
    (ms2_2 ⟨t + 1, ht⟩) (hs2_2 ⟨t + 1, ht⟩) (fun h => h0 ((hcond2_0 ⟨t + 1, ht⟩).mp h))
    (tgtBlk V c ⟨t + 1, ht⟩) (msgBlk V c ⟨t + 1, ht⟩) (outsAt2 V c t (Nat.lt_of_succ_lt ht)) n j).trans ?_
  rw [ih, show (t + 1) / 125 = t / 125 from by omega, show (t + 1) % 125 = t % 125 + 1 from by omega,
    Finset.sum_range_succ _ (t % 125 + 1),
    show 125 * (t / 125) + (t % 125 + 1) = t + 1 from by omega]
  unfold ptAddend
  rw [dif_pos ht]

/-- After point t the output block holds the addends of its half's edge blocks up to t's. -/
theorem outs_inv (c : Dev nD) : ∀ (t : ℕ) (ht : t < cfg2.N) (n : Fin 20000) (j : Fin 256),
    outsAt2 V c t ht (ix2 n j) = ∑ s ∈ Finset.range (t % 125 + 1), ptAddend V c (125 * (t / 125) + s) n j
  | 0, ht, n, j => outs_first V c ⟨0, ht⟩ (Nat.zero_mod _) n j
  | t + 1, ht, n, j => by
    by_cases h0 : (t + 1) % 125 = 0
    · exact outs_first V c ⟨t + 1, ht⟩ h0 n j
    · exact outs_next V c t ht h0 n j (outs_inv c t (Nat.lt_of_succ_lt ht) n j)

/-! ## From the blocks to the arrays -/

/-- The arrays the launch reads, as it finds them. -/
abbrev tgtArr (c : Dev nD) : S1x160000.Idx → BitVec 32 := V c (Pipeline.arrRef spec2 0)
abbrev msgArr (c : Dev nD) : S160000x512.Idx → EReal := V c (Pipeline.arrRef spec2 1)

/-- The block indices of the three windows at point t = 125 fh + eb are (0, eb), (eb, fh) and (0, fh). -/
theorem idx_facts : ∀ t : Fin cfg2.N,
    win2_0.index t (0 : Fin 2) = 0 ∧ win2_0.index t (1 : Fin 2) = t.val % 125
      ∧ win2_1.index t (0 : Fin 2) = t.val % 125 ∧ win2_1.index t (1 : Fin 2) = t.val / 125
      ∧ win2_2.index t (0 : Fin 2) = 0 ∧ win2_2.index t (1 : Fin 2) = t.val / 125 :=
  (by decide +kernel : ∀ t : Fin grid2.N,
    win2_0.index t (0 : Fin 2) = 0 ∧ win2_0.index t (1 : Fin 2) = t.val % 125
      ∧ win2_1.index t (0 : Fin 2) = t.val % 125 ∧ win2_1.index t (1 : Fin 2) = t.val / 125
      ∧ win2_2.index t (0 : Fin 2) = 0 ∧ win2_2.index t (1 : Fin 2) = t.val / 125)

/-- Word col of the target block at point t is word 1280 (t mod 125) + col of the target array. -/
theorem tgtBlk_apply (c : Dev nD) (t : Fin cfg2.N) (col : Fin 1280) (e : Fin 160000)
    (he : e.val = 1280 * (t.val % 125) + col.val) :
    tgtBlk V c t (ix2 (0 : Fin 1) col) = tgtArr V c (ix2 (0 : Fin 1) e) := by
  unfold tgtBlk iblk2
  rw [View.read_apply]
  show V c (Pipeline.arrRef spec2 0) (((cfg2.win 0).blk t).view.emb (ix2 (0 : Fin 1) col))
    = V c (Pipeline.arrRef spec2 0) (ix2 (0 : Fin 1) e)
  refine congrArg _ (funext fun a => Fin.ext ?_)
  match a with
  | ⟨0, _⟩ => show win2_0.index t (0 : Fin 2) * 1 + 1 * 0 = 0; rw [(idx_facts t).1]
  | ⟨1, _⟩ => show win2_0.index t (1 : Fin 2) * 1280 + 1 * col.val = e.val; rw [(idx_facts t).2.1, he]; omega

/-- Entry (col, j) of the message block at point t is entry (1280 (t mod 125) + col, 256 (t div 125) + j) of the
    message array. -/
theorem msgBlk_apply (c : Dev nD) (t : Fin cfg2.N) (col : Fin 1280) (j : Fin 256) (e : Fin 160000) (jj : Fin 512)
    (he : e.val = 1280 * (t.val % 125) + col.val) (hj : jj.val = 256 * (t.val / 125) + j.val) :
    msgBlk V c t (ix2 col j) = msgArr V c (ix2 e jj) := by
  unfold msgBlk iblk2
  rw [View.read_apply]
  show V c (Pipeline.arrRef spec2 1) (((cfg2.win 1).blk t).view.emb (ix2 col j)) = V c (Pipeline.arrRef spec2 1) (ix2 e jj)
  refine congrArg _ (funext fun a => Fin.ext ?_)
  match a with
  | ⟨0, _⟩ => show win2_1.index t (0 : Fin 2) * 1280 + 1 * col.val = e.val; rw [(idx_facts t).2.2.1, he]; omega
  | ⟨1, _⟩ => show win2_1.index t (1 : Fin 2) * 256 + 1 * j.val = jj.val; rw [(idx_facts t).2.2.2.1, hj]; omega

/-- After a half's last point the output block holds, for every node and every column of the half, the sum over ALL
    edges: the 125 edge blocks of 1280 edges are the 160000 edges, block by block. -/
theorem block_sum (c : Dev nD) (t : Fin cfg2.N) (h124 : t.val % 125 = 124) (n : Fin 20000) (j : Fin 256) (jj : Fin 512)
    (hj : jj.val = 256 * (t.val / 125) + j.val) :
    outsAt2 V c t.val t.isLt (ix2 n j)
      = scatAt (fun e => tgtArr V c (ix2 (0 : Fin 1) e)) (fn2 (msgArr V c)) n jj := by
  have hN : t.val < 250 := lt_of_lt_of_eq t.isLt (show cfg2.N = 250 from N_2)
  rw [outs_inv V c t.val t.isLt n j, show t.val % 125 + 1 = 125 from by omega, Finset.sum_range]
  unfold scatAt
  refine Eq.trans ?_ (BlockSum.sum_blocks (M := EReal) 125 1280
    (fun e : Fin NE => ind (BitVec.ofNat 32 n.val) (tgtArr V c (ix2 (0 : Fin 1) e)) * fn2 (msgArr V c) e jj)).symm
  refine Finset.sum_congr rfl fun b _ => ?_
  have hb := b.isLt
  have hp : 125 * (t.val / 125) + b.val < cfg2.N := lt_of_lt_of_eq (by omega) (show 250 = cfg2.N from N_2.symm)
  unfold ptAddend
  rw [dif_pos hp]
  unfold addend
  refine Finset.sum_congr rfl fun col _ => ?_
  rw [tgtBlk_apply V c ⟨125 * (t.val / 125) + b.val, hp⟩ col (BlockSum.at' b col)
      (by show 1280 * b.val + col.val = 1280 * ((125 * (t.val / 125) + b.val) % 125) + col.val; omega),
    msgBlk_apply V c ⟨125 * (t.val / 125) + b.val, hp⟩ col j (BlockSum.at' b col) jj
      (by show 1280 * b.val + col.val = 1280 * ((125 * (t.val / 125) + b.val) % 125) + col.val; omega)
      (by show jj.val = 256 * ((125 * (t.val / 125) + b.val) / 125) + j.val; omega)]
  rfl

/-! ## The output array after the last point -/

/-- Entry (n, j) of the output window's block at point t is entry (n, 256 (t div 125) + j) of the output array. -/
theorem read_blk (t : Fin cfg2.N) (G : S20000x512.Idx → EReal) (n : Fin 20000) (j : Fin 256) (jj : Fin 512)
    (hj : jj.val = 256 * (t.val / 125) + j.val) :
    ((cfg2.win 2).blk t).view.read (Elt Ideal) G (ix2 n j) = G (ix2 n jj) := by
  rw [View.read_apply]
  show G (((cfg2.win 2).blk t).view.emb (ix2 n j)) = G (ix2 n jj)
  refine congrArg G (funext fun a => Fin.ext ?_)
  match a with
  | ⟨0, _⟩ => show win2_2.index t (0 : Fin 2) * 20000 + 1 * n.val = n.val; rw [(idx_facts t).2.2.2.2.1]; omega
  | ⟨1, _⟩ => show win2_2.index t (1 : Fin 2) * 256 + 1 * j.val = jj.val; rw [(idx_facts t).2.2.2.2.2, hj]; omega

/-- What a half's last point writes back is that half's block of the summed messages. -/
theorem flushed_eq (c : Dev nD) (t : Fin cfg2.N) (hf : (cfg2.win 2).flush t = true) :
    (dat2 V c).flushed 2 t = ((cfg2.win 2).blk t).view.read (Elt Ideal)
      (arr2 (scatAt (fun e => tgtArr V c (ix2 (0 : Fin 1) e)) (fn2 (msgArr V c)))) := by
  have h124 : t.val % 125 = 124 := (flush2_2 t).mp hf
  have hN : t.val < 250 := lt_of_lt_of_eq t.isLt (show cfg2.N = 250 from N_2)
  show (cfg2.win 2).cut (grid2.coords t) ((dat2 V c).after 2 t) = _
  rw [after2_2]
  funext y
  obtain ⟨n, j, rfl⟩ : ∃ (n : Fin 20000) (j : Fin 256), y = ix2 n j := ⟨y 0, y 1, eq_ix2 y⟩
  have hL : (cfg2.win 2).cut (grid2.coords t) (outsAt2 V c t.val t.isLt) (ix2 n j) = outsAt2 V c t.val t.isLt (ix2 n j) := rfl
  refine hL.trans (Eq.trans ?_ (read_blk t _ n j (⟨256 * (t.val / 125) + j.val, by have := j.isLt; omega⟩ : Fin 512) rfl).symm)
  rw [arr2_ix2]
  exact block_sum V c t h124 n j _ rfl
/-- An entry of the output array is in point t's block exactly when each coordinate is in the block's range. -/
theorem mem_blk (t : Fin cfg2.N) (i : S20000x512.Idx) :
    i ∈ ((cfg2.win 2).blk t).view.set
      ↔ ∀ a : Fin 2, win2_2.index t a * S20000x256.size a ≤ (i a).val ∧ (i a).val < win2_2.index t a * S20000x256.size a + S20000x256.size a := by
  show i ∈ ((View.whole main_v14).slice (win2_2.rect t)).set ↔ _
  rw [View.set_slice_whole, Rect.mem_set_unit]
  exact Iff.rfl

/-- The output array after the last grid point holds every node's summed messages. -/
theorem value (c : Dev nD) :
    ((dat2 (F := Ideal) V c).arrAt 2 cfg2.N : S20000x512.Idx → EReal)
      = arr2 (scatAt (fun e => tgtArr V c (ix2 0 e)) (fn2 (msgArr V c))) :=
  (dat2 V c).arrAt_eq_of_cover 2 _ (flushed_eq V c) fun i => by
    have h1 : (i 1).val < 512 := idx2_lt1 i
    have hlt : 125 * ((i 1).val / 256) + 124 < cfg2.N := lt_of_lt_of_eq (by omega) (show 250 = cfg2.N from N_2.symm)
    refine ⟨⟨125 * ((i 1).val / 256) + 124, hlt⟩, (flush2_2 _).mpr (by show (125 * ((i 1).val / 256) + 124) % 125 = 124; omega), ?_⟩
    rw [mem_blk]
    obtain ⟨-, -, -, -, e0, e1⟩ := idx_facts ⟨125 * ((i 1).val / 256) + 124, hlt⟩
    have h0 : (i 0).val < 20000 := idx2_lt0 i
    intro a
    match a with
    | ⟨0, _⟩ =>
      show win2_2.index ⟨125 * ((i 1).val / 256) + 124, hlt⟩ (0 : Fin 2) * 20000 ≤ (i 0).val
        ∧ (i 0).val < win2_2.index ⟨125 * ((i 1).val / 256) + 124, hlt⟩ (0 : Fin 2) * 20000 + 20000
      rw [e0]; omega
    | ⟨1, _⟩ =>
      show win2_2.index ⟨125 * ((i 1).val / 256) + 124, hlt⟩ (1 : Fin 2) * 256 ≤ (i 1).val
        ∧ (i 1).val < win2_2.index ⟨125 * ((i 1).val / 256) + 124, hlt⟩ (1 : Fin 2) * 256 + 256
      rw [e1]
      show (125 * ((i 1).val / 256) + 124) / 125 * 256 ≤ (i 1).val ∧ (i 1).val < (125 * ((i 1).val / 256) + 124) / 125 * 256 + 256
      omega

end Cert.KernelIdeal.Region2

end
-- ==== Proof.LibScatterGather.lean ====
/-
  A gather of whole rows of a table and a scatter-add of whole rows into a table, read at an index, at the exact
  instance (floats read as extended reals).

  The start indices are a column of E words. The gather's result row e is the table's row number (the word read as a
  signed integer, clamped into the table); the scatter-add's result row n is the operand's row n plus the sum of the update
  rows whose word, read as a signed integer and NOT clamped, is n (an update whose word is no row number is dropped).
  Stated for any dimension numbers of that shape, so that they serve every program that prints one.
-/
import Idealize.ShloMosaic.PureOps.Ideal
import Idealize.ShloMosaic.PureOps.Ideal.Laws
import Idealize.ShloMosaic.PureOps.Contract
import Idealize.ShloMosaic.Lib.ValueIdx
import Idealize.ShloMosaic.Lib.StableHlo.Predicate

noncomputable section

open scoped BigOperators

namespace ScatterGatherRows

open Idealize.ShloMosaic Idealize.ShloMosaic.ValueIdx

/-- An update lands at operand index i exactly when, on every axis, its unclamped start plus its window coordinate is
    i's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hr =>
      have := congrArg (fun f => (f a).val) (Option.some.inj h)
      simp only at this
      have h0 := (hr a).1
      omega
    · exact absurd h (by simp)
  · intro h
    have hr : ∀ a, 0 ≤ d.start j idx a + d.window j a ∧ d.start j idx a + d.window j a < s.size a := by
      intro a
      have := h a
      have hlt := (i a).isLt
      omega
    rw [dif_pos hr]
    congr 1
    funext a
    apply Fin.ext
    have := h a
    show (d.start j idx a + d.window j a).toNat = (i a).val
    omega

/-- The scatter-add at the exact instance, read at an index: the operand's entry plus the updates that land there. -/
theorem scatterAdd_apply {s si u : Shape} (d : ScatterDims s si u) {w : Nat} (x : s.Idx → EReal) (idx : IVec si w)
    (upd : u.Idx → EReal) (i : s.Idx) :
    Host.scatterAdd (F := Ideal) (φ := .f32) d x idx upd i
      = x i + ∑ q ∈ Finset.univ.filter (fun q => d.resultIdx? q idx = some i), upd q := rfl

/-- The dimension numbers of a scatter of single numbers: the one index word names the operand's entry, no window. -/
abbrev vecDims {N E : ℕ} (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

/-- Update e lands at n exactly when e's word, read signed, is n. -/
theorem vec_lands {N E : ℕ} (wf : ScatterDims.WF ⟨1, ![N]⟩ ⟨2, ![E, 1]⟩ ⟨1, ![E]⟩ [] [0] [0] 1)
    (idx : IVec ⟨2, ![E, 1]⟩ 32) (q : (⟨1, ![E]⟩ : Shape).Idx) (n : Fin N) :
    (vecDims wf).resultIdx? q idx = some (ix1 n) ↔ (idx (ix2 (q 0) (0 : Fin 1))).toInt = (n.val : Int) := by
  rw [resultIdx?_eq_some_iff]
  have hs0 : (vecDims wf).start q idx 0 = (idx (ix2 (q 0) (0 : Fin 1))).toInt := by
    unfold ScatterDims.start
    rw [dif_pos (List.mem_singleton.mpr rfl)]
    congr 2
    funext b
    apply Fin.ext
    match b with
    | ⟨0, _⟩ => rfl
    | ⟨1, _⟩ => rfl
  have hw0 : (vecDims wf).window q 0 = 0 := by
    unfold ScatterDims.window
    rw [dif_neg (by show (0 : Fin 1) ∉ (List.finRange 1).filter (· ∉ ([0] : List (Fin 1))); decide)]
  constructor
  · intro h
    have h0 : (vecDims wf).start q idx 0 + ((vecDims wf).window q 0 : Int) = (n.val : Int) := h 0
    rw [hs0, hw0] at h0
    omega
  · intro h0 a
    match a with
    | ⟨0, _⟩ =>
      show (vecDims wf).start q idx 0 + ((vecDims wf).window q 0 : Int) = (n.val : Int)
      rw [hs0, hw0, h0]; omega

/-- Scatter-add of E numbers into a vector of N: entry n receives the updates whose word is n. -/
theorem scatterAdd_vec_apply {N E : ℕ} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ 32) (upd : (⟨1, ![E]⟩ : Shape).Idx → EReal) (n : Fin N) :
    Host.scatterAdd (F := Ideal) (φ := .f32) d x idx upd (ix1 n)
      = x (ix1 n) + ∑ e : Fin E, if (idx (ix2 e (0 : Fin 1))).toInt = (n.val : Int) then upd (ix1 e) else 0 := by
  obtain ⟨uw, iw, sd, iv, wf⟩ := d
  simp only at huw hiw hsd hiv
  subst huw hiw hsd hiv
  rw [scatterAdd_apply]
  congr 1
  have hP := fun q => vec_lands wf idx q n
  rw [← Finset.sum_filter]
  refine Finset.sum_bij' (fun q _ => q 0) (fun e _ => ix1 e) ?_ ?_ ?_ ?_ ?_
  · intro q hq
    exact Finset.mem_filter.2 ⟨Finset.mem_univ _, (hP q).1 (Finset.mem_filter.1 hq).2⟩
  · intro e he
    exact Finset.mem_filter.2 ⟨Finset.mem_univ _, (hP _).2 (Finset.mem_filter.1 he).2⟩
  · intro q hq
    exact (eq_ix1 q).symm
  · intro e he
    rfl
  · intro q hq
    exact congrArg upd (eq_ix1 q)

/-- The dimension numbers of a scatter of rows: the one index word names the operand's row, the update's second axis is
    the window along the operand's second axis. -/
abbrev rowsDims {N C E : ℕ} (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

/-- Update (e, c) lands at (n, j) exactly when e's word, read signed, is n and c = j. -/
theorem rows_lands {N C E : ℕ} (wf : ScatterDims.WF ⟨2, ![N, C]⟩ ⟨2, ![E, 1]⟩ ⟨2, ![E, C]⟩ [1] [0] [0] 1)
    (idx : IVec ⟨2, ![E, 1]⟩ 32) (q : (⟨2, ![E, C]⟩ : Shape).Idx) (n : Fin N) (j : Fin C) :
    (rowsDims wf).resultIdx? q idx = some (ix2 n j)
      ↔ ((idx (ix2 (q 0) (0 : Fin 1))).toInt = (n.val : Int) ∧ q 1 = j) := by
  rw [resultIdx?_eq_some_iff]
  have hs0 : (rowsDims wf).start q idx 0 = (idx (ix2 (q 0) (0 : Fin 1))).toInt := by
    unfold ScatterDims.start
    rw [dif_pos (List.mem_singleton.mpr rfl)]
    congr 2
    funext b
    apply Fin.ext
    match b with
    | ⟨0, _⟩ => rfl
    | ⟨1, _⟩ => rfl
  have hs1 : (rowsDims wf).start q idx 1 = 0 := by
    unfold ScatterDims.start
    rw [dif_neg (by show (1 : Fin 2) ∉ ([0] : List (Fin 2)); decide)]
  have hw0 : (rowsDims wf).window q 0 = 0 := by
    unfold ScatterDims.window
    rw [dif_neg (by show (0 : Fin 2) ∉ (List.finRange 2).filter (· ∉ [0]); decide)]
  have hw1 : (rowsDims wf).window q 1 = (q 1).val := by
    unfold ScatterDims.window
    rw [dif_pos (by show (1 : Fin 2) ∈ (List.finRange 2).filter (· ∉ [0]); decide)]
    rfl
  constructor
  · intro h
    have h0 : (rowsDims wf).start q idx 0 + ((rowsDims wf).window q 0 : Int) = (n.val : Int) := h 0
    have h1 : (rowsDims wf).start q idx 1 + ((rowsDims wf).window q 1 : Int) = (j.val : Int) := h 1
    rw [hs0, hw0] at h0
    rw [hs1, hw1] at h1
    exact ⟨by omega, Fin.ext (by omega)⟩
  · rintro ⟨h0, h1⟩ a
    match a with
    | ⟨0, _⟩ =>
      show (rowsDims wf).start q idx 0 + ((rowsDims wf).window q 0 : Int) = (n.val : Int)
      rw [hs0, hw0, h0]; omega
    | ⟨1, _⟩ =>
      show (rowsDims wf).start q idx 1 + ((rowsDims wf).window q 1 : Int) = (j.val : Int)
      rw [hs1, hw1, h1]; omega

/-- Scatter-add of E rows of C numbers into a table of N rows: entry (n, j) receives entry j of the update rows whose
    word is n. -/
theorem scatterAdd_rows_apply {N C E : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![E, 1]⟩ 32) (upd : (⟨2, ![E, C]⟩ : Shape).Idx → EReal)
    (n : Fin N) (j : Fin C) :
    Host.scatterAdd (F := Ideal) (φ := .f32) d x idx upd (ix2 n j)
      = x (ix2 n j) + ∑ e : Fin E, if (idx (ix2 e (0 : Fin 1))).toInt = (n.val : Int) then upd (ix2 e j) else 0 := by
  obtain ⟨uw, iw, sd, iv, wf⟩ := d
  simp only at huw hiw hsd hiv
  subst huw hiw hsd hiv
  rw [scatterAdd_apply]
  congr 1
  have hP := fun q => rows_lands wf idx q n j
  rw [← Finset.sum_filter]
  refine Finset.sum_bij' (fun q _ => q 0) (fun e _ => ix2 e j) ?_ ?_ ?_ ?_ ?_
  · intro q hq
    exact Finset.mem_filter.2 ⟨Finset.mem_univ _, ((hP q).1 (Finset.mem_filter.1 hq).2).1⟩
  · intro e he
    exact Finset.mem_filter.2 ⟨Finset.mem_univ _, (hP _).2 ⟨(Finset.mem_filter.1 he).2, rfl⟩⟩
  · intro q hq
    have h1 := ((hP q).1 (Finset.mem_filter.1 hq).2).2
    rw [← h1]
    exact (eq_ix2 q).symm
  · intro e he
    rfl
  · intro q hq
    have h1 := ((hP q).1 (Finset.mem_filter.1 hq).2).2
    rw [← h1]
    exact congrArg upd (eq_ix2 q)

/-- The dimension numbers of a scatter of slabs: the one index word names the operand's first coordinate, the update's
    second and third axes are the window along the operand's second and third. -/
abbrev slabsDims {N A C E : ℕ} (wf : ScatterDims.WF ⟨3, ![N, A, C]⟩ ⟨2, ![E, 1]⟩ ⟨3, ![E, A, C]⟩ [1, 2] [0] [0] 1) :
    ScatterDims ⟨3, ![N, A, C]⟩ ⟨2, ![E, 1]⟩ ⟨3, ![E, A, C]⟩ := ⟨[1, 2], [0], [0], 1, wf⟩

/-- Update (e, b, c) lands at (n, a, j) exactly when e's word, read signed, is n and (b, c) = (a, j). -/
theorem slabs_lands {N A C E : ℕ} (wf : ScatterDims.WF ⟨3, ![N, A, C]⟩ ⟨2, ![E, 1]⟩ ⟨3, ![E, A, C]⟩ [1, 2] [0] [0] 1)
    (idx : IVec ⟨2, ![E, 1]⟩ 32) (q : (⟨3, ![E, A, C]⟩ : Shape).Idx) (n : Fin N) (a : Fin A) (j : Fin C) :
    (slabsDims wf).resultIdx? q idx = some (ix3 n a j)
      ↔ ((idx (ix2 (q 0) (0 : Fin 1))).toInt = (n.val : Int) ∧ q 1 = a ∧ q 2 = j) := by
  rw [resultIdx?_eq_some_iff]
  have hs0 : (slabsDims wf).start q idx 0 = (idx (ix2 (q 0) (0 : Fin 1))).toInt := by
    unfold ScatterDims.start
    rw [dif_pos (List.mem_singleton.mpr rfl)]
    congr 2
    funext b
    apply Fin.ext
    match b with
    | ⟨0, _⟩ => rfl
    | ⟨1, _⟩ => rfl
  have hs1 : (slabsDims wf).start q idx 1 = 0 := by
    unfold ScatterDims.start
    rw [dif_neg (by show (1 : Fin 3) ∉ ([0] : List (Fin 3)); decide)]
  have hs2 : (slabsDims wf).start q idx 2 = 0 := by
    unfold ScatterDims.start
    rw [dif_neg (by show (2 : Fin 3) ∉ ([0] : List (Fin 3)); decide)]
  have hw0 : (slabsDims wf).window q 0 = 0 := by
    unfold ScatterDims.window
    rw [dif_neg (by show (0 : Fin 3) ∉ (List.finRange 3).filter (· ∉ ([0] : List (Fin 3))); decide)]
  have hw1 : (slabsDims wf).window q 1 = (q 1).val := by
    unfold ScatterDims.window
    rw [dif_pos (by show (1 : Fin 3) ∈ (List.finRange 3).filter (· ∉ ([0] : List (Fin 3))); decide)]
    rfl
  have hw2 : (slabsDims wf).window q 2 = (q 2).val := by
    unfold ScatterDims.window
    rw [dif_pos (by show (2 : Fin 3) ∈ (List.finRange 3).filter (· ∉ ([0] : List (Fin 3))); decide)]
    rfl
  constructor
  · intro h
    have h0 : (slabsDims wf).start q idx 0 + ((slabsDims wf).window q 0 : Int) = (n.val : Int) := h 0
    have h1 : (slabsDims wf).start q idx 1 + ((slabsDims wf).window q 1 : Int) = (a.val : Int) := h 1
    have h2 : (slabsDims wf).start q idx 2 + ((slabsDims wf).window q 2 : Int) = (j.val : Int) := h 2
    rw [hs0, hw0] at h0
    rw [hs1, hw1] at h1
    rw [hs2, hw2] at h2
    exact ⟨by omega, Fin.ext (by omega), Fin.ext (by omega)⟩
  · rintro ⟨h0, h1, h2⟩ b
    match b with
    | ⟨0, _⟩ =>
      show (slabsDims wf).start q idx 0 + ((slabsDims wf).window q 0 : Int) = (n.val : Int)
      rw [hs0, hw0, h0]; omega
    | ⟨1, _⟩ =>
      show (slabsDims wf).start q idx 1 + ((slabsDims wf).window q 1 : Int) = (a.val : Int)
      rw [hs1, hw1, h1]; omega
    | ⟨2, _⟩ =>
      show (slabsDims wf).start q idx 2 + ((slabsDims wf).window q 2 : Int) = (j.val : Int)
      rw [hs2, hw2, h2]; omega

/-- The same for rows that are A × C slabs. -/
theorem scatterAdd_slabs_apply {N A C E : ℕ} (d : ScatterDims ⟨3, ![N, A, C]⟩ ⟨2, ![E, 1]⟩ ⟨3, ![E, A, C]⟩)
    (huw : d.updateWindowDims = [1, 2]) (hiw : d.insertedWindowDims = [0]) (hsd : d.scatterDimsToOperandDims = [0])
    (hiv : d.indexVectorDim = 1)
    (x : (⟨3, ![N, A, C]⟩ : Shape).Idx → EReal) (idx : IVec ⟨2, ![E, 1]⟩ 32) (upd : (⟨3, ![E, A, C]⟩ : Shape).Idx → EReal)
    (n : Fin N) (a : Fin A) (j : Fin C) :
    Host.scatterAdd (F := Ideal) (φ := .f32) d x idx upd (ix3 n a j)
      = x (ix3 n a j) + ∑ e : Fin E, if (idx (ix2 e (0 : Fin 1))).toInt = (n.val : Int) then upd (ix3 e a j) else 0 := by
  obtain ⟨uw, iw, sd, iv, wf⟩ := d
  simp only at huw hiw hsd hiv
  subst huw hiw hsd hiv
  rw [scatterAdd_apply]
  congr 1
  have hP := fun q => slabs_lands wf idx q n a j
  rw [← Finset.sum_filter]
  refine Finset.sum_bij' (fun q _ => q 0) (fun e _ => ix3 e a j) ?_ ?_ ?_ ?_ ?_
  · intro q hq
    exact Finset.mem_filter.2 ⟨Finset.mem_univ _, ((hP q).1 (Finset.mem_filter.1 hq).2).1⟩
  · intro e he
    exact Finset.mem_filter.2 ⟨Finset.mem_univ _, (hP _).2 ⟨(Finset.mem_filter.1 he).2, rfl, rfl⟩⟩
  · intro q hq
    obtain ⟨_, h1, h2⟩ := (hP q).1 (Finset.mem_filter.1 hq).2
    rw [← h1, ← h2]
    exact (eq_ix3 q).symm
  · intro e he
    rfl
  · intro q hq
    obtain ⟨_, h1, h2⟩ := (hP q).1 (Finset.mem_filter.1 hq).2
    rw [← h1, ← h2]
    exact congrArg upd (eq_ix3 q)

/-- Gather of E rows of a table of N rows of C entries: result row e is the table's row at e's word, clamped. -/
theorem gather_rows_apply {α : Type} {N C E : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![E, 1]⟩ 32) (e : Fin E) (j : Fin C) :
    Host.gather d x idx (ix2 e j)
      = x (ix2 (⟨min (idx (ix2 e (0 : Fin 1))).toInt.toNat (N - 1), by omega⟩ : Fin N) j) := by
  have hsl : d.sliceSizes 0 = 1 := d.slice_collapsed 0 (by rw [hcoll]; exact List.mem_singleton.mpr rfl)
  obtain ⟨od, cd, ob, sb, sm, iv, ss, wf⟩ := d
  simp only at hoff hcoll hob hsim hivd hsl
  subst hoff hcoll hob hsim hivd
  unfold Host.gather
  congr 1
  funext a
  apply Fin.ext
  match a with
  | ⟨0, _⟩ =>
    show GatherDims.start _ (ix2 e j) idx 0 + GatherDims.batchCoord _ (ix2 e j) 0 + GatherDims.offCoord _ (ix2 e j) 0
      = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 4
    funext b
    apply Fin.ext
    match b with
    | ⟨0, _⟩ => rfl
    | ⟨1, _⟩ => rfl
  | ⟨1, _⟩ =>
    show GatherDims.start _ (ix2 e j) idx 1 + GatherDims.batchCoord _ (ix2 e j) 1 + GatherDims.offCoord _ (ix2 e j) 1 = j.val
    rw [GatherDims.batchCoord_eq_zero _ _ _ List.not_mem_nil]
    unfold GatherDims.start
    rw [dif_neg (by show (1 : Fin 2) ∉ ([0] : List (Fin 2)); decide)]
    unfold GatherDims.offCoord
    rw [dif_pos ((GatherDims.mem_sKept _ _).2 ⟨by show (1 : Fin 2) ∉ ([0] : List (Fin 2)); decide, List.not_mem_nil⟩)]
    simp only [Nat.zero_add, Nat.add_zero]
    rfl

/-- The same for rows that are A × C slabs. -/
theorem gather_slabs_apply {α : Type} {N A C E : ℕ} (d : GatherDims ⟨3, ![N, A, C]⟩ ⟨2, ![E, 1]⟩ ⟨3, ![E, A, C]⟩)
    (hoff : d.offsetDims = [1, 2]) (hcoll : d.collapsedSliceDims = [0]) (hob : d.operandBatchingDims = [])
    (hsim : d.startIndexMap = [0]) (hivd : d.indexVectorDim = 1) (hN : 0 < N)
    (x : (⟨3, ![N, A, C]⟩ : Shape).Idx → α) (idx : IVec ⟨2, ![E, 1]⟩ 32) (e : Fin E) (a : Fin A) (j : Fin C) :
    Host.gather d x idx (ix3 e a j)
      = x (ix3 (⟨min (idx (ix2 e (0 : Fin 1))).toInt.toNat (N - 1), by omega⟩ : Fin N) a j) := by
  have hsl : d.sliceSizes 0 = 1 := d.slice_collapsed 0 (by rw [hcoll]; exact List.mem_singleton.mpr rfl)
  obtain ⟨od, cd, ob, sb, sm, iv, ss, wf⟩ := d
  simp only at hoff hcoll hob hsim hivd hsl
  subst hoff hcoll hob hsim hivd
  unfold Host.gather
  congr 1
  funext b
  apply Fin.ext
  match b with
  | ⟨0, _⟩ =>
    show GatherDims.start _ (ix3 e a j) idx 0 + GatherDims.batchCoord _ (ix3 e a j) 0 + GatherDims.offCoord _ (ix3 e a j) 0
      = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 4
    funext c
    apply Fin.ext
    match c with
    | ⟨0, _⟩ => rfl
    | ⟨1, _⟩ => rfl
  | ⟨1, _⟩ =>
    show GatherDims.start _ (ix3 e a j) idx 1 + GatherDims.batchCoord _ (ix3 e a j) 1 + GatherDims.offCoord _ (ix3 e a j) 1 = a.val
    rw [GatherDims.batchCoord_eq_zero _ _ _ List.not_mem_nil]
    unfold GatherDims.start
    rw [dif_neg (by show (1 : Fin 3) ∉ ([0] : List (Fin 3)); decide)]
    unfold GatherDims.offCoord
    rw [dif_pos ((GatherDims.mem_sKept _ _).2 ⟨by show (1 : Fin 3) ∉ ([0] : List (Fin 3)); decide, List.not_mem_nil⟩)]
    simp only [Nat.zero_add, Nat.add_zero]
    rfl
  | ⟨2, _⟩ =>
    show GatherDims.start _ (ix3 e a j) idx 2 + GatherDims.batchCoord _ (ix3 e a j) 2 + GatherDims.offCoord _ (ix3 e a j) 2 = j.val
    rw [GatherDims.batchCoord_eq_zero _ _ _ List.not_mem_nil]
    unfold GatherDims.start
    rw [dif_neg (by show (2 : Fin 3) ∉ ([0] : List (Fin 3)); decide)]
    unfold GatherDims.offCoord
    rw [dif_pos ((GatherDims.mem_sKept _ _).2 ⟨by show (2 : Fin 3) ∉ ([0] : List (Fin 3)); decide, List.not_mem_nil⟩)]
    simp only [Nat.zero_add, Nat.add_zero]
    rfl

end ScatterGatherRows

end
-- ==== Proof.KernelTail.lean ====
/-
  The tiled program's two results as functions of its arguments: the host operations before, between and after the three
  launches (slices and reshapes of the edge list and of the biases, the per-node edge count, the division and the
  residual sum) composed with what each launch leaves in its output array.

  The buffer contents at the segment boundaries are a fold through the program. Each buffer a launch reads is walked
  back through that fold to the arguments: a host operation's result is its function of the operands, a launch's
  output array is what its value theorem says, and every other buffer is what it was. Reading the reshapes, slices and
  broadcasts at an index then turns the three launches' outputs into the table of node rows, the edge messages and the
  per-node sums of the arguments, and the tail into the quotient by the edge count added to the node's own features.
-/
import proofs.«407274_j17514876634209_3_alg».proof.Proof.Gen.KernelIdeal.Frame
import proofs.«407274_j17514876634209_3_alg».proof.Proof.Spec
import proofs.«407274_j17514876634209_3_alg».proof.Proof.Region0
import proofs.«407274_j17514876634209_3_alg».proof.Proof.Region1
import proofs.«407274_j17514876634209_3_alg».proof.Proof.Region2
import proofs.«407274_j17514876634209_3_alg».proof.Proof.LibScatterGather
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal.Laws

set_option maxRecDepth 16384

noncomputable section

open scoped BigOperators

namespace Cert.KernelIdeal.Tail

open Idealize.ShloMosaic Idealize.ShloMosaic.TcCoe Idealize.ShloMosaic.ValueIdx Idealize.SL.Sem
open Cert.KernelIdeal Cert.KernelIdeal.Gen PaiNN

variable (m : (ℓ : Loc nD τ sig) → Buf (Elt Ideal) ℓ) (ρ : Dev nD → PrngReg)

/-! ## The fourteen arguments, and the buffers the host writes before the first launch -/

abbrev a0 (c : Dev nD) : S20000x128.Idx → EReal := m ((c.tc : Thread nD τ).loc main_arg0)
abbrev a1 (c : Dev nD) : S20000x3x128.Idx → EReal := m ((c.tc : Thread nD τ).loc main_arg1)
abbrev a2 (c : Dev nD) : S2x160000.Idx → BitVec 32 := m ((c.tc : Thread nD τ).loc main_arg2)
abbrev a3 (c : Dev nD) : S160000x20.Idx → EReal := m ((c.tc : Thread nD τ).loc main_arg3)
abbrev a4 (c : Dev nD) : S160000x3.Idx → EReal := m ((c.tc : Thread nD τ).loc main_arg4)
abbrev a5 (c : Dev nD) : S160000.Idx → EReal := m ((c.tc : Thread nD τ).loc main_arg5)
abbrev a6 (c : Dev nD) : S128x384.Idx → EReal := m ((c.tc : Thread nD τ).loc main_arg6)
abbrev a7 (c : Dev nD) : S384.Idx → EReal := m ((c.tc : Thread nD τ).loc main_arg7)
abbrev a8 (c : Dev nD) : S384x384.Idx → EReal := m ((c.tc : Thread nD τ).loc main_arg8)
abbrev a9 (c : Dev nD) : S384.Idx → EReal := m ((c.tc : Thread nD τ).loc main_arg9)
abbrev a10 (c : Dev nD) : S20x128.Idx → EReal := m ((c.tc : Thread nD τ).loc main_arg10)
abbrev a11 (c : Dev nD) : S128.Idx → EReal := m ((c.tc : Thread nD τ).loc main_arg11)
abbrev a12 (c : Dev nD) : S128x384.Idx → EReal := m ((c.tc : Thread nD τ).loc main_arg12)
abbrev a13 (c : Dev nD) : S384.Idx → EReal := m ((c.tc : Thread nD τ).loc main_arg13)

/-! ### Before the first launch: no operation writes an argument -/

theorem W1_arg0 (c : Dev nD) : (W1 (F := Ideal) m ρ c (Proc.devRef .tc main_arg0) : S20000x128.Idx → EReal) = a0 m c := by
  show StableHlo.after hostOps0 _ (Proc.devRef .tc main_arg0) = _
  after_results <;> rfl
theorem W1_arg1 (c : Dev nD) : (W1 (F := Ideal) m ρ c (Proc.devRef .tc main_arg1) : S20000x3x128.Idx → EReal) = a1 m c := by
  show StableHlo.after hostOps0 _ (Proc.devRef .tc main_arg1) = _
  after_results <;> rfl
theorem W1_arg2 (c : Dev nD) : (W1 (F := Ideal) m ρ c (Proc.devRef .tc main_arg2) : S2x160000.Idx → BitVec 32) = a2 m c := by
  show StableHlo.after hostOps0 _ (Proc.devRef .tc main_arg2) = _
  after_results <;> rfl
theorem W1_arg3 (c : Dev nD) : (W1 (F := Ideal) m ρ c (Proc.devRef .tc main_arg3) : S160000x20.Idx → EReal) = a3 m c := by
  show StableHlo.after hostOps0 _ (Proc.devRef .tc main_arg3) = _
  after_results <;> rfl
theorem W1_arg4 (c : Dev nD) : (W1 (F := Ideal) m ρ c (Proc.devRef .tc main_arg4) : S160000x3.Idx → EReal) = a4 m c := by
  show StableHlo.after hostOps0 _ (Proc.devRef .tc main_arg4) = _
  after_results <;> rfl
theorem W1_arg5 (c : Dev nD) : (W1 (F := Ideal) m ρ c (Proc.devRef .tc main_arg5) : S160000.Idx → EReal) = a5 m c := by
  show StableHlo.after hostOps0 _ (Proc.devRef .tc main_arg5) = _
  after_results <;> rfl
theorem W1_arg6 (c : Dev nD) : (W1 (F := Ideal) m ρ c (Proc.devRef .tc main_arg6) : S128x384.Idx → EReal) = a6 m c := by
  show StableHlo.after hostOps0 _ (Proc.devRef .tc main_arg6) = _
  after_results <;> rfl
theorem W1_arg8 (c : Dev nD) : (W1 (F := Ideal) m ρ c (Proc.devRef .tc main_arg8) : S384x384.Idx → EReal) = a8 m c := by
  show StableHlo.after hostOps0 _ (Proc.devRef .tc main_arg8) = _
  after_results <;> rfl
theorem W1_arg10 (c : Dev nD) : (W1 (F := Ideal) m ρ c (Proc.devRef .tc main_arg10) : S20x128.Idx → EReal) = a10 m c := by
  show StableHlo.after hostOps0 _ (Proc.devRef .tc main_arg10) = _
  after_results <;> rfl
theorem W1_arg11 (c : Dev nD) : (W1 (F := Ideal) m ρ c (Proc.devRef .tc main_arg11) : S128.Idx → EReal) = a11 m c := by
  show StableHlo.after hostOps0 _ (Proc.devRef .tc main_arg11) = _
  after_results <;> rfl
theorem W1_arg12 (c : Dev nD) : (W1 (F := Ideal) m ρ c (Proc.devRef .tc main_arg12) : S128x384.Idx → EReal) = a12 m c := by
  show StableHlo.after hostOps0 _ (Proc.devRef .tc main_arg12) = _
  after_results <;> rfl
theorem W1_arg13 (c : Dev nD) : (W1 (F := Ideal) m ρ c (Proc.devRef .tc main_arg13) : S384.Idx → EReal) = a13 m c := by
  show StableHlo.after hostOps0 _ (Proc.devRef .tc main_arg13) = _
  after_results <;> rfl

/-! ### Before the first launch: the edge list's two rows as a column and a row, the vector features flattened, two
    biases as one-row matrices -/

/-- The source column: entry (e, 0) is word e of row 1 of the edge list. -/
theorem W1_v2_at (c : Dev nD) (e : Fin 160000) :
    (W1 (F := Ideal) m ρ c (Proc.devRef .tc main_v2) : S160000x1.Idx → BitVec 32) (ix2 e (0 : Fin 1)) = a2 m c (ix2 (1 : Fin 2) e) := by
  have h : (W1 (F := Ideal) m ρ c (Proc.devRef .tc main_v2) : S160000x1.Idx → BitVec 32)
      = shapeCast S160000x1 (shapeCast S160000 (extractStridedSlice S1x160000 ![1, 0] (a2 m c) slices_S2x160000_S1x160000_1_0)
          shapeCasts_S1x160000_S160000) shapeCasts_S160000_S160000x1 := by
    show StableHlo.after hostOps0 _ (Proc.devRef .tc main_v2) = _
    after_results <;> rfl
  rw [h]
  refine (shapeCast_apply _ _ (ix2 e (0 : Fin 1)) (ix1 e) ?_).trans ?_
  · rw [Shape.rowMajor_val_two, Shape.rowMajor_val_one]
    show e.val = e.val * 1 + 0
    omega
  refine (shapeCast_1a_a_apply _ _ e).trans ?_
  exact slice2_axis0_eq 1 (a2 m c) _ (0 : Fin 1) e

/-- The target row: entry (0, e) is word e of row 0 of the edge list. -/
theorem W1_v5_at (c : Dev nD) (e : Fin 160000) :
    (W1 (F := Ideal) m ρ c (Proc.devRef .tc main_v5) : S1x160000.Idx → BitVec 32) (ix2 (0 : Fin 1) e) = a2 m c (ix2 (0 : Fin 2) e) := by
  have h : (W1 (F := Ideal) m ρ c (Proc.devRef .tc main_v5) : S1x160000.Idx → BitVec 32)
      = shapeCast S1x160000 (shapeCast S160000 (extractStridedSlice S1x160000 ![0, 0] (a2 m c) slices_S2x160000_S1x160000_0_0)
          shapeCasts_S1x160000_S160000) shapeCasts_S160000_S1x160000 := by
    show StableHlo.after hostOps0 _ (Proc.devRef .tc main_v5) = _
    after_results <;> rfl
  rw [h]
  refine (shapeCast_a_1a_apply _ _ (0 : Fin 1) e).trans ?_
  refine (shapeCast_1a_a_apply _ _ e).trans ?_
  exact slice2_axis0_eq 0 (a2 m c) _ (0 : Fin 1) e

/-- The flattened vector features: entry (n, j) is component j / 128, entry j % 128 of node n. -/
theorem W1_v6_at (c : Dev nD) (n : Fin 20000) (j : Fin 384) :
    (W1 (F := Ideal) m ρ c (Proc.devRef .tc main_v6) : S20000x384.Idx → EReal) (ix2 n j)
      = a1 m c (ix3 n ⟨j.val / 128, by have := j.isLt; omega⟩ ⟨j.val % 128, Nat.mod_lt _ (by norm_num)⟩) := by
  have h : (W1 (F := Ideal) m ρ c (Proc.devRef .tc main_v6) : S20000x384.Idx → EReal)
      = shapeCast S20000x384 (a1 m c) shapeCasts_S20000x3x128_S20000x384 := by
    show StableHlo.after hostOps0 _ (Proc.devRef .tc main_v6) = _
    after_results <;> rfl
  rw [h]
  refine shapeCast_apply _ _ _ _ ?_
  rw [Shape.rowMajor_val_two, Shape.rowMajor_val_three]
  show (n.val * 3 + j.val / 128) * 128 + j.val % 128 = n.val * 384 + j.val
  omega

/-- A bias as a one-row matrix. -/
theorem W1_v7_at (c : Dev nD) (k : Fin 384) :
    (W1 (F := Ideal) m ρ c (Proc.devRef .tc main_v7) : S1x384.Idx → EReal) (ix2 (0 : Fin 1) k) = a7 m c (ix1 k) := by
  have h : (W1 (F := Ideal) m ρ c (Proc.devRef .tc main_v7) : S1x384.Idx → EReal) = shapeCast S1x384 (a7 m c) shapeCasts_S384_S1x384 := by
    show StableHlo.after hostOps0 _ (Proc.devRef .tc main_v7) = _
    after_results <;> rfl
  rw [h]
  exact shapeCast_a_1a_apply _ _ (0 : Fin 1) k
theorem W1_v8_at (c : Dev nD) (k : Fin 384) :
    (W1 (F := Ideal) m ρ c (Proc.devRef .tc main_v8) : S1x384.Idx → EReal) (ix2 (0 : Fin 1) k) = a9 m c (ix1 k) := by
  have h : (W1 (F := Ideal) m ρ c (Proc.devRef .tc main_v8) : S1x384.Idx → EReal) = shapeCast S1x384 (a9 m c) shapeCasts_S384_S1x384 := by
    show StableHlo.after hostOps0 _ (Proc.devRef .tc main_v8) = _
    after_results <;> rfl
  rw [h]
  exact shapeCast_a_1a_apply _ _ (0 : Fin 1) k

/-! ## After the first launch: the table of node rows -/

/-- The first launch's output array holds the table of node rows of the arguments. -/
theorem W2_v9 (c : Dev nD) :
    (W2 (F := Ideal) m ρ c (Proc.devRef .tc main_v9) : S20000x768.Idx → EReal)
      = arr2 (tiledSlab (fn2 (a0 m c)) (fn3 (a1 m c)) (fn2 (a6 m c)) (fn1 (a7 m c)) (fn2 (a8 m c)) (fn1 (a9 m c))) := by
  refine (W2_arr m ρ c 6).trans ((Region0.value (V1 m ρ) c).trans ?_)
  have h0 : Region0.qArr (V1 m ρ) c = a0 m c := W1_arg0 m ρ c
  have h2 : Region0.w1Arr (V1 m ρ) c = a6 m c := W1_arg6 m ρ c
  have h4 : Region0.w2Arr (V1 m ρ) c = a8 m c := W1_arg8 m ρ c
  have h1 : fn2 (Region0.muArr (V1 m ρ) c) = muFlat (fn3 (a1 m c)) := funext fun n => funext fun j => W1_v6_at m ρ c n j
  have h3 : (fun k => Region0.b1Arr (V1 m ρ) c (ix2 (0 : Fin 1) k)) = fn1 (a7 m c) := funext fun k => W1_v7_at m ρ c k
  have h5 : (fun k => Region0.b2Arr (V1 m ρ) c (ix2 (0 : Fin 1) k)) = fn1 (a9 m c) := funext fun k => W1_v8_at m ρ c k
  rw [h0, h2, h4, h1, h3, h5]
  rfl

/-! ## Between the first and the second launch: the cutoff as a column, two biases as one-row matrices; everything else
    stays -/

theorem W2_arg3 (c : Dev nD) : (W2 (F := Ideal) m ρ c (Proc.devRef .tc main_arg3) : S160000x20.Idx → EReal) = a3 m c :=
  (W2_of_ne m ρ c main_arg3 (by decide)).trans (W1_arg3 m ρ c)
theorem W2_arg4 (c : Dev nD) : (W2 (F := Ideal) m ρ c (Proc.devRef .tc main_arg4) : S160000x3.Idx → EReal) = a4 m c :=
  (W2_of_ne m ρ c main_arg4 (by decide)).trans (W1_arg4 m ρ c)
theorem W2_arg5 (c : Dev nD) : (W2 (F := Ideal) m ρ c (Proc.devRef .tc main_arg5) : S160000.Idx → EReal) = a5 m c :=
  (W2_of_ne m ρ c main_arg5 (by decide)).trans (W1_arg5 m ρ c)
theorem W2_arg10 (c : Dev nD) : (W2 (F := Ideal) m ρ c (Proc.devRef .tc main_arg10) : S20x128.Idx → EReal) = a10 m c :=
  (W2_of_ne m ρ c main_arg10 (by decide)).trans (W1_arg10 m ρ c)
theorem W2_arg11 (c : Dev nD) : (W2 (F := Ideal) m ρ c (Proc.devRef .tc main_arg11) : S128.Idx → EReal) = a11 m c :=
  (W2_of_ne m ρ c main_arg11 (by decide)).trans (W1_arg11 m ρ c)
theorem W2_arg12 (c : Dev nD) : (W2 (F := Ideal) m ρ c (Proc.devRef .tc main_arg12) : S128x384.Idx → EReal) = a12 m c :=
  (W2_of_ne m ρ c main_arg12 (by decide)).trans (W1_arg12 m ρ c)
theorem W2_arg13 (c : Dev nD) : (W2 (F := Ideal) m ρ c (Proc.devRef .tc main_arg13) : S384.Idx → EReal) = a13 m c :=
  (W2_of_ne m ρ c main_arg13 (by decide)).trans (W1_arg13 m ρ c)
theorem W3_arg3 (c : Dev nD) : (W3 (F := Ideal) m ρ c (Proc.devRef .tc main_arg3) : S160000x20.Idx → EReal) = a3 m c := by
  have h : W3 (F := Ideal) m ρ c (Proc.devRef .tc main_arg3) = W2 m ρ c (Proc.devRef .tc main_arg3) := by
    show StableHlo.after hostOps1 _ (Proc.devRef .tc main_arg3) = _
    after_results <;> rfl
  exact h.trans (W2_arg3 m ρ c)
theorem W3_arg4 (c : Dev nD) : (W3 (F := Ideal) m ρ c (Proc.devRef .tc main_arg4) : S160000x3.Idx → EReal) = a4 m c := by
  have h : W3 (F := Ideal) m ρ c (Proc.devRef .tc main_arg4) = W2 m ρ c (Proc.devRef .tc main_arg4) := by
    show StableHlo.after hostOps1 _ (Proc.devRef .tc main_arg4) = _
    after_results <;> rfl
  exact h.trans (W2_arg4 m ρ c)
theorem W3_arg10 (c : Dev nD) : (W3 (F := Ideal) m ρ c (Proc.devRef .tc main_arg10) : S20x128.Idx → EReal) = a10 m c := by
  have h : W3 (F := Ideal) m ρ c (Proc.devRef .tc main_arg10) = W2 m ρ c (Proc.devRef .tc main_arg10) := by
    show StableHlo.after hostOps1 _ (Proc.devRef .tc main_arg10) = _
    after_results <;> rfl
  exact h.trans (W2_arg10 m ρ c)
theorem W3_arg12 (c : Dev nD) : (W3 (F := Ideal) m ρ c (Proc.devRef .tc main_arg12) : S128x384.Idx → EReal) = a12 m c := by
  have h : W3 (F := Ideal) m ρ c (Proc.devRef .tc main_arg12) = W2 m ρ c (Proc.devRef .tc main_arg12) := by
    show StableHlo.after hostOps1 _ (Proc.devRef .tc main_arg12) = _
    after_results <;> rfl
  exact h.trans (W2_arg12 m ρ c)

theorem W3_v9 (c : Dev nD) :
    (W3 (F := Ideal) m ρ c (Proc.devRef .tc main_v9) : S20000x768.Idx → EReal)
      = arr2 (tiledSlab (fn2 (a0 m c)) (fn3 (a1 m c)) (fn2 (a6 m c)) (fn1 (a7 m c)) (fn2 (a8 m c)) (fn1 (a9 m c))) := by
  have h : W3 (F := Ideal) m ρ c (Proc.devRef .tc main_v9) = W2 m ρ c (Proc.devRef .tc main_v9) := by
    show StableHlo.after hostOps1 _ (Proc.devRef .tc main_v9) = _
    after_results <;> rfl
  exact h.trans (W2_v9 m ρ c)

theorem W3_v2_at (c : Dev nD) (e : Fin 160000) :
    (W3 (F := Ideal) m ρ c (Proc.devRef .tc main_v2) : S160000x1.Idx → BitVec 32) (ix2 e (0 : Fin 1)) = a2 m c (ix2 (1 : Fin 2) e) := by
  have h : W3 (F := Ideal) m ρ c (Proc.devRef .tc main_v2) = W1 m ρ c (Proc.devRef .tc main_v2) := by
    refine Eq.trans ?_ (W2_of_ne m ρ c main_v2 (by decide))
    show StableHlo.after hostOps1 _ (Proc.devRef .tc main_v2) = _
    after_results <;> rfl
  exact (congrFun h _).trans (W1_v2_at m ρ c e)

theorem W3_v5_at (c : Dev nD) (e : Fin 160000) :
    (W3 (F := Ideal) m ρ c (Proc.devRef .tc main_v5) : S1x160000.Idx → BitVec 32) (ix2 (0 : Fin 1) e) = a2 m c (ix2 (0 : Fin 2) e) := by
  have h : W3 (F := Ideal) m ρ c (Proc.devRef .tc main_v5) = W1 m ρ c (Proc.devRef .tc main_v5) := by
    refine Eq.trans ?_ (W2_of_ne m ρ c main_v5 (by decide))
    show StableHlo.after hostOps1 _ (Proc.devRef .tc main_v5) = _
    after_results <;> rfl
  exact (congrFun h _).trans (W1_v5_at m ρ c e)

/-- The cutoff column: entry (e, 0) is the cutoff of edge e. -/
theorem W3_v10_at (c : Dev nD) (e : Fin 160000) :
    (W3 (F := Ideal) m ρ c (Proc.devRef .tc main_v10) : S160000x1.Idx → EReal) (ix2 e (0 : Fin 1)) = a5 m c (ix1 e) := by
  have h : (W3 (F := Ideal) m ρ c (Proc.devRef .tc main_v10) : S160000x1.Idx → EReal)
      = shapeCast S160000x1 (W2 (F := Ideal) m ρ c (Proc.devRef .tc main_arg5) : S160000.Idx → EReal) shapeCasts_S160000_S160000x1 := by
    show StableHlo.after hostOps1 _ (Proc.devRef .tc main_v10) = _
    after_results <;> rfl
  rw [h, W2_arg5]
  refine shapeCast_apply _ _ (ix2 e (0 : Fin 1)) (ix1 e) ?_
  rw [Shape.rowMajor_val_two, Shape.rowMajor_val_one]
  show e.val = e.val * 1 + 0
  omega

theorem W3_v11_at (c : Dev nD) (k : Fin 128) :
    (W3 (F := Ideal) m ρ c (Proc.devRef .tc main_v11) : S1x128.Idx → EReal) (ix2 (0 : Fin 1) k) = a11 m c (ix1 k) := by
  have h : (W3 (F := Ideal) m ρ c (Proc.devRef .tc main_v11) : S1x128.Idx → EReal)
      = shapeCast S1x128 (W2 (F := Ideal) m ρ c (Proc.devRef .tc main_arg11) : S128.Idx → EReal) shapeCasts_S128_S1x128 := by
    show StableHlo.after hostOps1 _ (Proc.devRef .tc main_v11) = _
    after_results <;> rfl
  rw [h, W2_arg11]
  exact shapeCast_a_1a_apply _ _ (0 : Fin 1) k

theorem W3_v12_at (c : Dev nD) (k : Fin 384) :
    (W3 (F := Ideal) m ρ c (Proc.devRef .tc main_v12) : S1x384.Idx → EReal) (ix2 (0 : Fin 1) k) = a13 m c (ix1 k) := by
  have h : (W3 (F := Ideal) m ρ c (Proc.devRef .tc main_v12) : S1x384.Idx → EReal)
      = shapeCast S1x384 (W2 (F := Ideal) m ρ c (Proc.devRef .tc main_arg13) : S384.Idx → EReal) shapeCasts_S384_S1x384 := by
    show StableHlo.after hostOps1 _ (Proc.devRef .tc main_v12) = _
    after_results <;> rfl
  rw [h, W2_arg13]
  exact shapeCast_a_1a_apply _ _ (0 : Fin 1) k

/-! ## After the second launch: the edge messages; after the third: their per-node sums -/

/-- The second launch's output array holds the edge messages of the arguments. -/
theorem W4_v13 (c : Dev nD) :
    (W4 (F := Ideal) m ρ c (Proc.devRef .tc main_v13) : S160000x512.Idx → EReal)
      = arr2 (tiledMsg (fn2 (a0 m c)) (fn3 (a1 m c)) (srcOf (a2 m c)) (fn2 (a3 m c)) (fn2 (a4 m c)) (fn1 (a5 m c))
          (fn2 (a6 m c)) (fn1 (a7 m c)) (fn2 (a8 m c)) (fn1 (a9 m c)) (fn2 (a10 m c)) (fn1 (a11 m c)) (fn2 (a12 m c)) (fn1 (a13 m c))) := by
  refine (W4_arr m ρ c 9).trans ((Region1.value (V3 m ρ) c).trans ?_)
  have h0 : (fun e => Region1.srcArr (V3 m ρ) c (ix2 e (0 : Fin 1))) = srcOf (a2 m c) := funext fun e => W3_v2_at m ρ c e
  have h1 : fn2 (Region1.slabArr (V3 m ρ) c)
      = tiledSlab (fn2 (a0 m c)) (fn3 (a1 m c)) (fn2 (a6 m c)) (fn1 (a7 m c)) (fn2 (a8 m c)) (fn1 (a9 m c)) := by
    show fn2 (W3 (F := Ideal) m ρ c (Proc.devRef .tc main_v9) : S20000x768.Idx → EReal) = _
    rw [W3_v9]; rfl
  have h2 : Region1.rbfArr (V3 m ρ) c = a3 m c := W3_arg3 m ρ c
  have h3 : (fun e => Region1.cutArr (V3 m ρ) c (ix2 e (0 : Fin 1))) = fn1 (a5 m c) := funext fun e => W3_v10_at m ρ c e
  have h4 : Region1.uvArr (V3 m ρ) c = a4 m c := W3_arg4 m ρ c
  have h5 : Region1.wf1Arr (V3 m ρ) c = a10 m c := W3_arg10 m ρ c
  have h6 : (fun k => Region1.bf1Arr (V3 m ρ) c (ix2 (0 : Fin 1) k)) = fn1 (a11 m c) := funext fun k => W3_v11_at m ρ c k
  have h7 : Region1.wf2Arr (V3 m ρ) c = a12 m c := W3_arg12 m ρ c
  have h8 : (fun k => Region1.bf2Arr (V3 m ρ) c (ix2 (0 : Fin 1) k)) = fn1 (a13 m c) := funext fun k => W3_v12_at m ρ c k
  rw [h0, h1, h2, h3, h4, h5, h6, h7, h8]
  rfl

theorem W4_v5_at (c : Dev nD) (e : Fin 160000) :
    (W4 (F := Ideal) m ρ c (Proc.devRef .tc main_v5) : S1x160000.Idx → BitVec 32) (ix2 (0 : Fin 1) e) = a2 m c (ix2 (0 : Fin 2) e) :=
  (congrFun (W4_of_ne m ρ c main_v5 (by decide)) _).trans (W3_v5_at m ρ c e)

/-- The third launch's output array holds the per-node sums of the edge messages of the arguments. -/
theorem W5_v14 (c : Dev nD) :
    (W5 (F := Ideal) m ρ c (Proc.devRef .tc main_v14) : S20000x512.Idx → EReal)
      = arr2 (tiledNode (fn2 (a0 m c)) (fn3 (a1 m c)) (srcOf (a2 m c)) (tgtOf (a2 m c)) (fn2 (a3 m c)) (fn2 (a4 m c)) (fn1 (a5 m c))
          (fn2 (a6 m c)) (fn1 (a7 m c)) (fn2 (a8 m c)) (fn1 (a9 m c)) (fn2 (a10 m c)) (fn1 (a11 m c)) (fn2 (a12 m c)) (fn1 (a13 m c))) := by
  refine (W5_arr m ρ c 2).trans ((Region2.value (V4 m ρ) c).trans ?_)
  have h0 : (fun e => Region2.tgtArr (V4 m ρ) c (ix2 (0 : Fin 1) e)) = tgtOf (a2 m c) := funext fun e => W4_v5_at m ρ c e
  have h1 : fn2 (Region2.msgArr (V4 m ρ) c)
      = tiledMsg (fn2 (a0 m c)) (fn3 (a1 m c)) (srcOf (a2 m c)) (fn2 (a3 m c)) (fn2 (a4 m c)) (fn1 (a5 m c))
          (fn2 (a6 m c)) (fn1 (a7 m c)) (fn2 (a8 m c)) (fn1 (a9 m c)) (fn2 (a10 m c)) (fn1 (a11 m c)) (fn2 (a12 m c)) (fn1 (a13 m c)) := by
    show fn2 (W4 (F := Ideal) m ρ c (Proc.devRef .tc main_v13) : S160000x512.Idx → EReal) = _
    rw [W4_v13]; rfl
  rw [h0, h1]
  rfl

/-! ## After the third launch: the per-node edge count, the division and the residual sum -/

/-- The target words as the tail reads them: row 0 of the edge list as a vector. -/
def tgtVec (x2 : S2x160000.Idx → BitVec 32) : S160000.Idx → BitVec 32 :=
  shapeCast S160000 (extractStridedSlice S1x160000 ![0, 0] x2 slices_S2x160000_S1x160000_0_0) shapeCasts_S1x160000_S160000

/-- The divisor as the tail computes it: ones added into zeros at the target words (a negative word first moved up by the
    number of nodes), and at least one. -/
def degVec (x2 : S2x160000.Idx → BitVec 32) : S20000.Idx → EReal :=
  maximumf (F := Ideal) (φ := .f32) (s := S20000)
    (Host.scatterAdd (F := Ideal) (φ := .f32) scatter_S20000_S160000x1_S160000_n_0_0_1
      (broadcastInDim S20000 ![] bcast_S_S20000 (constant (F := Ideal) S_ .f32 0x00000000#32))
      (broadcastInDim S160000x1 ![0] bcast_S160000_S160000x1_0
        (select (cmpi .slt (tgtVec x2) (broadcastInDim S160000 ![] bcast_S_S160000 (constantI S_ 32 0#32)))
          (addi (tgtVec x2) (broadcastInDim S160000 ![] bcast_S_S160000 (constantI S_ 32 20000#32))) (tgtVec x2)))
      (broadcastInDim S160000 ![] bcast_S_S160000 (constant (F := Ideal) S_ .f32 0x3F800000#32)))
    (broadcastInDim S20000 ![] bcast_S_S20000 (constant (F := Ideal) S_ .f32 0x3F800000#32))

/-- The scalar result as the tail's operations applied to what the third launch left. -/
theorem W6_v37 (c : Dev nD) :
    (W6 (F := Ideal) m ρ c (Proc.devRef .tc main_v37) : S20000x128.Idx → EReal)
      = addf (F := Ideal) (φ := .f32) (s := S20000x128) (W5 (F := Ideal) m ρ c (Proc.devRef .tc main_arg0) : S20000x128.Idx → EReal)
          (Host.divf (F := Ideal) (φ := .f32) (s := S20000x128)
            (extractStridedSlice S20000x128 ![0, 0] (W5 (F := Ideal) m ρ c (Proc.devRef .tc main_v14) : S20000x512.Idx → EReal)
              slices_S20000x512_S20000x128_0_0)
            (broadcastInDim S20000x128 ![0, 1] bcast_S20000x1_S20000x128_0_1
              (broadcastInDim S20000x1 ![0] bcast_S20000_S20000x1_0
                (degVec (W5 (F := Ideal) m ρ c (Proc.devRef .tc main_arg2) : S2x160000.Idx → BitVec 32))))) := by
  show StableHlo.after hostOps3 _ (Proc.devRef .tc main_v37) = _
  after_results_simp
  rfl

/-- The vector result as the tail's operations applied to what the third launch left. -/
theorem W6_v38 (c : Dev nD) :
    (W6 (F := Ideal) m ρ c (Proc.devRef .tc main_v38) : S20000x3x128.Idx → EReal)
      = addf (F := Ideal) (φ := .f32) (s := S20000x3x128) (W5 (F := Ideal) m ρ c (Proc.devRef .tc main_arg1) : S20000x3x128.Idx → EReal)
          (Host.divf (F := Ideal) (φ := .f32) (s := S20000x3x128)
            (shapeCast S20000x3x128
              (extractStridedSlice S20000x384 ![0, 128] (W5 (F := Ideal) m ρ c (Proc.devRef .tc main_v14) : S20000x512.Idx → EReal)
                slices_S20000x512_S20000x384_0_128) shapeCasts_S20000x384_S20000x3x128)
            (broadcastInDim S20000x3x128 ![0, 1, 2] bcast_S20000x1x1_S20000x3x128_0_1_2
              (broadcastInDim S20000x1x1 ![0] bcast_S20000_S20000x1x1_0
                (degVec (W5 (F := Ideal) m ρ c (Proc.devRef .tc main_arg2) : S2x160000.Idx → BitVec 32))))) := by
  show StableHlo.after hostOps3 _ (Proc.devRef .tc main_v38) = _
  after_results_simp
  rfl

/-! ### The arguments the tail reads are as launched -/

theorem W5_arg0 (c : Dev nD) : (W5 (F := Ideal) m ρ c (Proc.devRef .tc main_arg0) : S20000x128.Idx → EReal) = a0 m c := by
  have h3 : W3 (F := Ideal) m ρ c (Proc.devRef .tc main_arg0) = W2 m ρ c (Proc.devRef .tc main_arg0) := by
    show StableHlo.after hostOps1 _ (Proc.devRef .tc main_arg0) = _
    after_results <;> rfl
  have h2 : W2 (F := Ideal) m ρ c (Proc.devRef .tc main_arg0) = W1 m ρ c (Proc.devRef .tc main_arg0) :=
    (W2_arr m ρ c 0).trans (((dat0 (V1 m ρ) c).arrAt_in 0 rfl _).trans (A_eq0 (V1 m ρ) c 0))
  exact (W5_of_ne m ρ c main_arg0 (by decide)).trans ((W4_of_ne m ρ c main_arg0 (by decide)).trans (h3.trans (h2.trans (W1_arg0 m ρ c))))

theorem W5_arg1 (c : Dev nD) : (W5 (F := Ideal) m ρ c (Proc.devRef .tc main_arg1) : S20000x3x128.Idx → EReal) = a1 m c := by
  have h3 : W3 (F := Ideal) m ρ c (Proc.devRef .tc main_arg1) = W2 m ρ c (Proc.devRef .tc main_arg1) := by
    show StableHlo.after hostOps1 _ (Proc.devRef .tc main_arg1) = _
    after_results <;> rfl
  exact (W5_of_ne m ρ c main_arg1 (by decide)).trans ((W4_of_ne m ρ c main_arg1 (by decide)).trans
    (h3.trans ((W2_of_ne m ρ c main_arg1 (by decide)).trans (W1_arg1 m ρ c))))

theorem W5_arg2 (c : Dev nD) : (W5 (F := Ideal) m ρ c (Proc.devRef .tc main_arg2) : S2x160000.Idx → BitVec 32) = a2 m c := by
  have h3 : W3 (F := Ideal) m ρ c (Proc.devRef .tc main_arg2) = W2 m ρ c (Proc.devRef .tc main_arg2) := by
    show StableHlo.after hostOps1 _ (Proc.devRef .tc main_arg2) = _
    after_results <;> rfl
  exact (W5_of_ne m ρ c main_arg2 (by decide)).trans ((W4_of_ne m ρ c main_arg2 (by decide)).trans
    (h3.trans ((W2_of_ne m ρ c main_arg2 (by decide)).trans (W1_arg2 m ρ c))))

/-! ### The divisor at a node -/

theorem tgtVec_apply (x2 : S2x160000.Idx → BitVec 32) (e : Fin 160000) : tgtVec x2 (ix1 e) = tgtOf x2 e := by
  unfold tgtVec
  refine (shapeCast_1a_a_apply _ _ e).trans ?_
  exact slice2_axis0_eq 0 x2 _ (0 : Fin 1) e

/-- The divisor at node n is the number of edges whose wrapped target word is n, or one if there is none. -/
theorem degVec_apply (x2 : S2x160000.Idx → BitVec 32) (n : Fin 20000) :
    degVec x2 (ix1 n) = max (cnt wrapNeg (tgtOf x2) n) 1 := by
  have hidx : ∀ e : Fin 160000, (broadcastInDim S160000x1 ![0] bcast_S160000_S160000x1_0
        (select (cmpi .slt (tgtVec x2) (broadcastInDim S160000 ![] bcast_S_S160000 (constantI S_ 32 0#32)))
          (addi (tgtVec x2) (broadcastInDim S160000 ![] bcast_S_S160000 (constantI S_ 32 20000#32))) (tgtVec x2))) (ix2 e (0 : Fin 1))
      = wrapNeg (tgtOf x2 e) := fun e => by
    refine (broadcastInDim_apply _ _ _ (ix2 e (0 : Fin 1)) (ix1 e) (fun a => by match a with | ⟨0, _⟩ => rfl)).trans ?_
    rw [← tgtVec_apply x2 e]
    rfl
  have hone : ∀ e : Fin 160000,
      (broadcastInDim S160000 ![] bcast_S_S160000 (constant (F := Ideal) S_ .f32 0x3F800000#32) : S160000.Idx → EReal) (ix1 e) = 1 := fun e => by
    rw [broadcastInDim_scalar_apply, constant_apply, Ideal.ofBits_one_f32]
  have hzero : (broadcastInDim S20000 ![] bcast_S_S20000 (constant (F := Ideal) S_ .f32 0x00000000#32) : S20000.Idx → EReal) (ix1 n) = 0 := by
    rw [broadcastInDim_scalar_apply, constant_apply, Ideal.ofBits_zero_f32]
  have hone' : (broadcastInDim S20000 ![] bcast_S_S20000 (constant (F := Ideal) S_ .f32 0x3F800000#32) : S20000.Idx → EReal) (ix1 n) = 1 := by
    rw [broadcastInDim_scalar_apply, constant_apply, Ideal.ofBits_one_f32]
  unfold degVec
  rw [maximumf_apply, ScatterGatherRows.scatterAdd_vec_apply _ rfl rfl rfl rfl, hzero, hone']
  unfold cnt
  refine congrArg (fun s : EReal => max (0 + s) 1) (Finset.sum_congr rfl fun e _ => ?_)
  rw [hidx e, hone e]

/-! ## The two results -/

/-- The tail's scalar term at node n, entry l. -/
theorem q_tail_apply (x0 : S20000x128.Idx → EReal) (x2 : S2x160000.Idx → BitVec 32) (node : Fin 20000 → Fin 512 → EReal)
    (n : Fin 20000) (l : Fin 128) :
    addf (F := Ideal) (φ := .f32) (s := S20000x128) x0
        (Host.divf (F := Ideal) (φ := .f32) (s := S20000x128)
          (extractStridedSlice S20000x128 ![0, 0] (arr2 node : S20000x512.Idx → EReal) slices_S20000x512_S20000x128_0_0)
          (broadcastInDim S20000x128 ![0, 1] bcast_S20000x1_S20000x128_0_1
            (broadcastInDim S20000x1 ![0] bcast_S20000_S20000x1_0 (degVec x2)))) (ix2 n l)
      = x0 (ix2 n l) + Ideal.div (node n ⟨l.val, by have := l.isLt; omega⟩) (max (cnt wrapNeg (tgtOf x2) n) 1) := by
  rw [addf_apply, hostDivf_apply]
  have hs : extractStridedSlice S20000x128 ![0, 0] (arr2 node : S20000x512.Idx → EReal) slices_S20000x512_S20000x128_0_0 (ix2 n l)
      = node n ⟨l.val, by have := l.isLt; omega⟩ :=
    slice2_axis1_apply 0 (arr2 node) _ n l ⟨l.val, by have := l.isLt; omega⟩ (Nat.zero_add _).symm
  rw [hs]
  rw [broadcastInDim_apply ![0, 1] bcast_S20000x1_S20000x128_0_1 _ (ix2 n l) (ix2 n (0 : Fin 1))
    (fun a => by match a with | ⟨0, _⟩ => rfl | ⟨1, _⟩ => rfl)]
  rw [broadcastInDim_apply ![0] bcast_S20000_S20000x1_0 _ (ix2 n (0 : Fin 1)) (ix1 n)
    (fun a => by match a with | ⟨0, _⟩ => rfl)]
  rw [degVec_apply]

/-- The tail's vector term at node n, component a, entry l: the reshape reads column 128 a + l of the band of columns
    from 128 on, which is column 128 + (128 a + l) of the sums. -/
theorem mu_tail_apply (x1 : S20000x3x128.Idx → EReal) (x2 : S2x160000.Idx → BitVec 32) (node : Fin 20000 → Fin 512 → EReal)
    (n : Fin 20000) (a : Fin 3) (l : Fin 128) :
    addf (F := Ideal) (φ := .f32) (s := S20000x3x128) x1
        (Host.divf (F := Ideal) (φ := .f32) (s := S20000x3x128)
          (shapeCast S20000x3x128
            (extractStridedSlice S20000x384 ![0, 128] (arr2 node : S20000x512.Idx → EReal) slices_S20000x512_S20000x384_0_128)
            shapeCasts_S20000x384_S20000x3x128)
          (broadcastInDim S20000x3x128 ![0, 1, 2] bcast_S20000x1x1_S20000x3x128_0_1_2
            (broadcastInDim S20000x1x1 ![0] bcast_S20000_S20000x1x1_0 (degVec x2)))) (ix3 n a l)
      = x1 (ix3 n a l) + Ideal.div (node n ⟨128 + (128 * a.val + l.val), by have := a.isLt; have := l.isLt; omega⟩)
          (max (cnt wrapNeg (tgtOf x2) n) 1) := by
  rw [addf_apply, hostDivf_apply]
  rw [shapeCast_apply _ shapeCasts_S20000x384_S20000x3x128 (ix3 n a l)
    (ix2 n (⟨128 * a.val + l.val, by have := a.isLt; have := l.isLt; omega⟩ : Fin 384)) (by
      rw [Shape.rowMajor_val_two, Shape.rowMajor_val_three]
      show n.val * 384 + (128 * a.val + l.val) = (n.val * 3 + a.val) * 128 + l.val
      omega)]
  have hs : extractStridedSlice S20000x384 ![0, 128] (arr2 node : S20000x512.Idx → EReal) slices_S20000x512_S20000x384_0_128
        (ix2 n (⟨128 * a.val + l.val, by have := a.isLt; have := l.isLt; omega⟩ : Fin 384))
      = node n ⟨128 + (128 * a.val + l.val), by have := a.isLt; have := l.isLt; omega⟩ :=
    slice2_axis1_apply 128 (arr2 node) _ n (⟨128 * a.val + l.val, by have := a.isLt; have := l.isLt; omega⟩ : Fin 384)
      (⟨128 + (128 * a.val + l.val), by have := a.isLt; have := l.isLt; omega⟩ : Fin 512) rfl
  rw [hs]
  rw [broadcastInDim_apply ![0, 1, 2] bcast_S20000x1x1_S20000x3x128_0_1_2 _ (ix3 n a l) (ix3 n (0 : Fin 1) (0 : Fin 1))
    (fun b => by match b with | ⟨0, _⟩ => rfl | ⟨1, _⟩ => rfl | ⟨2, _⟩ => rfl)]
  rw [broadcastInDim_apply ![0] bcast_S20000_S20000x1x1_0 _ (ix3 n (0 : Fin 1) (0 : Fin 1)) (ix1 n)
    (fun b => by match b with | ⟨0, _⟩ => rfl)]
  rw [degVec_apply]

/-- The scalar result array at the last boundary. -/
theorem q_value (c : Dev nD) :
    (W6 (F := Ideal) m ρ c (Proc.devRef .tc main_v37) : S20000x128.Idx → EReal)
      = tiledOutQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [W6_v37, W5_arg0, W5_arg2, W5_v14]
  funext i
  rw [eq_ix2 i]
  exact q_tail_apply (a0 m c) (a2 m c) _ (i 0) (i 1)

/-- The vector result array at the last boundary. -/
theorem mu_value (c : Dev nD) :
    (W6 (F := Ideal) m ρ c (Proc.devRef .tc main_v38) : S20000x3x128.Idx → EReal)
      = tiledOutMu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [W6_v38, W5_arg1, W5_arg2, W5_v14]
  funext i
  rw [eq_ix3 i]
  exact mu_tail_apply (a1 m c) (a2 m c) _ (i 0) (i 1) (i 2)

end Cert.KernelIdeal.Tail
end
-- ==== Proof.RefValue.lean ====
/-
  The whole-array program's two results as functions of its arguments, entry by entry: its run's composed term read one
  operation at a time, the four gathers and three scatter-adds by their row-wise readings.
-/
import proofs.«407274_j17514876634209_3_alg».proof.Proof.Gen.ReferenceIdeal.Run
import proofs.«407274_j17514876634209_3_alg».proof.Proof.Gen.ReferenceIdeal.Read
import proofs.«407274_j17514876634209_3_alg».proof.Proof.Spec
import proofs.«407274_j17514876634209_3_alg».proof.Proof.LibScatterGather
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen PaiNN
open Cert.ReferenceIdeal.Read

/-! ## The gate between the layers -/

/-- The reference spells the gate as h * (1 / (1 + exp (-h))); that is h * sigma(h). -/
theorem gate_spelled (h : EReal) :
    FloatOps.mulf (F := Ideal) (φ := .f32) h
      (FloatOps.hostDivf (FloatOps.ofBits .f32 0x3F800000#32)
        (FloatOps.addf (FloatOps.ofBits .f32 0x3F800000#32) (FloatOps.hostUnary .exp (FloatOps.hostNegf h)))) = silu h := by
  simp only [Ideal.mulf_def, Ideal.hostDivf_def, Ideal.addf_def, Ideal.hostUnary_exp_def, Ideal.hostNegf_def,
    Ideal.negf_def, Ideal.ofBits_def, Ideal.ofBits_one_f32]
  rfl

/-! ## The node perceptron -/

section Node

variable (x0 : (⟨S20000x128, .f32⟩ : BufTy).Contents (Elt Ideal)) (x6 : (⟨S128x384, .f32⟩ : BufTy).Contents (Elt Ideal))
  (x7 : (⟨S384, .f32⟩ : BufTy).Contents (Elt Ideal)) (x8 : (⟨S384x384, .f32⟩ : BufTy).Contents (Elt Ideal))
  (x9 : (⟨S384, .f32⟩ : BufTy).Contents (Elt Ideal))

/-- The first layer before the gate. -/
theorem node_pre (n : Fin 20000) (c : Fin 384) :
    val_main_v22 (F := Ideal) x0 x6 x7 (ix2 n c) = (∑ d : Fin 128, x0 (ix2 n d) * x6 (ix2 d c)) + x7 (ix1 c) := by
  have el : ∀ k : Fin 128, lidx_main_v19 (ix2 n c) k = ix2 n k := fun k =>
    funext fun a => Fin.ext (by match a with | ⟨0, _⟩ => rfl | ⟨1, _⟩ => rfl)
  have er : ∀ k : Fin 128, ridx_main_v19 (ix2 n c) k = ix2 k c := fun k =>
    funext fun a => Fin.ext (by match a with | ⟨0, _⟩ => rfl | ⟨1, _⟩ => rfl)
  have eb : idx_main_v20 (idx_main_v21 (ix2 n c)) = ix1 c :=
    funext fun a => Fin.ext (by match a with | ⟨0, _⟩ => rfl)
  rw [val_main_v22_apply, val_main_v19_apply, val_main_v21_apply, val_main_v20_apply, eb]
  simp only [el, er, Ideal.addf_def]

/-- The first layer after the gate. -/
theorem node_hidden (n : Fin 20000) (c : Fin 384) :
    val_main_v23 (F := Ideal) x0 x6 x7 (ix2 n c) = silu ((∑ d : Fin 128, x0 (ix2 n d) * x6 (ix2 d c)) + x7 (ix1 c)) := by
  rw [val_main_v23_apply, val_main_call1_v5_apply, val_main_call1_v4_apply, val_main_call1_cst_0_apply,
    val_main_call1_v3_apply, val_main_call1_v2_apply, val_main_call1_cst_apply, val_main_call1_v1_apply,
    val_main_call1_v0_apply, node_pre]
  exact gate_spelled _

/-- The node perceptron's output, entry by entry. -/
theorem node_mlp (n : Fin 20000) (j : Fin 384) :
    val_main_v27 (F := Ideal) x0 x6 x7 x8 x9 (ix2 n j) = mlp (fn2 x0) (fn2 x6) (fn1 x7) (fn2 x8) (fn1 x9) n j := by
  have el : ∀ k : Fin 384, lidx_main_v24 (ix2 n j) k = ix2 n k := fun k =>
    funext fun a => Fin.ext (by match a with | ⟨0, _⟩ => rfl | ⟨1, _⟩ => rfl)
  have er : ∀ k : Fin 384, ridx_main_v24 (ix2 n j) k = ix2 k j := fun k =>
    funext fun a => Fin.ext (by match a with | ⟨0, _⟩ => rfl | ⟨1, _⟩ => rfl)
  have eb : idx_main_v25 (idx_main_v26 (ix2 n j)) = ix1 j :=
    funext fun a => Fin.ext (by match a with | ⟨0, _⟩ => rfl)
  rw [val_main_v27_apply, val_main_v24_apply, val_main_v26_apply, val_main_v25_apply, eb]
  simp only [el, er, node_hidden, Ideal.addf_def]
  rfl

end Node

/-! ## The edge filter -/

section Filter

variable (x3 : (⟨S160000x20, .f32⟩ : BufTy).Contents (Elt Ideal)) (x5 : (⟨S160000, .f32⟩ : BufTy).Contents (Elt Ideal))
  (x10 : (⟨S20x128, .f32⟩ : BufTy).Contents (Elt Ideal)) (x11 : (⟨S128, .f32⟩ : BufTy).Contents (Elt Ideal))
  (x12 : (⟨S128x384, .f32⟩ : BufTy).Contents (Elt Ideal)) (x13 : (⟨S384, .f32⟩ : BufTy).Contents (Elt Ideal))

/-- The filter perceptron's first layer before the gate. -/
theorem filt_pre (e : Fin 160000) (c : Fin 128) :
    val_main_v7 (F := Ideal) x3 x10 x11 (ix2 e c) = (∑ d : Fin 20, x3 (ix2 e d) * x10 (ix2 d c)) + x11 (ix1 c) := by
  have el : ∀ k : Fin 20, lidx_main_v4 (ix2 e c) k = ix2 e k := fun k =>
    funext fun a => Fin.ext (by match a with | ⟨0, _⟩ => rfl | ⟨1, _⟩ => rfl)
  have er : ∀ k : Fin 20, ridx_main_v4 (ix2 e c) k = ix2 k c := fun k =>
    funext fun a => Fin.ext (by match a with | ⟨0, _⟩ => rfl | ⟨1, _⟩ => rfl)
  have eb : idx_main_v5 (idx_main_v6 (ix2 e c)) = ix1 c :=
    funext fun a => Fin.ext (by match a with | ⟨0, _⟩ => rfl)
  rw [val_main_v7_apply, val_main_v4_apply, val_main_v6_apply, val_main_v5_apply, eb]
  simp only [el, er, Ideal.addf_def]

/-- The filter perceptron's first layer after the gate. -/
theorem filt_hidden (e : Fin 160000) (c : Fin 128) :
    val_main_v8 (F := Ideal) x3 x10 x11 (ix2 e c) = silu ((∑ d : Fin 20, x3 (ix2 e d) * x10 (ix2 d c)) + x11 (ix1 c)) := by
  rw [val_main_v8_apply, val_main_call0_v5_apply, val_main_call0_v4_apply, val_main_call0_cst_0_apply,
    val_main_call0_v3_apply, val_main_call0_v2_apply, val_main_call0_cst_apply, val_main_call0_v1_apply,
    val_main_call0_v0_apply, filt_pre]
  exact gate_spelled _

/-- The filter entries: the perceptron of the radial basis row, times the cutoff. -/
theorem filt_at (e : Fin 160000) (j : Fin 384) :
    val_main_v15 (F := Ideal) x3 x5 x10 x11 x12 x13 (ix2 e j)
      = filtAt (mlp (fn2 x3) (fn2 x10) (fn1 x11) (fn2 x12) (fn1 x13)) (fn1 x5) e j := by
  have el : ∀ k : Fin 128, lidx_main_v9 (ix2 e j) k = ix2 e k := fun k =>
    funext fun a => Fin.ext (by match a with | ⟨0, _⟩ => rfl | ⟨1, _⟩ => rfl)
  have er : ∀ k : Fin 128, ridx_main_v9 (ix2 e j) k = ix2 k j := fun k =>
    funext fun a => Fin.ext (by match a with | ⟨0, _⟩ => rfl | ⟨1, _⟩ => rfl)
  have eb : idx_main_v10 (idx_main_v11 (ix2 e j)) = ix1 j :=
    funext fun a => Fin.ext (by match a with | ⟨0, _⟩ => rfl)
  have ec : idx_main_v13 (idx_main_v14 (ix2 e j)) = ix1 e :=
    funext fun a => Fin.ext (by match a with | ⟨0, _⟩ => rfl)
  rw [val_main_v15_apply, val_main_v12_apply, val_main_v9_apply, val_main_v11_apply, val_main_v10_apply, eb,
    val_main_v14_apply, val_main_v13_apply, ec]
  simp only [el, er, filt_hidden, Ideal.addf_def, Ideal.mulf_def]
  rfl

/-- The three bands of the filter. -/
theorem filt_band0 (e : Fin 160000) (l : Fin 128) :
    val_main_v16 (F := Ideal) x3 x5 x10 x11 x12 x13 (ix2 e l)
      = filtAt (mlp (fn2 x3) (fn2 x10) (fn1 x11) (fn2 x12) (fn1 x13)) (fn1 x5) e ⟨l.val, by omega⟩ := by
  have ei : idx_main_v16 (ix2 e l) = ix2 e (⟨l.val, by omega⟩ : Fin 384) :=
    funext fun a => Fin.ext (by match a with | ⟨0, _⟩ => rfl | ⟨1, _⟩ => rfl)
  rw [val_main_v16_apply, ei, filt_at]

theorem filt_band1 (e : Fin 160000) (l : Fin 128) :
    val_main_v17 (F := Ideal) x3 x5 x10 x11 x12 x13 (ix2 e l)
      = filtAt (mlp (fn2 x3) (fn2 x10) (fn1 x11) (fn2 x12) (fn1 x13)) (fn1 x5) e ⟨128 + l.val, by omega⟩ := by
  have ei : idx_main_v17 (ix2 e l) = ix2 e (⟨128 + l.val, by omega⟩ : Fin 384) :=
    funext fun a => Fin.ext (by match a with | ⟨0, _⟩ => rfl | ⟨1, _⟩ => rfl)
  rw [val_main_v17_apply, ei, filt_at]

theorem filt_band2 (e : Fin 160000) (l : Fin 128) :
    val_main_v18 (F := Ideal) x3 x5 x10 x11 x12 x13 (ix2 e l)
      = filtAt (mlp (fn2 x3) (fn2 x10) (fn1 x11) (fn2 x12) (fn1 x13)) (fn1 x5) e ⟨256 + l.val, by omega⟩ := by
  have ei : idx_main_v18 (ix2 e l) = ix2 e (⟨256 + l.val, by omega⟩ : Fin 384) :=
    funext fun a => Fin.ext (by match a with | ⟨0, _⟩ => rfl | ⟨1, _⟩ => rfl)
  rw [val_main_v18_apply, ei, filt_at]

end Filter

/-! ## The edge list's two word columns -/

section Words

variable (x2 : (⟨S2x160000, .i32⟩ : BufTy).Contents (Elt Ideal))

/-- Row 1 of the edge list, flattened: the source words. -/
theorem src_word (e : Fin 160000) : val_main_v3 (F := Ideal) x2 (ix1 e) = srcOf x2 e := by
  have ei : idx_main_v2 (idx_main_v3 (ix1 e)) = ix2 (1 : Fin 2) e :=
    funext fun a => Fin.ext (by match a with | ⟨0, _⟩ => rfl | ⟨1, _⟩ => exact Nat.mod_eq_of_lt e.isLt)
  rw [val_main_v3_apply, val_main_v2_apply, ei]
  rfl

/-- Row 0 of the edge list, flattened: the target words. -/
theorem tgt_word (e : Fin 160000) : val_main_v1 (F := Ideal) x2 (ix1 e) = tgtOf x2 e := by
  have ei : idx_main_v0 (idx_main_v1 (ix1 e)) = ix2 (0 : Fin 2) e :=
    funext fun a => Fin.ext (by match a with | ⟨0, _⟩ => rfl | ⟨1, _⟩ => exact Nat.mod_eq_of_lt e.isLt)
  rw [val_main_v1_apply, val_main_v0_apply, ei]
  rfl

/-- The four start-index columns of the gathers: the source word, moved up by the number of nodes when negative. -/
theorem src_col0 (e : Fin 160000) : val_main_v36 (F := Ideal) x2 (ix2 e (0 : Fin 1)) = wrapNeg (srcOf x2 e) := by
  have ei : idx_main_v36 (ix2 e (0 : Fin 1)) = ix1 e := funext fun a => Fin.ext (by match a with | ⟨0, _⟩ => rfl)
  rw [val_main_v36_apply, ei, val_main_v35_apply, val_main_v32_apply, val_main_v34_apply, val_main_v31_apply,
    val_main_c_apply, val_main_v33_apply, val_main_c_0_apply, src_word]
  rfl

theorem src_col1 (e : Fin 160000) : val_main_v47 (F := Ideal) x2 (ix2 e (0 : Fin 1)) = wrapNeg (srcOf x2 e) := by
  have ei : idx_main_v47 (ix2 e (0 : Fin 1)) = ix1 e := funext fun a => Fin.ext (by match a with | ⟨0, _⟩ => rfl)
  rw [val_main_v47_apply, ei, val_main_v46_apply, val_main_v43_apply, val_main_v45_apply, val_main_v42_apply,
    val_main_c_1_apply, val_main_v44_apply, val_main_c_2_apply, src_word]
  rfl

theorem src_col2 (e : Fin 160000) : val_main_v55 (F := Ideal) x2 (ix2 e (0 : Fin 1)) = wrapNeg (srcOf x2 e) := by
  have ei : idx_main_v55 (ix2 e (0 : Fin 1)) = ix1 e := funext fun a => Fin.ext (by match a with | ⟨0, _⟩ => rfl)
  rw [val_main_v55_apply, ei, val_main_v54_apply, val_main_v51_apply, val_main_v53_apply, val_main_v50_apply,
    val_main_c_3_apply, val_main_v52_apply, val_main_c_4_apply, src_word]
  rfl

theorem src_col3 (e : Fin 160000) : val_main_v63 (F := Ideal) x2 (ix2 e (0 : Fin 1)) = wrapNeg (srcOf x2 e) := by
  have ei : idx_main_v63 (ix2 e (0 : Fin 1)) = ix1 e := funext fun a => Fin.ext (by match a with | ⟨0, _⟩ => rfl)
  rw [val_main_v63_apply, ei, val_main_v62_apply, val_main_v59_apply, val_main_v61_apply, val_main_v58_apply,
    val_main_c_5_apply, val_main_v60_apply, val_main_c_6_apply, src_word]
  rfl

/-- The three index columns of the scatter-adds: the target word as it stands. -/
theorem tgt_col0 (e : Fin 160000) : val_main_v40 (F := Ideal) x2 (ix2 e (0 : Fin 1)) = tgtOf x2 e := by
  have ei : idx_main_v40 (ix2 e (0 : Fin 1)) = ix1 e := funext fun a => Fin.ext (by match a with | ⟨0, _⟩ => rfl)
  rw [val_main_v40_apply, ei, tgt_word]

theorem tgt_col1 (e : Fin 160000) : val_main_v75 (F := Ideal) x2 (ix2 e (0 : Fin 1)) = tgtOf x2 e := by
  have ei : idx_main_v75 (ix2 e (0 : Fin 1)) = ix1 e := funext fun a => Fin.ext (by match a with | ⟨0, _⟩ => rfl)
  rw [val_main_v75_apply, ei, tgt_word]

theorem tgt_col2 (e : Fin 160000) : val_main_v79 (F := Ideal) x2 (ix2 e (0 : Fin 1)) = tgtOf x2 e := by
  have ei : idx_main_v79 (ix2 e (0 : Fin 1)) = ix1 e := funext fun a => Fin.ext (by match a with | ⟨0, _⟩ => rfl)
  rw [val_main_v79_apply, ei, tgt_word]

/-- The row a gather reads when its start word is the moved-up source word. -/
theorem row_eq (w s : BitVec 32) (h : w = wrapNeg s) (hlt : min w.toInt.toNat (20000 - 1) < 20000) :
    (⟨min w.toInt.toNat (20000 - 1), hlt⟩ : Fin 20000) = rowOf s := by
  subst h
  rfl

end Words

/-! ## The gathers: rows of the node perceptron's bands and of the vector features at the source -/

section Gathers

variable (x0 : (⟨S20000x128, .f32⟩ : BufTy).Contents (Elt Ideal)) (x1 : (⟨S20000x3x128, .f32⟩ : BufTy).Contents (Elt Ideal))
  (x2 : (⟨S2x160000, .i32⟩ : BufTy).Contents (Elt Ideal))
  (x6 : (⟨S128x384, .f32⟩ : BufTy).Contents (Elt Ideal))
  (x7 : (⟨S384, .f32⟩ : BufTy).Contents (Elt Ideal)) (x8 : (⟨S384x384, .f32⟩ : BufTy).Contents (Elt Ideal))
  (x9 : (⟨S384, .f32⟩ : BufTy).Contents (Elt Ideal))

/-- The three bands of the node perceptron's output. -/
theorem node_band0 (n : Fin 20000) (l : Fin 128) :
    val_main_v28 (F := Ideal) x0 x6 x7 x8 x9 (ix2 n l)
      = mlp (fn2 x0) (fn2 x6) (fn1 x7) (fn2 x8) (fn1 x9) n ⟨l.val, by omega⟩ := by
  have ei : idx_main_v28 (ix2 n l) = ix2 n (⟨l.val, by omega⟩ : Fin 384) :=
    funext fun a => Fin.ext (by match a with | ⟨0, _⟩ => rfl | ⟨1, _⟩ => rfl)
  rw [val_main_v28_apply, ei, node_mlp]

theorem node_band1 (n : Fin 20000) (l : Fin 128) :
    val_main_v29 (F := Ideal) x0 x6 x7 x8 x9 (ix2 n l)
      = mlp (fn2 x0) (fn2 x6) (fn1 x7) (fn2 x8) (fn1 x9) n ⟨128 + l.val, by omega⟩ := by
  have ei : idx_main_v29 (ix2 n l) = ix2 n (⟨128 + l.val, by omega⟩ : Fin 384) :=
    funext fun a => Fin.ext (by match a with | ⟨0, _⟩ => rfl | ⟨1, _⟩ => rfl)
  rw [val_main_v29_apply, ei, node_mlp]

theorem node_band2 (n : Fin 20000) (l : Fin 128) :
    val_main_v30 (F := Ideal) x0 x6 x7 x8 x9 (ix2 n l)
      = mlp (fn2 x0) (fn2 x6) (fn1 x7) (fn2 x8) (fn1 x9) n ⟨256 + l.val, by omega⟩ := by
  have ei : idx_main_v30 (ix2 n l) = ix2 n (⟨256 + l.val, by omega⟩ : Fin 384) :=
    funext fun a => Fin.ext (by match a with | ⟨0, _⟩ => rfl | ⟨1, _⟩ => rfl)
  rw [val_main_v30_apply, ei, node_mlp]

/-- Each gathered row is the band's row at the source node. -/
theorem gath_band0 (e : Fin 160000) (l : Fin 128) :
    val_main_v37 (F := Ideal) x0 x2 x6 x7 x8 x9 (ix2 e l)
      = mlp (fn2 x0) (fn2 x6) (fn1 x7) (fn2 x8) (fn1 x9) (rowOf (srcOf x2 e)) ⟨l.val, by omega⟩ := by
  unfold val_main_v37
  refine (ScatterGatherRows.gather_rows_apply gather_S20000x128_S160000x1_S160000x128_1_0_n_n_0_1_1128
    rfl rfl rfl rfl rfl (by norm_num) _ _ e l).trans ?_
  rw [row_eq _ _ (src_col0 x2 e), node_band0]

theorem gath_band1 (e : Fin 160000) (l : Fin 128) :
    val_main_v48 (F := Ideal) x0 x2 x6 x7 x8 x9 (ix2 e l)
      = mlp (fn2 x0) (fn2 x6) (fn1 x7) (fn2 x8) (fn1 x9) (rowOf (srcOf x2 e)) ⟨128 + l.val, by omega⟩ := by
  unfold val_main_v48
  refine (ScatterGatherRows.gather_rows_apply gather_S20000x128_S160000x1_S160000x128_1_0_n_n_0_1_1128
    rfl rfl rfl rfl rfl (by norm_num) _ _ e l).trans ?_
  rw [row_eq _ _ (src_col1 x2 e), node_band1]

theorem gath_band2 (e : Fin 160000) (l : Fin 128) :
    val_main_v56 (F := Ideal) x0 x2 x6 x7 x8 x9 (ix2 e l)
      = mlp (fn2 x0) (fn2 x6) (fn1 x7) (fn2 x8) (fn1 x9) (rowOf (srcOf x2 e)) ⟨256 + l.val, by omega⟩ := by
  unfold val_main_v56
  refine (ScatterGatherRows.gather_rows_apply gather_S20000x128_S160000x1_S160000x128_1_0_n_n_0_1_1128
    rfl rfl rfl rfl rfl (by norm_num) _ _ e l).trans ?_
  rw [row_eq _ _ (src_col2 x2 e), node_band2]

/-- The gathered vector features are the source node's. -/
theorem gath_mu (e : Fin 160000) (a : Fin 3) (l : Fin 128) :
    val_main_v64 (F := Ideal) x1 x2 (ix3 e a l) = fn3 x1 (rowOf (srcOf x2 e)) a l := by
  unfold val_main_v64
  refine (ScatterGatherRows.gather_slabs_apply gather_S20000x3x128_S160000x1_S160000x3x128_12_0_n_n_0_1_13128
    rfl rfl rfl rfl rfl (by norm_num) _ _ e a l).trans ?_
  rw [row_eq _ _ (src_col3 x2 e)]
  rfl

end Gathers

/-! ## The edge messages -/

section Messages

variable (x0 : (⟨S20000x128, .f32⟩ : BufTy).Contents (Elt Ideal)) (x1 : (⟨S20000x3x128, .f32⟩ : BufTy).Contents (Elt Ideal))
  (x2 : (⟨S2x160000, .i32⟩ : BufTy).Contents (Elt Ideal)) (x3 : (⟨S160000x20, .f32⟩ : BufTy).Contents (Elt Ideal))
  (x4 : (⟨S160000x3, .f32⟩ : BufTy).Contents (Elt Ideal)) (x5 : (⟨S160000, .f32⟩ : BufTy).Contents (Elt Ideal))
  (x6 : (⟨S128x384, .f32⟩ : BufTy).Contents (Elt Ideal)) (x7 : (⟨S384, .f32⟩ : BufTy).Contents (Elt Ideal))
  (x8 : (⟨S384x384, .f32⟩ : BufTy).Contents (Elt Ideal)) (x9 : (⟨S384, .f32⟩ : BufTy).Contents (Elt Ideal))
  (x10 : (⟨S20x128, .f32⟩ : BufTy).Contents (Elt Ideal)) (x11 : (⟨S128, .f32⟩ : BufTy).Contents (Elt Ideal))
  (x12 : (⟨S128x384, .f32⟩ : BufTy).Contents (Elt Ideal)) (x13 : (⟨S384, .f32⟩ : BufTy).Contents (Elt Ideal))

/-- The scalar message: the first band at the source times the first filter band. -/
theorem msg_scalar (e : Fin 160000) (l : Fin 128) :
    val_main_v38 (F := Ideal) x0 x2 x3 x5 x6 x7 x8 x9 x10 x11 x12 x13 (ix2 e l)
      = mlp (fn2 x0) (fn2 x6) (fn1 x7) (fn2 x8) (fn1 x9) (rowOf (srcOf x2 e)) ⟨l.val, by omega⟩ * filtAt (mlp (fn2 x3) (fn2 x10) (fn1 x11) (fn2 x12) (fn1 x13)) (fn1 x5) e ⟨l.val, by omega⟩ := by
  rw [val_main_v38_apply, gath_band0, filt_band0]
  rfl

/-- The second band at the source times the second filter band. -/
theorem msg_mid (e : Fin 160000) (l : Fin 128) :
    val_main_v49 (F := Ideal) x0 x2 x3 x5 x6 x7 x8 x9 x10 x11 x12 x13 (ix2 e l)
      = mlp (fn2 x0) (fn2 x6) (fn1 x7) (fn2 x8) (fn1 x9) (rowOf (srcOf x2 e)) ⟨128 + l.val, by omega⟩ * filtAt (mlp (fn2 x3) (fn2 x10) (fn1 x11) (fn2 x12) (fn1 x13)) (fn1 x5) e ⟨128 + l.val, by omega⟩ := by
  rw [val_main_v49_apply, gath_band1, filt_band1]
  rfl

/-- The third band at the source times the third filter band. -/
theorem msg_hi (e : Fin 160000) (l : Fin 128) :
    val_main_v57 (F := Ideal) x0 x2 x3 x5 x6 x7 x8 x9 x10 x11 x12 x13 (ix2 e l)
      = mlp (fn2 x0) (fn2 x6) (fn1 x7) (fn2 x8) (fn1 x9) (rowOf (srcOf x2 e)) ⟨256 + l.val, by omega⟩ * filtAt (mlp (fn2 x3) (fn2 x10) (fn1 x11) (fn2 x12) (fn1 x13)) (fn1 x5) e ⟨256 + l.val, by omega⟩ := by
  rw [val_main_v57_apply, gath_band2, filt_band2]
  rfl

/-- The vector message: the edge's unit vector times the second product, plus the source's vector features times the
    third. -/
theorem msg_vector (e : Fin 160000) (a : Fin 3) (l : Fin 128) :
    val_main_v73 (F := Ideal) x0 x1 x2 x3 x4 x5 x6 x7 x8 x9 x10 x11 x12 x13 (ix3 e a l)
      = fn2 x4 e a * (mlp (fn2 x0) (fn2 x6) (fn1 x7) (fn2 x8) (fn1 x9) (rowOf (srcOf x2 e)) ⟨128 + l.val, by omega⟩ * filtAt (mlp (fn2 x3) (fn2 x10) (fn1 x11) (fn2 x12) (fn1 x13)) (fn1 x5) e ⟨128 + l.val, by omega⟩)
        + fn3 x1 (rowOf (srcOf x2 e)) a l * (mlp (fn2 x0) (fn2 x6) (fn1 x7) (fn2 x8) (fn1 x9) (rowOf (srcOf x2 e)) ⟨256 + l.val, by omega⟩ * filtAt (mlp (fn2 x3) (fn2 x10) (fn1 x11) (fn2 x12) (fn1 x13)) (fn1 x5) e ⟨256 + l.val, by omega⟩) := by
  have e67 : idx_main_v65 (idx_main_v67 (ix3 e a l)) = ix2 e a :=
    funext fun d => Fin.ext (by match d with | ⟨0, _⟩ => rfl | ⟨1, _⟩ => rfl)
  have e68 : idx_main_v66 (idx_main_v68 (ix3 e a l)) = ix2 e l :=
    funext fun d => Fin.ext (by match d with | ⟨0, _⟩ => rfl | ⟨1, _⟩ => rfl)
  have e71 : idx_main_v70 (idx_main_v71 (ix3 e a l)) = ix2 e l :=
    funext fun d => Fin.ext (by match d with | ⟨0, _⟩ => rfl | ⟨1, _⟩ => rfl)
  rw [val_main_v73_apply, val_main_v69_apply, val_main_v67_apply, val_main_v65_apply, e67, val_main_v68_apply,
    val_main_v66_apply, e68, msg_mid, val_main_v72_apply, gath_mu, val_main_v71_apply, val_main_v70_apply, e71, msg_hi]
  rfl

end Messages

/-! ## The scatter-adds, the degree, and the two results -/

section Sums

variable (x0 : (⟨S20000x128, .f32⟩ : BufTy).Contents (Elt Ideal)) (x1 : (⟨S20000x3x128, .f32⟩ : BufTy).Contents (Elt Ideal))
  (x2 : (⟨S2x160000, .i32⟩ : BufTy).Contents (Elt Ideal)) (x3 : (⟨S160000x20, .f32⟩ : BufTy).Contents (Elt Ideal))
  (x4 : (⟨S160000x3, .f32⟩ : BufTy).Contents (Elt Ideal)) (x5 : (⟨S160000, .f32⟩ : BufTy).Contents (Elt Ideal))
  (x6 : (⟨S128x384, .f32⟩ : BufTy).Contents (Elt Ideal)) (x7 : (⟨S384, .f32⟩ : BufTy).Contents (Elt Ideal))
  (x8 : (⟨S384x384, .f32⟩ : BufTy).Contents (Elt Ideal)) (x9 : (⟨S384, .f32⟩ : BufTy).Contents (Elt Ideal))
  (x10 : (⟨S20x128, .f32⟩ : BufTy).Contents (Elt Ideal)) (x11 : (⟨S128, .f32⟩ : BufTy).Contents (Elt Ideal))
  (x12 : (⟨S128x384, .f32⟩ : BufTy).Contents (Elt Ideal)) (x13 : (⟨S384, .f32⟩ : BufTy).Contents (Elt Ideal))

/-- The scalar messages summed at their targets. -/
theorem sum_scalar (n : Fin 20000) (l : Fin 128) :
    val_main_v41 (F := Ideal) x0 x2 x3 x5 x6 x7 x8 x9 x10 x11 x12 x13 (ix2 n l) = wholeScalar (fn2 x0) (srcOf x2) (tgtOf x2) (fn2 x3) (fn1 x5) (fn2 x6) (fn1 x7) (fn2 x8) (fn1 x9) (fn2 x10) (fn1 x11) (fn2 x12) (fn1 x13) n l := by
  unfold val_main_v41
  refine (ScatterGatherRows.scatterAdd_rows_apply scatter_S20000x128_S160000x1_S160000x128_1_0_0_1
    rfl rfl rfl rfl _ _ _ n l).trans ?_
  rw [val_main_v39_apply, val_main_cst_apply]
  simp only [tgt_col0, msg_scalar, Ideal.ofBits_def, Ideal.ofBits_zero_f32]
  rfl

/-- The vector messages summed at their targets. -/
theorem sum_vector (n : Fin 20000) (a : Fin 3) (l : Fin 128) :
    val_main_v76 (F := Ideal) x0 x1 x2 x3 x4 x5 x6 x7 x8 x9 x10 x11 x12 x13 (ix3 n a l) = wholeVector (fn2 x0) (fn3 x1) (srcOf x2) (tgtOf x2) (fn2 x3) (fn2 x4) (fn1 x5) (fn2 x6) (fn1 x7) (fn2 x8) (fn1 x9) (fn2 x10) (fn1 x11) (fn2 x12) (fn1 x13) n a l := by
  unfold val_main_v76
  refine (ScatterGatherRows.scatterAdd_slabs_apply scatter_S20000x3x128_S160000x1_S160000x3x128_12_0_0_1
    rfl rfl rfl rfl _ _ _ n a l).trans ?_
  rw [val_main_v74_apply, val_main_cst_7_apply]
  simp only [tgt_col1, msg_vector, Ideal.ofBits_def, Ideal.ofBits_zero_f32]
  rfl

/-- A one per edge summed at the targets: the number of edges pointing at the node. -/
theorem degree (n : Fin 20000) : val_main_v80 (F := Ideal) x2 (ix1 n) = cnt id (tgtOf x2) n := by
  unfold val_main_v80
  refine (ScatterGatherRows.scatterAdd_vec_apply scatter_S20000_S160000x1_S160000_n_0_0_1
    rfl rfl rfl rfl _ _ _ n).trans ?_
  rw [val_main_v78_apply, val_main_cst_9_apply]
  simp only [tgt_col2, val_main_v77_apply, val_main_cst_8_apply, Ideal.ofBits_def, Ideal.ofBits_zero_f32,
    Ideal.ofBits_one_f32]
  rfl

/-- The divisor: the larger of the degree and one. -/
theorem denom (n : Fin 20000) : val_main_v82 (F := Ideal) x2 (ix1 n) = max (cnt id (tgtOf x2) n) 1 := by
  rw [val_main_v82_apply, degree, val_main_v81_apply, val_main_cst_10_apply]
  simp only [Ideal.maximumf_def, Ideal.ofBits_def, Ideal.ofBits_one_f32]

/-- The scalar result at an entry. -/
theorem out_q_at (n : Fin 20000) (l : Fin 128) :
    val_main_v89 (F := Ideal) x0 x2 x3 x5 x6 x7 x8 x9 x10 x11 x12 x13 (ix2 n l) = wholeQ (fn2 x0) (srcOf x2) (tgtOf x2) (fn2 x3) (fn1 x5) (fn2 x6) (fn1 x7) (fn2 x8) (fn1 x9) (fn2 x10) (fn1 x11) (fn2 x12) (fn1 x13) n l := by
  have e84 : idx_main_v83 (idx_main_v84 (ix2 n l)) = ix1 n :=
    funext fun d => Fin.ext (by match d with | ⟨0, _⟩ => rfl)
  rw [val_main_v89_apply, val_main_v85_apply, sum_scalar, val_main_v84_apply, val_main_v83_apply, e84, denom]
  rfl

/-- The vector result at an entry. -/
theorem out_mu_at (n : Fin 20000) (a : Fin 3) (l : Fin 128) :
    val_main_v90 (F := Ideal) x0 x1 x2 x3 x4 x5 x6 x7 x8 x9 x10 x11 x12 x13 (ix3 n a l) = wholeMu (fn2 x0) (fn3 x1) (srcOf x2) (tgtOf x2) (fn2 x3) (fn2 x4) (fn1 x5) (fn2 x6) (fn1 x7) (fn2 x8) (fn1 x9) (fn2 x10) (fn1 x11) (fn2 x12) (fn1 x13) n a l := by
  have e87 : idx_main_v86 (idx_main_v87 (ix3 n a l)) = ix1 n :=
    funext fun d => Fin.ext (by match d with | ⟨0, _⟩ => rfl)
  rw [val_main_v90_apply, val_main_v88_apply, sum_vector, val_main_v87_apply, val_main_v86_apply, e87, denom]
  rfl

/-- The scalar result as an array. -/
theorem out_q : val_main_v89 (F := Ideal) x0 x2 x3 x5 x6 x7 x8 x9 x10 x11 x12 x13 = wholeOutQ x0 x2 x3 x5 x6 x7 x8 x9 x10 x11 x12 x13 := by
  funext i
  obtain ⟨n, l, rfl⟩ : ∃ (n : Fin 20000) (l : Fin 128), i = ix2 n l := ⟨i 0, i 1, eq_ix2 i⟩
  rw [out_q_at]
  rfl

/-- The vector result as an array. -/
theorem out_mu : val_main_v90 (F := Ideal) x0 x1 x2 x3 x4 x5 x6 x7 x8 x9 x10 x11 x12 x13 = wholeOutMu x0 x1 x2 x3 x4 x5 x6 x7 x8 x9 x10 x11 x12 x13 := by
  funext i
  obtain ⟨n, a, l, rfl⟩ : ∃ (n : Fin 20000) (a : Fin 3) (l : Fin 128), i = ix3 n a l := ⟨i 0, i 1, i 2, eq_ix3 i⟩
  rw [out_mu_at]
  rfl

end Sums

variable (m : (ℓ : Loc nD τ sig) → Buf (Elt Ideal) ℓ)

/-- The scalar result. -/
theorem q_value (c : Dev nD) :
    (Cert.ReferenceIdeal.Value.res_main_v89 (F := Ideal) m c : S20000x128.Idx → EReal)
      = wholeOutQ (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (val_main_v89_eq (F := Ideal) m c).trans (out_q _ _ _ _ _ _ _ _ _ _ _ _)

/-- The vector result. -/
theorem mu_value (c : Dev nD) :
    (Cert.ReferenceIdeal.Value.res_main_v90 (F := Ideal) m c : S20000x3x128.Idx → EReal)
      = wholeOutMu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (val_main_v90_eq (F := Ideal) m c).trans (out_mu _ _ _ _ _ _ _ _ _ _ _ _ _ _)

end Cert.ReferenceIdeal.RefValue

end
-- ==== Proof.Algebra.lean ====
/-
  The two spellings of the layer agree when every word of the edge list is a node number.

  A sum over all table rows weighted by the indicator "row number = s" has one nonzero term, the row s; a sum over all
  edges weighted by the indicator "target = n" is the sum over the edges whose target is n. Zero times anything is zero and
  one times anything is itself on the extended reals, so neither step needs the entries to be finite. A node number is not
  negative, so moving negative words up changes nothing, and it is below the table's length, so clamping changes nothing.
-/
import proofs.«407274_j17514876634209_3_alg».proof.Proof.Spec

noncomputable section

open scoped BigOperators

namespace PaiNN

open Idealize.ShloMosaic Idealize.ShloMosaic.ValueIdx

/-! ## Words that are node numbers -/

/-- A word whose signed reading is not negative has the same signed and unsigned reading. -/
theorem toInt_eq_toNat_of_nonneg (w : BitVec 32) (h : 0 ≤ w.toInt) : w.toInt = (w.toNat : Int) := by
  have hlt := w.isLt
  rw [BitVec.toInt_eq_toNat_cond] at h ⊢
  split_ifs at h ⊢ <;> omega

/-- A non-negative word is the word of the number n below 20000 exactly when its signed reading is n. -/
theorem eq_ofNat_iff (w : BitVec 32) (n : ℕ) (hn : n < 20000) (h0 : 0 ≤ w.toInt) :
    w = BitVec.ofNat 32 n ↔ w.toInt = (n : Int) := by
  rw [toInt_eq_toNat_of_nonneg w h0]
  have hmod : n % 2 ^ 32 = n := Nat.mod_eq_of_lt (by omega)
  constructor
  · intro h
    rw [h, BitVec.toNat_ofNat, hmod]
  · intro h
    apply BitVec.eq_of_toNat_eq
    rw [BitVec.toNat_ofNat, hmod]
    exact_mod_cast h

/-- Moving negative words up leaves a non-negative word alone. -/
theorem wrapNeg_of_nonneg (t : BitVec 32) (h : 0 ≤ t.toInt) : wrapNeg t = t := by
  show (if BitVec.ofBool (t.slt 0#32) = 1#1 then IntOp.addi t 20000#32 else t) = t
  have hs : t.slt 0#32 = false := by
    unfold BitVec.slt
    have h0 : (0#32 : BitVec 32).toInt = 0 := by decide
    rw [h0]
    exact decide_eq_false (by omega)
  rw [hs]
  exact if_neg (by decide)

/-- The row read for a node number is that number. -/
theorem rowOf_val (s : BitVec 32) (h0 : 0 ≤ s.toInt) (h1 : s.toInt < 20000) : ((rowOf s).val : Int) = s.toInt := by
  show ((min (wrapNeg s).toInt.toNat 19999 : ℕ) : Int) = s.toInt
  rw [wrapNeg_of_nonneg s h0]
  omega

/-! ## The gather: one row of the indicator sum survives -/

theorem gathAt_eq (src : Fin NE → BitVec 32) (slab : Fin NN → Fin 768 → EReal) (e : Fin NE) (j : Fin 768)
    (h0 : 0 ≤ (src e).toInt) (h1 : (src e).toInt < 20000) : gathAt src slab e j = slab (rowOf (src e)) j := by
  unfold gathAt
  rw [Finset.sum_eq_single (rowOf (src e))]
  · have hrow : src e = BitVec.ofNat 32 (rowOf (src e)).val :=
      (eq_ofNat_iff (src e) _ (rowOf (src e)).isLt h0).mpr (rowOf_val (src e) h0 h1).symm
    unfold ind
    rw [if_pos hrow, one_mul]
  · intro n _ hne
    have hrow : src e ≠ BitVec.ofNat 32 n.val := by
      intro hc
      have h2 := (eq_ofNat_iff (src e) _ n.isLt h0).mp hc
      apply hne
      apply Fin.ext
      have h3 := rowOf_val (src e) h0 h1
      omega
    unfold ind
    rw [if_neg hrow, zero_mul]
  · intro hc
    exact absurd (Finset.mem_univ _) hc

/-! ## The table and the messages at their two kinds of column -/

/-- Below column 384 the table holds the perceptron's output. -/
theorem slabAt_lo (x muflat : Fin NN → Fin 384 → EReal) (n : Fin NN) (j : ℕ) (hj : j < 384) :
    slabAt x muflat n ⟨j, by omega⟩ = x n ⟨j, hj⟩ := dif_pos hj

/-- Column 384 + (128 a + l) of the table holds entry l of the node's vector feature row a. -/
theorem slabAt_hi (x : Fin NN → Fin 384 → EReal) (mu : Fin NN → Fin 3 → Fin 128 → EReal) (n : Fin NN)
    (a : Fin 3) (l : Fin 128) :
    slabAt x (muFlat mu) n ⟨384 + (128 * a.val + l.val), by omega⟩ = mu n a l := by
  have ha := a.isLt
  have hl := l.isLt
  unfold slabAt
  rw [dif_neg (by show ¬ (384 + (128 * a.val + l.val) < 384); omega)]
  unfold muFlat
  have e1 : ∀ (p : (384 + (128 * a.val + l.val) - 384) / 128 < 3),
      (⟨(384 + (128 * a.val + l.val) - 384) / 128, p⟩ : Fin 3) = a := fun p => Fin.ext (by show _ / 128 = a.val; omega)
  have e2 : ∀ (p : (384 + (128 * a.val + l.val) - 384) % 128 < 128),
      (⟨(384 + (128 * a.val + l.val) - 384) % 128, p⟩ : Fin 128) = l := fun p => Fin.ext (by show _ % 128 = l.val; omega)
  show mu n ⟨(384 + (128 * a.val + l.val) - 384) / 128, _⟩ ⟨(384 + (128 * a.val + l.val) - 384) % 128, _⟩ = mu n a l
  rw [e1, e2]

/-- Below column 128 an edge's message entry is its scalar message. -/
theorem msgAt_lo (g : Fin NE → Fin 768 → EReal) (f : Fin NE → Fin 384 → EReal) (uv : Fin NE → Fin 3 → EReal)
    (e : Fin NE) (l : ℕ) (hl : l < 128) :
    msgAt g f uv e ⟨l, by omega⟩ = g e ⟨l, by omega⟩ * f e ⟨l, by omega⟩ := dif_pos hl

/-- Column 128 + (128 a + l) of an edge's message is entry l of component a of its vector message. -/
theorem msgAt_hi (g : Fin NE → Fin 768 → EReal) (f : Fin NE → Fin 384 → EReal) (uv : Fin NE → Fin 3 → EReal)
    (e : Fin NE) (a : Fin 3) (l : Fin 128) :
    msgAt g f uv e ⟨128 + (128 * a.val + l.val), by omega⟩ = vecAt g f uv e a l := by
  have ha := a.isLt
  have hl := l.isLt
  unfold msgAt
  rw [dif_neg (by show ¬ (128 + (128 * a.val + l.val) < 128); omega)]
  have e1 : ∀ (p : (128 + (128 * a.val + l.val) - 128) / 128 < 3),
      (⟨(128 + (128 * a.val + l.val) - 128) / 128, p⟩ : Fin 3) = a := fun p => Fin.ext (by show _ / 128 = a.val; omega)
  have e2 : ∀ (p : (128 + (128 * a.val + l.val) - 128) % 128 < 128),
      (⟨(128 + (128 * a.val + l.val) - 128) % 128, p⟩ : Fin 128) = l := fun p => Fin.ext (by show _ % 128 = l.val; omega)
  show vecAt g f uv e ⟨(128 + (128 * a.val + l.val) - 128) / 128, _⟩ ⟨(128 + (128 * a.val + l.val) - 128) % 128, _⟩ = vecAt g f uv e a l
  rw [e1, e2]

/-! ## The scatter-add: the indicator selects the edges pointing at the node -/

theorem scatAt_eq (tgt : Fin NE → BitVec 32) (msg : Fin NE → Fin 512 → EReal) (n : Fin NN) (j : Fin 512)
    (h : ∀ e, 0 ≤ (tgt e).toInt ∧ (tgt e).toInt < 20000) :
    scatAt tgt msg n j = 0 + ∑ e : Fin NE, if (tgt e).toInt = (n.val : Int) then msg e j else 0 := by
  unfold scatAt
  rw [zero_add]
  apply Finset.sum_congr rfl
  intro e _
  unfold ind
  by_cases hc : (tgt e).toInt = (n.val : Int)
  · rw [if_pos hc, if_pos ((eq_ofNat_iff (tgt e) n.val n.isLt (h e).1).mpr hc).symm, one_mul]
  · rw [if_neg hc, if_neg (fun h' => hc ((eq_ofNat_iff (tgt e) n.val n.isLt (h e).1).mp h'.symm)), zero_mul]

/-- Counting the edges pointing at a node: moving negative target words up changes no count. -/
theorem cnt_wrapNeg (tgt : Fin NE → BitVec 32) (n : Fin NN) (h : ∀ e, 0 ≤ (tgt e).toInt ∧ (tgt e).toInt < 20000) :
    cnt wrapNeg tgt n = cnt id tgt n := by
  unfold cnt
  refine congrArg (fun s : EReal => 0 + s) (Finset.sum_congr rfl ?_)
  intro e _
  rw [wrapNeg_of_nonneg (tgt e) (h e).1]
  rfl

/-! ## The two spellings, entry by entry -/

section Entry

variable (q : Fin NN → Fin 128 → EReal) (mu : Fin NN → Fin 3 → Fin 128 → EReal) (src tgt : Fin NE → BitVec 32)
  (rbf : Fin NE → Fin 20 → EReal) (uv : Fin NE → Fin 3 → EReal) (cut : Fin NE → EReal)
  (W1 : Fin 128 → Fin 384 → EReal) (b1 : Fin 384 → EReal) (W2 : Fin 384 → Fin 384 → EReal) (b2 : Fin 384 → EReal)
  (Wf1 : Fin 20 → Fin 128 → EReal) (bf1 : Fin 128 → EReal) (Wf2 : Fin 128 → Fin 384 → EReal) (bf2 : Fin 384 → EReal)

/-- The gathered table row of an edge, below column 384: the perceptron output of the edge's source node. -/
theorem gath_lo (hr : InRange src tgt) (e : Fin NE) (j : ℕ) (hj : j < 384) :
    gathAt src (tiledSlab q mu W1 b1 W2 b2) e ⟨j, by omega⟩ = mlp q W1 b1 W2 b2 (rowOf (src e)) ⟨j, hj⟩ := by
  rw [gathAt_eq src _ e _ (hr e).1.1 (hr e).1.2]
  exact slabAt_lo _ _ _ j hj

/-- The gathered table row of an edge, at column 384 + (128 a + l): the source node's vector feature. -/
theorem gath_hi (hr : InRange src tgt) (e : Fin NE) (a : Fin 3) (l : Fin 128) :
    gathAt src (tiledSlab q mu W1 b1 W2 b2) e ⟨384 + (128 * a.val + l.val), by omega⟩ = mu (rowOf (src e)) a l := by
  rw [gathAt_eq src _ e _ (hr e).1.1 (hr e).1.2]
  exact slabAt_hi _ mu _ a l

theorem tiledQ_eq_wholeQ (hr : InRange src tgt) (n : Fin NN) (l : Fin 128) :
    tiledQ q mu src tgt rbf uv cut W1 b1 W2 b2 Wf1 bf1 Wf2 bf2 n l
      = wholeQ q src tgt rbf cut W1 b1 W2 b2 Wf1 bf1 Wf2 bf2 n l := by
  have hl := l.isLt
  unfold tiledQ wholeQ
  rw [cnt_wrapNeg tgt n (fun e => (hr e).2)]
  refine congrArg (fun s : EReal => q n l + Ideal.div s (max (cnt id tgt n) 1)) ?_
  unfold tiledNode wholeScalar
  rw [scatAt_eq tgt _ n _ (fun e => (hr e).2)]
  refine congrArg (fun s : EReal => 0 + s) (Finset.sum_congr rfl ?_)
  intro e _
  have key : tiledMsg q mu src rbf uv cut W1 b1 W2 b2 Wf1 bf1 Wf2 bf2 e ⟨l.val, by omega⟩
      = mlp q W1 b1 W2 b2 (rowOf (src e)) ⟨l.val, by omega⟩ * filtAt (mlp rbf Wf1 bf1 Wf2 bf2) cut e ⟨l.val, by omega⟩ := by
    unfold tiledMsg
    rw [msgAt_lo _ _ _ e l.val hl, gath_lo q mu src tgt W1 b1 W2 b2 hr e l.val (by omega)]
  rw [key]

theorem tiledMu_eq_wholeMu (hr : InRange src tgt) (n : Fin NN) (a : Fin 3) (l : Fin 128) :
    tiledMu q mu src tgt rbf uv cut W1 b1 W2 b2 Wf1 bf1 Wf2 bf2 n a l
      = wholeMu q mu src tgt rbf uv cut W1 b1 W2 b2 Wf1 bf1 Wf2 bf2 n a l := by
  have hl := l.isLt
  have ha := a.isLt
  unfold tiledMu wholeMu
  rw [cnt_wrapNeg tgt n (fun e => (hr e).2)]
  refine congrArg (fun s : EReal => mu n a l + Ideal.div s (max (cnt id tgt n) 1)) ?_
  unfold tiledNode wholeVector
  rw [scatAt_eq tgt _ n _ (fun e => (hr e).2)]
  refine congrArg (fun s : EReal => 0 + s) (Finset.sum_congr rfl ?_)
  intro e _
  have key : tiledMsg q mu src rbf uv cut W1 b1 W2 b2 Wf1 bf1 Wf2 bf2 e ⟨128 + (128 * a.val + l.val), by omega⟩
      = uv e a * (mlp q W1 b1 W2 b2 (rowOf (src e)) ⟨128 + l.val, by omega⟩ * filtAt (mlp rbf Wf1 bf1 Wf2 bf2) cut e ⟨128 + l.val, by omega⟩)
        + mu (rowOf (src e)) a l * (mlp q W1 b1 W2 b2 (rowOf (src e)) ⟨256 + l.val, by omega⟩ * filtAt (mlp rbf Wf1 bf1 Wf2 bf2) cut e ⟨256 + l.val, by omega⟩) := by
    unfold tiledMsg
    rw [msgAt_hi _ _ _ e a l]
    unfold vecAt
    rw [gath_lo q mu src tgt W1 b1 W2 b2 hr e (128 + l.val) (by omega),
      gath_lo q mu src tgt W1 b1 W2 b2 hr e (256 + l.val) (by omega),
      gath_hi q mu src tgt W1 b1 W2 b2 hr e a l]
  rw [key]

end Entry

/-! ## The two results as arrays -/

theorem tiledOutQ_eq_wholeOutQ (x0 : (⟨2, ![20000, 128]⟩ : Shape).Idx → EReal) (x1 : (⟨3, ![20000, 3, 128]⟩ : Shape).Idx → EReal)
    (x2 : (⟨2, ![2, 160000]⟩ : Shape).Idx → BitVec 32) (x3 : (⟨2, ![160000, 20]⟩ : Shape).Idx → EReal)
    (x4 : (⟨2, ![160000, 3]⟩ : Shape).Idx → EReal) (x5 : (⟨1, ![160000]⟩ : Shape).Idx → EReal)
    (x6 : (⟨2, ![128, 384]⟩ : Shape).Idx → EReal) (x7 : (⟨1, ![384]⟩ : Shape).Idx → EReal)
    (x8 : (⟨2, ![384, 384]⟩ : Shape).Idx → EReal) (x9 : (⟨1, ![384]⟩ : Shape).Idx → EReal)
    (x10 : (⟨2, ![20, 128]⟩ : Shape).Idx → EReal) (x11 : (⟨1, ![128]⟩ : Shape).Idx → EReal)
    (x12 : (⟨2, ![128, 384]⟩ : Shape).Idx → EReal) (x13 : (⟨1, ![384]⟩ : Shape).Idx → EReal)
    (h : ArgsInRange x2) : tiledOutQ x0 x1 x2 x3 x4 x5 x6 x7 x8 x9 x10 x11 x12 x13 = wholeOutQ x0 x2 x3 x5 x6 x7 x8 x9 x10 x11 x12 x13 := by
  unfold tiledOutQ wholeOutQ
  refine congrArg arr2 (funext fun n => funext fun l => ?_)
  exact tiledQ_eq_wholeQ _ _ _ _ _ _ _ _ _ _ _ _ _ _ _ h n l

theorem tiledOutMu_eq_wholeOutMu (x0 : (⟨2, ![20000, 128]⟩ : Shape).Idx → EReal) (x1 : (⟨3, ![20000, 3, 128]⟩ : Shape).Idx → EReal)
    (x2 : (⟨2, ![2, 160000]⟩ : Shape).Idx → BitVec 32) (x3 : (⟨2, ![160000, 20]⟩ : Shape).Idx → EReal)
    (x4 : (⟨2, ![160000, 3]⟩ : Shape).Idx → EReal) (x5 : (⟨1, ![160000]⟩ : Shape).Idx → EReal)
    (x6 : (⟨2, ![128, 384]⟩ : Shape).Idx → EReal) (x7 : (⟨1, ![384]⟩ : Shape).Idx → EReal)
    (x8 : (⟨2, ![384, 384]⟩ : Shape).Idx → EReal) (x9 : (⟨1, ![384]⟩ : Shape).Idx → EReal)
    (x10 : (⟨2, ![20, 128]⟩ : Shape).Idx → EReal) (x11 : (⟨1, ![128]⟩ : Shape).Idx → EReal)
    (x12 : (⟨2, ![128, 384]⟩ : Shape).Idx → EReal) (x13 : (⟨1, ![384]⟩ : Shape).Idx → EReal)
    (h : ArgsInRange x2) : tiledOutMu x0 x1 x2 x3 x4 x5 x6 x7 x8 x9 x10 x11 x12 x13 = wholeOutMu x0 x1 x2 x3 x4 x5 x6 x7 x8 x9 x10 x11 x12 x13 := by
  unfold tiledOutMu wholeOutMu
  refine congrArg arr3 (funext fun n => funext fun a => funext fun l => ?_)
  exact tiledMu_eq_wholeMu _ _ _ _ _ _ _ _ _ _ _ _ _ _ _ h n a l

end PaiNN

end
-- ==== Proof.PreRange.lean ====
/-
  The precondition's last conjunct, read back: every word of the edge list is at least zero and below the number of nodes.

  The precondition is one long conjunction, given as a chain of parts, each part ending in the call of the next.
  Only its tail matters here: the last part is  (everything before) and (all of m),  where  m  is the elementwise
  "and" of the two comparison masks  edge word ≥ 0  and  edge word < 20000.  So the whole being 1 makes the
  reduction of  m  equal to 1, hence every element of  m  is 1, hence both comparisons hold at every position of the
  edge list; read signed, they are the two inequalities asked for.
-/
import proofs.«407274_j17514876634209_3_alg».proof.Pre_finite_inputs
import proofs.«407274_j17514876634209_3_alg».proof.Proof.Gen.Pre_finite_inputs
import proofs.«407274_j17514876634209_3_alg».proof.Proof.Spec
import Idealize.ShloMosaic.Lib.ReduceAll
import Idealize.ShloMosaic.Lib.StableHlo.Predicate

set_option maxRecDepth 16384

noncomputable section

namespace Cert.PreRange

open Idealize.ShloMosaic Idealize.ShloMosaic.ValueIdx PaiNN
open Cert.Pre_finite_inputs

/-- A scalar result has exactly one index. -/
private instance scalarIdxSubsingleton : Subsingleton S_.Idx := ⟨fun a b => funext fun d => d.elim0⟩

/-- The last part: a conjunction whose right half is "all of (ge and lt)". If it is 1, both masks are 1 everywhere. -/
private theorem part4_masks [Facts] (v63 : IVec S_ 1) (ge lt : IVec S2x160000 1)
    (h : fn_part4 (F := Ideal) v63 ge lt = fun _ => 1#1) (i : S2x160000.Idx) : ge i = 1#1 ∧ lt i = 1#1 := by
  have h0 := congrFun h ix0
  have h1 : IntOp.andi (v63 ix0)
      (Host.reduce IntOp.andi (andi ge lt) (constantI S_ 1 1#1) Facts.reducesTo_S2x160000_S_d0_1 Facts.h_S_ ix0) = 1#1 := h0
  have h2 := (IntOp.andi_eq_one.1 h1).2
  have h3 : IntOp.andi (ge i) (lt i) = 1#1 := Host.reduce_andi_all _ _ _ _ _ h2 i
  exact IntOp.andi_eq_one.1 h3

/-- The two masks are the signed comparisons of the edge words against the constants 0 and 20000, each constant
    spread over the whole array; at one position they say the word lies in [0, 20000). -/
private theorem part3_range [Facts] (x2 : IVec S2x160000 32) (a12 : FVec Ideal S128x384 .f32) (a13 : FVec Ideal S384 .f32)
    (v48 : IVec S_ 1) (v49 v50 : FVec Ideal S128 .f32)
    (h : fn_part3 (F := Ideal) x2 a12 a13 v48 v49 v50 = fun _ => 1#1) (i : S2x160000.Idx) :
    0 ≤ (x2 i).toInt ∧ (x2 i).toInt < 20000 := by
  obtain ⟨hge, hlt⟩ := part4_masks _ _ _ h i
  have hge' : IntOp.cmpi .sge (x2 i) (0#32) = 1#1 := hge
  have hlt' : IntOp.cmpi .slt (x2 i) (20000#32) = 1#1 := hlt
  have z0 : (0#32 : BitVec 32).toInt = 0 := by decide
  have z1 : (20000#32 : BitVec 32).toInt = 20000 := by decide
  have e1 := IntOp.cmpi_sge.1 hge'
  have e2 := IntOp.cmpi_slt.1 hlt'
  rw [z0] at e1
  rw [z1] at e2
  exact ⟨e1, e2⟩

/-- Every part before hands the edge list on unchanged and ends in the call of the next. -/
private theorem part2_range [Facts] (x2 : IVec S2x160000 32) (a8 : FVec Ideal S384x384 .f32) (a9 : FVec Ideal S384 .f32)
    (a10 : FVec Ideal S20x128 .f32) (a11 : FVec Ideal S128 .f32) (a12 : FVec Ideal S128x384 .f32) (a13 : FVec Ideal S384 .f32)
    (v33 : IVec S_ 1)
    (h : fn_part2 (F := Ideal) x2 a8 a9 a10 a11 a12 a13 v33 = fun _ => 1#1) (i : S2x160000.Idx) :
    0 ≤ (x2 i).toInt ∧ (x2 i).toInt < 20000 :=
  part3_range x2 _ _ _ _ _ h i

private theorem part1_range [Facts] (x2 : IVec S2x160000 32) (a5 : FVec Ideal S160000 .f32) (a6 : FVec Ideal S128x384 .f32)
    (a7 : FVec Ideal S384 .f32) (a8 : FVec Ideal S384x384 .f32) (a9 : FVec Ideal S384 .f32)
    (a10 : FVec Ideal S20x128 .f32) (a11 : FVec Ideal S128 .f32) (a12 : FVec Ideal S128x384 .f32) (a13 : FVec Ideal S384 .f32)
    (v13 : IVec S_ 1) (v16 : IVec S160000x3 1)
    (h : fn_part1 (F := Ideal) x2 a5 a6 a7 a8 a9 a10 a11 a12 a13 v13 v16 = fun _ => 1#1) (i : S2x160000.Idx) :
    0 ≤ (x2 i).toInt ∧ (x2 i).toInt < 20000 :=
  part2_range x2 _ _ _ _ _ _ _ h i

theorem argsInRange [Cert.Pre_finite_inputs.Facts] (x0 : (⟨2, ![20000, 128]⟩ : Shape).Idx → EReal) (x1 : (⟨3, ![20000, 3, 128]⟩ : Shape).Idx → EReal)
    (x2 : (⟨2, ![2, 160000]⟩ : Shape).Idx → BitVec 32) (x3 : (⟨2, ![160000, 20]⟩ : Shape).Idx → EReal)
    (x4 : (⟨2, ![160000, 3]⟩ : Shape).Idx → EReal) (x5 : (⟨1, ![160000]⟩ : Shape).Idx → EReal)
    (x6 : (⟨2, ![128, 384]⟩ : Shape).Idx → EReal) (x7 : (⟨1, ![384]⟩ : Shape).Idx → EReal)
    (x8 : (⟨2, ![384, 384]⟩ : Shape).Idx → EReal) (x9 : (⟨1, ![384]⟩ : Shape).Idx → EReal)
    (x10 : (⟨2, ![20, 128]⟩ : Shape).Idx → EReal) (x11 : (⟨1, ![128]⟩ : Shape).Idx → EReal)
    (x12 : (⟨2, ![128, 384]⟩ : Shape).Idx → EReal) (x13 : (⟨1, ![384]⟩ : Shape).Idx → EReal)
    (h : Cert.Pre_finite_inputs.fn (F := Ideal) x0 x1 x2 x3 x4 x5 x6 x7 x8 x9 x10 x11 x12 x13 = fun _ => 1#1) : ArgsInRange x2 := by
  have hall : ∀ i : S2x160000.Idx, 0 ≤ (x2 i).toInt ∧ (x2 i).toInt < 20000 :=
    fun i => part1_range x2 _ _ _ _ _ _ _ _ _ _ _ h i
  intro e
  exact ⟨hall (ix2 (1 : Fin 2) e), hall (ix2 (0 : Fin 2) e)⟩

end Cert.PreRange

end
-- ==== Proof.lean ====
/-
  The message-passing layer in three tiled launches against its whole-array form.

  Both programs compute, for every node, its features plus the mean over the edges pointing at it of the edge messages
  (the sum divided by the larger of the number of such edges and one). The whole-array program reads a source node's row
  by a gather and sums over a target's edges by a scatter-add; the tiled program multiplies by zero-one matrices: the
  table row of an edge's source is the sum over ALL rows weighted by "row number = source", and a node's sum is the sum
  over ALL edges weighted by "target = node number". On the extended reals zero times anything is zero, so the weighted
  sums are the selected terms whatever the entries are; what is needed is that every word of the edge list is a node
  number (the precondition's range conjunct): outside that range a gather clamps where the zero-one product gives a zero
  row.

  The pieces: each launch's output array as a function of the arrays it reads (Region0, Region1, Region2); the tiled
  program's run with its two results named, and those results as functions of the arguments (KernelRun, KernelTail); the
  whole-array program's results read entry by entry (RefValue); the two spellings agree in range (Algebra); the
  precondition gives the range (PreRange).
-/
import proofs.«407274_j17514876634209_3_alg».proof.Defs
import proofs.«407274_j17514876634209_3_alg».proof.Proof.Gen.Kernel
import proofs.«407274_j17514876634209_3_alg».proof.Proof.Gen.Kernel.Skeleton
import proofs.«407274_j17514876634209_3_alg».proof.Proof.Gen.Kernel.Loops
import proofs.«407274_j17514876634209_3_alg».proof.Proof.Gen.Kernel.Launch
import proofs.«407274_j17514876634209_3_alg».proof.Proof.Gen.Kernel.Points
import proofs.«407274_j17514876634209_3_alg».proof.Proof.Gen.Kernel.Frame
import proofs.«407274_j17514876634209_3_alg».proof.Proof.Gen.KernelIdeal
import proofs.«407274_j17514876634209_3_alg».proof.Proof.Gen.KernelIdeal.Skeleton
import proofs.«407274_j17514876634209_3_alg».proof.Proof.Gen.KernelIdeal.Loops
import proofs.«407274_j17514876634209_3_alg».proof.Proof.Gen.KernelIdeal.Launch
import proofs.«407274_j17514876634209_3_alg».proof.Proof.Gen.KernelIdeal.Points
import proofs.«407274_j17514876634209_3_alg».proof.Proof.Gen.KernelIdeal.Frame
import proofs.«407274_j17514876634209_3_alg».proof.Proof.Gen.ReferenceIdeal
import proofs.«407274_j17514876634209_3_alg».proof.Proof.Gen.Pre_finite_inputs
import proofs.«407274_j17514876634209_3_alg».proof.Proof.Gen.ReferenceIdeal.Run
import proofs.«407274_j17514876634209_3_alg».proof.Proof.Gen.ReferenceIdeal.Read
import proofs.«407274_j17514876634209_3_alg».proof.Proof.Spec
import proofs.«407274_j17514876634209_3_alg».proof.Proof.KernelRun
import proofs.«407274_j17514876634209_3_alg».proof.Proof.KernelTail
import proofs.«407274_j17514876634209_3_alg».proof.Proof.RefValue
import proofs.«407274_j17514876634209_3_alg».proof.Proof.Algebra
import proofs.«407274_j17514876634209_3_alg».proof.Proof.PreRange
import Idealize.ShloMosaic.Adequacy
import Idealize.ShloMosaic.Init

set_option maxRecDepth 16384

noncomputable section

namespace Cert.Proof

open Idealize.ShloMosaic Idealize.SL.Sem

/-- The word-level program terminates without a fault and leaves its arguments as they were. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- The whole-array program's run, its results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, in range, both programs end with the whole-array spelling's two results: the tiled
    program's results are the tiled spelling of its arguments, which is the whole-array spelling in range; the whole-array
    program's are the whole-array spelling of its own arguments, which are the same arrays. -/
theorem algebraic : Cert.algebraic_KernelIdeal_ReferenceIdeal := by
  intro m ρ m' ρ' hpre hagree
  refine ⟨fun c => PaiNN.wholeOutQ (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => PaiNN.wholeOutMu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.RunNamed.run_named (F := Ideal) m ρ)
    have hr := Cert.PreRange.argsInRange _ _ _ _ _ _ _ _ _ _ _ _ _ _ (hpre c)
    exact ⟨(h c).1.trans ((Cert.KernelIdeal.Tail.q_value m ρ c).trans (PaiNN.tiledOutQ_eq_wholeOutQ _ _ _ _ _ _ _ _ _ _ _ _ _ _ hr)),
      (h c).2.1.trans ((Cert.KernelIdeal.Tail.mu_value m ρ c).trans (PaiNN.tiledOutMu_eq_wholeOutMu _ _ _ _ _ _ _ _ _ _ _ _ _ _ hr)),
      (h c).2.2⟩
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13⟩ := hagree c
    refine ⟨(h c).1.trans ?_, (h c).2.1.trans ?_, (h c).2.2⟩
    · rw [Cert.ReferenceIdeal.RefValue.q_value m' c, a0, a2, a3, a5, a6, a7, a8, a9, a10, a11, a12, a13]
    · rw [Cert.ReferenceIdeal.RefValue.mu_value m' c, a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
